-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4x1024 : Shape := ⟨3, ![2048, 4, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S2048x4x1024 : S_.BroadcastsInDim S2048x4x1024 (![] : Fin 0 → Fin S2048x4x1024.rank)
  reducesTo_S2048x4x1024_S_d0_1_2 : S2048x4x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2048x4x1024 .f32) (main_arg1 : FVec F S3072x1024 .f32) (main_arg2 : FVec F S3072 .f32) (main_arg3 : FVec F S1024x1024 .f32) (main_arg4 : FVec F S1024 .f32) : IVec S_ 1 :=
  let main_v0 : FVec F S2048x4x1024 .f32 := Host.absf main_arg0
  let main_cst : FVec F S_ .f32 := constant S_ .f32 0x7F800000#32
  let main_v1 : FVec F S2048x4x1024 .f32 := broadcastInDim S2048x4x1024 ![] bcast_S_S2048x4x1024 main_cst
  let main_v2 : IVec S2048x4x1024 1 := cmpf .olt main_v0 main_v1
  let main_c : IVec S_ 1 := constantI S_ 1 1#1
  let main_v3 : IVec S_ 1 := (fun x v => Host.reduce IntOp.andi x v reducesTo_S2048x4x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2048x4x1024 : Shape := ⟨3, ![2048, 4, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S8192x1024 : Shape := ⟨2, ![8192, 1024]⟩
abbrev S1x3072 : Shape := ⟨2, ![1, 3072]⟩
abbrev S8192x3072 : Shape := ⟨2, ![8192, 3072]⟩
abbrev S512x1024 : Shape := ⟨2, ![512, 1024]⟩
abbrev S512x3072 : Shape := ⟨2, ![512, 3072]⟩
abbrev S2048x4x3072 : Shape := ⟨3, ![2048, 4, 3072]⟩
abbrev S2048x4x16x64 : Shape := ⟨4, ![2048, 4, 16, 64]⟩
abbrev S4x16x2048x64 : Shape := ⟨4, ![4, 16, 2048, 64]⟩
abbrev S4x16x64x2048 : Shape := ⟨4, ![4, 16, 64, 2048]⟩
abbrev S1024x16x64 : Shape := ⟨3, ![1024, 16, 64]⟩
abbrev S16x64x1024 : Shape := ⟨3, ![16, 64, 1024]⟩
abbrev S1x1024 : Shape := ⟨2, ![1, 1024]⟩
abbrev S4x2048x1024 : Shape := ⟨3, ![4, 2048, 1024]⟩
abbrev S4x2048x2048 : Shape := ⟨3, ![4, 2048, 2048]⟩
abbrev S1x1x512x64 : Shape := ⟨4, ![1, 1, 512, 64]⟩
abbrev S1x1x64x2048 : Shape := ⟨4, ![1, 1, 64, 2048]⟩
abbrev S1x512x1024 : Shape := ⟨3, ![1, 512, 1024]⟩
abbrev S1x512x2048 : Shape := ⟨3, ![1, 512, 2048]⟩
abbrev S512x2048 : Shape := ⟨2, ![512, 2048]⟩
abbrev S512x64 : Shape := ⟨2, ![512, 64]⟩
abbrev S64x2048 : Shape := ⟨2, ![64, 2048]⟩
abbrev S512 : Shape := ⟨1, ![512]⟩
abbrev S512x1 : Shape := ⟨2, ![512, 1]⟩
abbrev S1x64x1024 : Shape := ⟨3, ![1, 64, 1024]⟩
abbrev S64x1024 : Shape := ⟨2, ![64, 1024]⟩

abbrev nBuf : Space → Nat
  | .hbm => 26
  | .vmem => 20
  | .smem => 0
  | _ => 0

abbrev bufTy : (tb : Table) → Fin (tcTables nBuf tb) → BufTy
  | .hbm, ⟨0, _⟩ => ⟨S2048x4x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S8192x1024, .f32⟩
  | .hbm, ⟨6, _⟩ => ⟨S3072x1024, .bf16⟩
  | .hbm, ⟨7, _⟩ => ⟨S1x3072, .f32⟩
  | .hbm, ⟨8, _⟩ => ⟨S8192x3072, .bf16⟩
  | .hbm, ⟨9, _⟩ => ⟨S2048x4x3072, .bf16⟩
  | .hbm, ⟨10, _⟩ => ⟨S2048x4x1024, .bf16⟩
  | .hbm, ⟨11, _⟩ => ⟨S2048x4x1024, .bf16⟩
  | .hbm, ⟨12, _⟩ => ⟨S2048x4x1024, .bf16⟩
  | .hbm, ⟨13, _⟩ => ⟨S2048x4x16x64, .bf16⟩
  | .hbm, ⟨14, _⟩ => ⟨S4x16x2048x64, .bf16⟩
  | .hbm, ⟨15, _⟩ => ⟨S2048x4x16x64, .bf16⟩
  | .hbm, ⟨16, _⟩ => ⟨S4x16x64x2048, .bf16⟩
  | .hbm, ⟨17, _⟩ => ⟨S2048x4x16x64, .bf16⟩
  | .hbm, ⟨18, _⟩ => ⟨S4x16x64x2048, .bf16⟩
  | .hbm, ⟨19, _⟩ => ⟨S1024x16x64, .f32⟩
  | .hbm, ⟨20, _⟩ => ⟨S16x64x1024, .f32⟩
  | .hbm, ⟨21, _⟩ => ⟨S16x64x1024, .bf16⟩
  | .hbm, ⟨22, _⟩ => ⟨S1x1024, .f32⟩
  | .hbm, ⟨23, _⟩ => ⟨S4x2048x1024, .f32⟩
  | .hbm, ⟨24, _⟩ => ⟨S4x2048x2048, .f32⟩
  | .hbm, ⟨25, _⟩ => ⟨S2048x4x1024, .f32⟩
  | .local _ .vmem, ⟨0, _⟩ => ⟨S512x1024, .f32⟩
  | .local _ .vmem, ⟨1, _⟩ => ⟨S512x1024, .f32⟩
  | .local _ .vmem, ⟨2, _⟩ => ⟨S3072x1024, .bf16⟩
  | .local _ .vmem, ⟨3, _⟩ => ⟨S1x3072, .f32⟩
  | .local _ .vmem, ⟨4, _⟩ => ⟨S512x3072, .bf16⟩
  | .local _ .vmem, ⟨5, _⟩ => ⟨S512x3072, .bf16⟩
  | .local _ .vmem, ⟨6, _⟩ => ⟨S1x1x512x64, .bf16⟩
  | .local _ .vmem, ⟨7, _⟩ => ⟨S1x1x512x64, .bf16⟩
  | .local _ .vmem, ⟨8, _⟩ => ⟨S1x1x64x2048, .bf16⟩
  | .local _ .vmem, ⟨9, _⟩ => ⟨S1x1x64x2048, .bf16⟩
  | .local _ .vmem, ⟨10, _⟩ => ⟨S1x1x64x2048, .bf16⟩
  | .local _ .vmem, ⟨11, _⟩ => ⟨S1x1x64x2048, .bf16⟩
  | .local _ .vmem, ⟨12, _⟩ => ⟨S16x64x1024, .bf16⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x2048, .f32⟩
  | .local _ .vmem, ⟨17, _⟩ => ⟨S1x512x2048, .f32⟩
  | .local _ .vmem, ⟨18, _⟩ => ⟨S512x2048, .f32⟩
  | .local _ .vmem, ⟨19, _⟩ => ⟨S512x1024, .f32⟩
  | _, _ => ⟨S2048x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18_0 : Ref sig .tc := ⟨.hbm, 23, rfl⟩
abbrev main_v18_1 : Ref sig .tc := ⟨.hbm, 24, rfl⟩
abbrev main_v19 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_scratch0 : Ref sig .tc := ⟨.vmem, 18, rfl⟩
abbrev cc1_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![4, 4, 16], ![false, false, false]⟩

def k1_off1 (i : grid1.Coords) : Fin 3 → Nat :=
  let arg2 : BitVec 32 := BitVec.ofNat 32 (i 2).val
  let v32 : Index := Scalar.indexCast arg2
  let c0_22 : Index := 0#32
  let c0_23 : Index := 0#32
  ![v32.toNat, 0, 0]
def k1_cond2 (i : grid1.Coords) : BitVec 1 :=
  let arg2 : BitVec 32 := BitVec.ofNat 32 (i 2).val
  let c15_i32 : BitVec 32 := 15#32
  let v42 : BitVec 1 := Scalar.cmpi .eq arg2 c15_i32
  let v43 : BitVec 32 := Scalar.extui v42
  let c0_i32_29 : BitVec 32 := 0#32
  let v44 : BitVec 1 := Scalar.cmpi .ne v43 c0_i32_29
  v44

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x64x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1x64x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 1 → Memref sig .tc .vmem S16x64x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S1x512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev stage1_6 : Fin 2 → Memref sig .tc .vmem S1x512x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

class Facts₀ : Prop where
  shapeCasts_S2048x4x1024_S8192x1024 : S2048x4x1024.ShapeCasts S8192x1024
  bitsLt_bf16_f32 : FTy.bits .bf16 < FTy.bits .f32
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S8192x3072_S2048x4x3072 : S8192x3072.ShapeCasts S2048x4x3072
  slices_S2048x4x3072_S2048x4x1024_0_0_0 : S2048x4x3072.Slices ![0, 0, 0] S2048x4x1024
  slices_S2048x4x3072_S2048x4x1024_0_0_1024 : S2048x4x3072.Slices ![0, 0, 1024] S2048x4x1024
  slices_S2048x4x3072_S2048x4x1024_0_0_2048 : S2048x4x3072.Slices ![0, 0, 2048] S2048x4x1024
  shapeCasts_S2048x4x1024_S2048x4x16x64 : S2048x4x1024.ShapeCasts S2048x4x16x64
  transposes_S2048x4x16x64_S4x16x2048x64_1_2_0_3 : S2048x4x16x64.Transposes [1, 2, 0, 3] S4x16x2048x64
  transposes_S2048x4x16x64_S4x16x64x2048_1_2_3_0 : S2048x4x16x64.Transposes [1, 2, 3, 0] S4x16x64x2048
  shapeCasts_S1024x1024_S1024x16x64 : S1024x1024.ShapeCasts S1024x16x64
  transposes_S1024x16x64_S16x64x1024_1_2_0 : S1024x16x64.Transposes [1, 2, 0] S16x64x1024
  shapeCasts_S1024_S1x1024 : S1024.ShapeCasts S1x1024
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x64x2048_S1x1x64x2048_0_0_0_0 : ∀ a, (![0, 0, 0, 0] : Fin 4 → Nat) a + S1x1x64x2048.size a ≤ S1x1x64x2048.size a
  h_S1x1x64x2048 : 0 < S1x1x64x2048.numel
  shapeCasts_S1x1x64x2048_S64x2048 : S1x1x64x2048.ShapeCasts S64x2048
  reduces_S512x2048_S512 : S512x2048.Reduces [1] S512
  shapeCasts_S512_S512x1 : S512.ShapeCasts S512x1
  broadcasts_S512x1_S512x2048 : S512x1.Broadcasts S512x2048
  h_S1x64x1024 : 0 < S1x64x1024.numel
  shapeCasts_S1x64x1024_S64x1024 : S1x64x1024.ShapeCasts S64x1024
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  transposes_S4x2048x1024_S2048x4x1024_1_0_2 : S4x2048x1024.Transposes [1, 0, 2] S2048x4x1024
  dot_S512x1024_S3072x1024_S512x3072_1_1_0_0_n_n_wf : DotDims.WF S512x1024 S3072x1024 S512x3072 [1] [1] [0] [0] [] []
  dot_S512x64_S64x2048_S512x2048_1_0_0_1_n_n_wf : DotDims.WF S512x64 S64x2048 S512x2048 [1] [0] [0] [1] [] []
  dot_S512x2048_S64x2048_S512x64_1_1_0_0_n_n_wf : DotDims.WF S512x2048 S64x2048 S512x64 [1] [1] [0] [0] [] []
  dot_S512x64_S64x1024_S512x1024_1_0_0_1_n_n_wf : DotDims.WF S512x64 S64x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S8192x3072.size a
  hwx0_3 : ∀ i : grid0.Coords, EltTy.bits .bf16 = 32 ∨ (Rect.block (s := S8192x3072) S512x3072.size (cc0_transform_3 i) (hinb0_3 i)).WholeWords (EltTy.packing .bf16)
  hrank1 : 0 < grid1.rank
  k1_off1_inb : ∀ i : grid1.Coords, ∀ a, (k1_off1 i) a + S1x64x1024.size a ≤ S16x64x1024.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x512x64.size a ≤ S4x16x2048x64.size a
  hwx1_0 : ∀ i : grid1.Coords, EltTy.bits .bf16 = 32 ∨ (Rect.block (s := S4x16x2048x64) S1x1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x64x2048.size a ≤ S4x16x64x2048.size a
  hwx1_1 : ∀ i : grid1.Coords, EltTy.bits .bf16 = 32 ∨ (Rect.block (s := S4x16x64x2048) S1x1x64x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x64x2048.size a ≤ S4x16x64x2048.size a
  hwx1_2 : ∀ i : grid1.Coords, EltTy.bits .bf16 = 32 ∨ (Rect.block (s := S4x16x64x2048) S1x1x64x2048.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x64x1024.size a ≤ S16x64x1024.size a
  hwx1_3 : ∀ i : grid1.Coords, EltTy.bits .bf16 = 32 ∨ (Rect.block (s := S16x64x1024) S16x64x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x1024.size a ≤ S4x2048x1024.size a
  hwx1_5 : ∀ i : grid1.Coords, EltTy.bits .f32 = 32 ∨ (Rect.block (s := S4x2048x1024) S1x512x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x512x2048.size a ≤ S4x2048x2048.size a
  hwx1_6 : ∀ i : grid1.Coords, EltTy.bits .f32 = 32 ∨ (Rect.block (s := S4x2048x2048) S1x512x2048.size (cc1_transform_6 i) (hinb1_6 i)).WholeWords (EltTy.packing .f32)

variable [Facts₀]

def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S64x2048_S512x64_1_1_0_0_n_n : DotDims S512x2048 S64x2048 S512x64 where
  lhsContracting := [1]
  rhsContracting := [1]
  lhsNonContracting := [0]
  rhsNonContracting := [0]
  lhsBatch := []
  rhsBatch := []
  wf := dot_S512x2048_S64x2048_S512x64_1_1_0_0_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S1x1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x1x64x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x1x64x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S16x64x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18_0) S1x512x1024.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v18_1) S1x512x2048.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond2 i == 1#1) | 6 => fun i => !(k1_cond2 i == 1#1) | ⟨_ + 7, h⟩ => absurd h (Nat.not_lt.2 (Nat.le_add_left _ _))

class Facts : Prop extends Facts₀ where

variable [Facts]
-- ==== ReferenceIdeal.lean ====
abbrev S2048x4x1024 : Shape := ⟨3, ![2048, 4, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S2048x4x3072 : Shape := ⟨3, ![2048, 4, 3072]⟩
abbrev S1x1x3072 : Shape := ⟨3, ![1, 1, 3072]⟩
abbrev S_ : Shape := ⟨0, ![]⟩
abbrev S2048x4x16x64 : Shape := ⟨4, ![2048, 4, 16, 64]⟩
abbrev S4x16x2048x64 : Shape := ⟨4, ![4, 16, 2048, 64]⟩
abbrev S4x16x2048x2048 : Shape := ⟨4, ![4, 16, 2048, 2048]⟩
abbrev S4x16x2048 : Shape := ⟨3, ![4, 16, 2048]⟩
abbrev S4x16x2048x1 : Shape := ⟨4, ![4, 16, 2048, 1]⟩
abbrev S1x1x1024 : Shape := ⟨3, ![1, 1, 1024]⟩
abbrev S4x2048x2048 : Shape := ⟨3, ![4, 2048, 2048]⟩

abbrev nBuf : Space → Nat
  | .hbm => 48
  | .vmem => 0
  | .smem => 0
  | _ => 0

abbrev bufTy : (tb : Table) → Fin (tcTables nBuf tb) → BufTy
  | .hbm, ⟨0, _⟩ => ⟨S2048x4x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S2048x4x3072, .f32⟩
  | .hbm, ⟨6, _⟩ => ⟨S1x1x3072, .f32⟩
  | .hbm, ⟨7, _⟩ => ⟨S2048x4x3072, .f32⟩
  | .hbm, ⟨8, _⟩ => ⟨S2048x4x3072, .f32⟩
  | .hbm, ⟨9, _⟩ => ⟨S2048x4x1024, .f32⟩
  | .hbm, ⟨10, _⟩ => ⟨S2048x4x1024, .f32⟩
  | .hbm, ⟨11, _⟩ => ⟨S2048x4x1024, .f32⟩
  | .hbm, ⟨12, _⟩ => ⟨S_, .f32⟩
  | .hbm, ⟨13, _⟩ => ⟨S2048x4x1024, .f32⟩
  | .hbm, ⟨14, _⟩ => ⟨S2048x4x1024, .f32⟩
  | .hbm, ⟨15, _⟩ => ⟨S2048x4x16x64, .f32⟩
  | .hbm, ⟨16, _⟩ => ⟨S4x16x2048x64, .f32⟩
  | .hbm, ⟨17, _⟩ => ⟨S2048x4x16x64, .f32⟩
  | .hbm, ⟨18, _⟩ => ⟨S4x16x2048x64, .f32⟩
  | .hbm, ⟨19, _⟩ => ⟨S2048x4x16x64, .f32⟩
  | .hbm, ⟨20, _⟩ => ⟨S4x16x2048x64, .f32⟩
  | .hbm, ⟨21, _⟩ => ⟨S4x16x2048x2048, .f32⟩
  | .hbm, ⟨22, _⟩ => ⟨S_, .f32⟩
  | .hbm, ⟨23, _⟩ => ⟨S4x16x2048, .f32⟩
  | .hbm, ⟨24, _⟩ => ⟨S_, .f32⟩
  | .hbm, ⟨25, _⟩ => ⟨S4x16x2048, .f32⟩
  | .hbm, ⟨26, _⟩ => ⟨S4x16x2048, .f32⟩
  | .hbm, ⟨27, _⟩ => ⟨S4x16x2048x1, .f32⟩
  | .hbm, ⟨28, _⟩ => ⟨S4x16x2048x2048, .f32⟩
  | .hbm, ⟨29, _⟩ => ⟨S4x16x2048x2048, .f32⟩
  | .hbm, ⟨30, _⟩ => ⟨S4x16x2048x2048, .f32⟩
  | .hbm, ⟨31, _⟩ => ⟨S_, .f32⟩
  | .hbm, ⟨32, _⟩ => ⟨S4x16x2048, .f32⟩
  | .hbm, ⟨33, _⟩ => ⟨S4x16x2048x1, .f32⟩
  | .hbm, ⟨34, _⟩ => ⟨S4x16x2048x2048, .f32⟩
  | .hbm, ⟨35, _⟩ => ⟨S4x16x2048x2048, .f32⟩
  | .hbm, ⟨36, _⟩ => ⟨S4x16x2048x64, .f32⟩
  | .hbm, ⟨37, _⟩ => ⟨S2048x4x16x64, .f32⟩
  | .hbm, ⟨38, _⟩ => ⟨S2048x4x1024, .f32⟩
  | .hbm, ⟨39, _⟩ => ⟨S2048x4x1024, .f32⟩
  | .hbm, ⟨40, _⟩ => ⟨S1x1x1024, .f32⟩
  | .hbm, ⟨41, _⟩ => ⟨S2048x4x1024, .f32⟩
  | .hbm, ⟨42, _⟩ => ⟨S2048x4x1024, .f32⟩
  | .hbm, ⟨43, _⟩ => ⟨S_, .f32⟩
  | .hbm, ⟨44, _⟩ => ⟨S4x2048x2048, .f32⟩
  | .hbm, ⟨45, _⟩ => ⟨S_, .f32⟩
  | .hbm, ⟨46, _⟩ => ⟨S4x2048x2048, .f32⟩
  | .hbm, ⟨47, _⟩ => ⟨S4x2048x2048, .f32⟩
  | _, _ => ⟨S2048x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2048x4x3072_0_1_2 : S1x1x3072.BroadcastsInDim S2048x4x3072 (![0, 1, 2] : Fin 3 → Fin S2048x4x3072.rank)
  slices_S2048x4x3072_S2048x4x1024_0_0_0 : S2048x4x3072.Slices ![0, 0, 0] S2048x4x1024
  slices_S2048x4x3072_S2048x4x1024_0_0_1024 : S2048x4x3072.Slices ![0, 0, 1024] S2048x4x1024
  slices_S2048x4x3072_S2048x4x1024_0_0_2048 : S2048x4x3072.Slices ![0, 0, 2048] S2048x4x1024
  bcast_S_S2048x4x1024 : S_.BroadcastsInDim S2048x4x1024 (![] : Fin 0 → Fin S2048x4x1024.rank)
  shapeCasts_S2048x4x1024_S2048x4x16x64 : S2048x4x1024.ShapeCasts S2048x4x16x64
  transposes_S2048x4x16x64_S4x16x2048x64_1_2_0_3 : S2048x4x16x64.Transposes [1, 2, 0, 3] S4x16x2048x64
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S2048x4x16x64_2_0_1_3 : S4x16x2048x64.Transposes [2, 0, 1, 3] S2048x4x16x64
  shapeCasts_S2048x4x16x64_S2048x4x1024 : S2048x4x16x64.ShapeCasts S2048x4x1024
  bcast_S1024_S1x1x1024_2 : S1024.BroadcastsInDim S1x1x1024 (![2] : Fin 1 → Fin S1x1x1024.rank)
  bcast_S1x1x1024_S2048x4x1024_0_1_2 : S1x1x1024.BroadcastsInDim S2048x4x1024 (![0, 1, 2] : Fin 3 → Fin S2048x4x1024.rank)
  reducesTo_S4x16x2048x2048_S4x2048x2048_d1 : S4x16x2048x2048.ReducesTo [1] S4x2048x2048
  bcast_S_S4x2048x2048 : S_.BroadcastsInDim S4x2048x2048 (![] : Fin 0 → Fin S4x2048x2048.rank)
  dot_S2048x4x1024_S3072x1024_S2048x4x3072_2_1_01_0_n_n_wf : DotDims.WF S2048x4x1024 S3072x1024 S2048x4x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S2048x4x1024_S1024x1024_S2048x4x1024_2_1_01_0_n_n_wf : DotDims.WF S2048x4x1024 S1024x1024 S2048x4x1024 [2] [1] [0, 1] [0] [] []

variable [Facts₀]

def dot_S2048x4x1024_S3072x1024_S2048x4x3072_2_1_01_0_n_n : DotDims S2048x4x1024 S3072x1024 S2048x4x3072 where
  lhsContracting := [2]
  rhsContracting := [1]
  lhsNonContracting := [0, 1]
  rhsNonContracting := [0]
  lhsBatch := []
  rhsBatch := []
  wf := dot_S2048x4x1024_S3072x1024_S2048x4x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S2048x4x1024_S1024x1024_S2048x4x1024_2_1_01_0_n_n : DotDims S2048x4x1024 S1024x1024 S2048x4x1024 where
  lhsContracting := [2]
  rhsContracting := [1]
  lhsNonContracting := [0, 1]
  rhsNonContracting := [0]
  lhsBatch := []
  rhsBatch := []
  wf := dot_S2048x4x1024_S1024x1024_S2048x4x1024_2_1_01_0_n_n_wf

class Facts : Prop extends Facts₀ where

variable [Facts]
-- ==== Proof.RefRun.lean ====
/-
  The reference program's run and its stages read at an index, brought into scope for the value proof.
-/
import proofs.«407651_j53060025975075_3_alg».proof.Proof.Gen.ReferenceIdeal.Run
import proofs.«407651_j53060025975075_3_alg».proof.Proof.Gen.ReferenceIdeal.Read
-- ==== Proof.KIRegion0.lean ====
/- Region 0 of @main, the projection x ↦ bf16 (bf16 x · Wᵀ + b) over 16 row blocks of 512 rows: at an arbitrary
   contents `V` of the TensorCore's buffers on entry, each window's block at a grid point, what the body leaves in
   the output window's buffer as a function of the three input blocks, the body's triple, the pipeline's proof
   data and its body obligation. -/
import proofs.«407651_j53060025975075_3_alg».proof.Proof.Gen.KernelIdeal.Launch
import proofs.«407651_j53060025975075_3_alg».proof.Proof.Gen.KernelIdeal.Skeleton
import proofs.«407651_j53060025975075_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with extents in the thousands recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not the pipeline fetched it
    there: where it is not fetched the block index has not moved, so the buffer still holds the previous point's
    block, which is this point's. For any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, whether or not the pipeline fetched it
    there: where it is not fetched the block index has not moved, so the buffer still holds the previous point's
    block, which is this point's. For any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, whether or not the pipeline fetched it
    there: where it is not fetched the block index has not moved, so the buffer still holds the previous point's
    block, which is this point's. For any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S512x1024 := Rect.unit (s := S512x1024) ![0, 0] S512x1024.size inb_S512x1024_S512x1024_0_0
abbrev r0_1 : Rect S3072x1024 := Rect.unit (s := S3072x1024) ![0, 0] S3072x1024.size inb_S3072x1024_S3072x1024_0_0
abbrev r0_2 : Rect S1x3072 := Rect.unit (s := S1x3072) ![0, 0] S1x3072.size inb_S1x3072_S1x3072_0_0
abbrev r0_3 : Rect S512x3072 := Rect.unit (s := S512x3072) ![0, 0] S512x3072.size inb_S512x3072_S512x3072_0_0

/-! ## What the body leaves in the output window's buffer -/

/-- The output buffer after the body, from the three input blocks: the one store, over the whole buffer, of
    bf16 (bf16 x · Wᵀ + b) with x the row block, W the weight and b the bias, each read whole. -/
def out0_3 (x0 : Vec F S512x1024 .f32) (x1 : Vec F S3072x1024 .bf16) (x2 : Vec F S1x3072 .f32) : Vec F S512x3072 .bf16 :=
  View.canon [⟨r0_3, k0_pay1 (View.ld x0 r0_0) (View.ld x1 r0_1) (View.ld x2 r0_2)⟩]

/-- The one store is over the whole buffer, so it covers every index. -/
theorem cover0_3 (p0 : Vec F S512x3072 .bf16) (y : S512x3072.Idx) :
    ∃ pc ∈ ([⟨r0_3, p0⟩] : List (View.Piece (Elt F) S512x3072 .bf16)), y ∈ pc.1.set :=
  View.cover_of_tiled [⟨r0_3, p0⟩] S512x3072.size (by rfl) y

/-! ## The body's triple -/

set_option maxHeartbeats 1000000 in
/-- On whole buffers, the three inputs' at read contents `x0 x1 x2` and the output's at anything, the body runs to
    the continuation with the inputs' as they were and the output's at `out0_3 x0 x1 x2`: it reads the three inputs
    whole, reads the output (the value is not used) and stores the payload over all of it. -/
theorem sound_kernel0 (c : Dev nD) (E : Set ℕ) (i : grid0.Coords) (arg1 : Memref sig .tc .vmem S512x1024 .f32) (harg1 : arg1.IsWhole) (arg2 : Memref sig .tc .vmem S3072x1024 .bf16) (harg2 : arg2.IsWhole) (arg3 : Memref sig .tc .vmem S1x3072 .f32) (harg3 : arg3.IsWhole) (arg4 : Memref sig .tc .vmem S512x3072 .bf16) (harg4 : arg4.IsWhole)
    (x0 : Vec F S512x1024 .f32) (x1 : Vec F S3072x1024 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t` each
    input's buffer at its block and the output's at `out0_3` of the three input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KIRegion1Runs.lean ====
import proofs.«407651_j53060025975075_3_alg».proof.Proof.Gen.KernelIdeal.Launch
import proofs.«407651_j53060025975075_3_alg».proof.Proof.Gen.KernelIdeal.Skeleton
import proofs.«407651_j53060025975075_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region (the second pallas_call), at the buffer contents `V` it is entered with

The body accumulates over the head coordinate `h` (the innermost grid axis, 16 values): at `h = 0` both scratch
accumulators are reset to zero; at every point the softmax probabilities (scaled by 1/16) are added to the first
and the head's projected output to the second; at `h = 15` the accumulators are copied to the two output blocks
(the second with the bias added). So the accumulators are carried from one grid point to the next, and the output
windows are stored at the last head only. -/

section Region1
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the window's block at every point, fetched there or not, for any
    proof data whose array is the entry contents (`hA`) and whose body leaves the block in place (`hafter`): where the
    point does not fetch, the block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the window's block at every point, fetched there or not, for any
    proof data whose array is the entry contents (`hA`) and whose body leaves the block in place (`hafter`): where the
    point does not fetch, the block index has not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds the window's block at every point, fetched there or not, for any
    proof data whose array is the entry contents (`hA`) and whose body leaves the block in place (`hafter`): where the
    point does not fetch, the block index has not moved since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds the window's block at every point, fetched there or not, for any
    proof data whose array is the entry contents (`hA`) and whose body leaves the block in place (`hafter`): where the
    point does not fetch, the block index has not moved since the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds the window's block at every point, fetched there or not, for any
    proof data whose array is the entry contents (`hA`) and whose body leaves the block in place (`hafter`): where the
    point does not fetch, the block index has not moved since the point before. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- "The head coordinate is 0": the condition under which the body resets the two accumulators, as the body computes
    it from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 16): the head coordinate is the innermost, of extent 16. -/
theorem hcond1_0 : ∀ t : Fin cfg1.N, cond1_0 (grid1.coords t) ↔ t.val % 16 = 0 :=
  (by decide +kernel : ∀ t : Fin grid1.N, cond1_0 (grid1.coords t) ↔ t.val % 16 = 0)

/-- "The head coordinate is 15": the condition under which the body copies the accumulators to the outputs. -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- At the points where the head coordinate is 0 and not 15 the configuration calls output 5 idle: nothing is stored into it there. -/
theorem idleAt1_5_A : ∀ t : Fin cfg1.N, cond1_0 (grid1.coords t) → ¬cond1_1 (grid1.coords t) → cfg1.idle 5 (grid1.coords t) = true := by decide +kernel
/-- There the pipeline does not write output 5's block back. -/
theorem noFlush1_5_A : ∀ t : Fin cfg1.N, cond1_0 (grid1.coords t) → ¬cond1_1 (grid1.coords t) → (cfg1.win 5).flush t = false := by decide +kernel
/-- At the points where the head coordinate is neither 0 nor 15 the configuration calls output 5 idle. -/
theorem idleAt1_5_B : ∀ t : Fin cfg1.N, ¬cond1_0 (grid1.coords t) → ¬cond1_1 (grid1.coords t) → cfg1.idle 5 (grid1.coords t) = true := by decide +kernel
/-- There the pipeline does not write output 5's block back. -/
theorem noFlush1_5_B : ∀ t : Fin cfg1.N, ¬cond1_0 (grid1.coords t) → ¬cond1_1 (grid1.coords t) → (cfg1.win 5).flush t = false := by decide +kernel
/-- At the points of the last head the configuration calls output 5 live: the body stores into it. -/
theorem liveAt1_5_C : ∀ t : Fin cfg1.N, ¬cond1_0 (grid1.coords t) → cond1_1 (grid1.coords t) → cfg1.idle 5 (grid1.coords t) = false := by decide +kernel
/-- At the points where the head coordinate is 0 and not 15 the configuration calls output 6 idle: nothing is stored into it there. -/
theorem idleAt1_6_A : ∀ t : Fin cfg1.N, cond1_0 (grid1.coords t) → ¬cond1_1 (grid1.coords t) → cfg1.idle 6 (grid1.coords t) = true := by decide +kernel
/-- There the pipeline does not write output 6's block back. -/
theorem noFlush1_6_A : ∀ t : Fin cfg1.N, cond1_0 (grid1.coords t) → ¬cond1_1 (grid1.coords t) → (cfg1.win 6).flush t = false := by decide +kernel
/-- At the points where the head coordinate is neither 0 nor 15 the configuration calls output 6 idle. -/
theorem idleAt1_6_B : ∀ t : Fin cfg1.N, ¬cond1_0 (grid1.coords t) → ¬cond1_1 (grid1.coords t) → cfg1.idle 6 (grid1.coords t) = true := by decide +kernel
/-- There the pipeline does not write output 6's block back. -/
theorem noFlush1_6_B : ∀ t : Fin cfg1.N, ¬cond1_0 (grid1.coords t) → ¬cond1_1 (grid1.coords t) → (cfg1.win 6).flush t = false := by decide +kernel
/-- At the points of the last head the configuration calls output 6 live: the body stores into it. -/
theorem liveAt1_6_C : ∀ t : Fin cfg1.N, ¬cond1_0 (grid1.coords t) → cond1_1 (grid1.coords t) → cfg1.idle 6 (grid1.coords t) = false := by decide +kernel

/-! ## The staging and scratch memrefs the body is called with -/

/-- One staging buffer of output window 5, through which its contents are stated (which one does not matter: contents
    read back through a whole view do not depend on the buffer). -/
abbrev VO1_5 : View sig .tc .vmem S1x512x1024 .f32 := (Memref.whole cc1_stg5_0 : Memref sig .tc .vmem S1x512x1024 .f32).view
/-- The same for output window 6. -/
abbrev VO1_6 : View sig .tc .vmem S1x512x2048 .f32 := (Memref.whole cc1_stg6_0 : Memref sig .tc .vmem S1x512x2048 .f32).view
/-- Each window's current staging memref at point `t`, and its wholeness. -/
abbrev ms1_0 (t : Fin cfg1.N) : Memref sig .tc .vmem S1x1x512x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x64x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x64x2048 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16x64x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x512x2048 .f32 := win1_6.stage (cfg1.slots t 6)
abbrev hs1_6 (t : Fin cfg1.N) : (ms1_6 t).IsWhole := hstage1_6 ((cfg1.slots t 6).cast nbuf1_6)
/-- The two accumulators: whole scoped buffers of the kernel's own, passed beside the windows. -/
abbrev scM1_0 : Memref sig .tc .vmem S512x2048 .f32 := Memref.whole cc1_scratch0
abbrev scM1_1 : Memref sig .tc .vmem S512x1024 .f32 := Memref.whole cc1_scratch1
/-- The accumulators as views: what they hold is stated through these. -/
abbrev VS1_0 : View sig .tc .vmem S512x2048 .f32 := scM1_0.view
abbrev VS1_1 : View sig .tc .vmem S512x1024 .f32 := scM1_1.view

/-- A scoped buffer of the core that this region neither stages through nor accumulates in (a staging buffer of the
    other pallas_call), whole at some contents. -/
abbrev other1 (c : Dev nD) (b : Ref sig .tc) : sProp 𝕄 :=
  iprop(∃ f : Buf (Elt F) ((c : Thread nD τ).loc b), ((c : Thread nD τ).loc b) ↦{fullShare} f)

/-- What the region is entered with besides its windows: the other pallas_call's staging buffers at anything, the two
    accumulators as memrefs owned at some contents, and the generator register at some state. -/
theorem PhiA1_eq (c : Dev nD) :
    (Pipeline.ΦA spec1 c : sProp 𝕄)
      = iprop(iprop(other1 (F := F) c cc0_stg0_0 ∗ other1 (F := F) c cc0_stg0_1 ∗ other1 (F := F) c cc0_stg1_0 ∗ other1 (F := F) c cc0_stg2_0 ∗ other1 (F := F) c cc0_stg3_0 ∗ other1 (F := F) c cc0_stg3_1 ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-! ## The body on any whole memrefs, case by case -/

set_option maxHeartbeats 1000000 in
/-- THE FIRST HEAD (`h = 0`, hence `h ≠ 15`). On whole memrefs — the five inputs at their contents, the two outputs at
    contents `xi·` handed back untouched, the two accumulators at anything (they are reset before they are read) — the body
    runs to the continuation holding the inputs as they were, the outputs untouched, and each accumulator with the
    pieces the body stored (`LS·`, last first): the reset and then the point's contribution. The pieces are part of the
    data: they are found by running the body. -/
noncomputable def kernelRun1_A (c : Dev nD) (i : grid1.Coords) (arg3 : Memref sig .tc .vmem S1x1x512x64 .bf16) (harg3 : arg3.IsWhole) (arg4 : Memref sig .tc .vmem S1x1x64x2048 .bf16) (harg4 : arg4.IsWhole) (arg5 : Memref sig .tc .vmem S1x1x64x2048 .bf16) (harg5 : arg5.IsWhole) (arg6 : Memref sig .tc .vmem S16x64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x512x2048 .f32) (harg9 : arg9.IsWhole) (arg10 : Memref sig .tc .vmem S512x2048 .f32) (harg10 : arg10.IsWhole) (arg11 : Memref sig .tc .vmem S512x1024 .f32) (harg11 : arg11.IsWhole) (hc0 : cond1_0 i) (hc1 : ¬cond1_1 i)
    (x0 : Vec F S1x1x512x64 .bf16) (x1 : Vec F S1x1x64x2048 .bf16) (x2 : Vec F S1x1x64x2048 .bf16) (x3 : Vec F S16x64x1024 .bf16) (x4 : Vec F S1x1024 .f32) :
    Σ' (L5 : List (View.Piece (Elt F) S1x512x1024 .f32)) (L6 : List (View.Piece (Elt F) S1x512x2048 .f32)) (LS0 : List (View.Piece (Elt F) S512x2048 .f32)), { LS1 : List (View.Piece (Elt F) S512x1024 .f32) //
      ∀ (xi5 : Vec F S1x512x1024 .f32) (xi6 : Vec F S1x512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__attn_outproj_kernel i arg3 harg3 arg4 harg4 arg5 harg5 arg6 harg6 arg7 harg7 arg8 harg8 arg9 harg9 arg10 harg10 arg11 harg11) K } := by
  refine ⟨[], [], ?_, ?_, fun xi5 xi6 E K => ?run⟩
  case run =>
    simp only [cc1__attn_outproj_kernel_eq_skeleton]; unfold cc1__attn_outproj_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    iexists _; iexact HS1

set_option maxHeartbeats 1000000 in
/-- A MIDDLE HEAD (`h ≠ 0`, `h ≠ 15`). As the first head, with the accumulators entering at the contents `xs·` the point
    before left: each ends with one piece, the entering contents plus the point's contribution. -/
noncomputable def kernelRun1_B (c : Dev nD) (i : grid1.Coords) (arg3 : Memref sig .tc .vmem S1x1x512x64 .bf16) (harg3 : arg3.IsWhole) (arg4 : Memref sig .tc .vmem S1x1x64x2048 .bf16) (harg4 : arg4.IsWhole) (arg5 : Memref sig .tc .vmem S1x1x64x2048 .bf16) (harg5 : arg5.IsWhole) (arg6 : Memref sig .tc .vmem S16x64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x512x2048 .f32) (harg9 : arg9.IsWhole) (arg10 : Memref sig .tc .vmem S512x2048 .f32) (harg10 : arg10.IsWhole) (arg11 : Memref sig .tc .vmem S512x1024 .f32) (harg11 : arg11.IsWhole) (hc0 : ¬cond1_0 i) (hc1 : ¬cond1_1 i)
    (x0 : Vec F S1x1x512x64 .bf16) (x1 : Vec F S1x1x64x2048 .bf16) (x2 : Vec F S1x1x64x2048 .bf16) (x3 : Vec F S16x64x1024 .bf16) (x4 : Vec F S1x1024 .f32) (xs0 : Vec F S512x2048 .f32) (xs1 : Vec F S512x1024 .f32) :
    Σ' (L5 : List (View.Piece (Elt F) S1x512x1024 .f32)) (L6 : List (View.Piece (Elt F) S1x512x2048 .f32)) (LS0 : List (View.Piece (Elt F) S512x2048 .f32)), { LS1 : List (View.Piece (Elt F) S512x1024 .f32) //
      ∀ (xi5 : Vec F S1x512x1024 .f32) (xi6 : Vec F S1x512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ owns (c : Thread nD τ) arg10 fullShare xs0 ∗ owns (c : Thread nD τ) arg11 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__attn_outproj_kernel i arg3 harg3 arg4 harg4 arg5 harg5 arg6 harg6 arg7 harg7 arg8 harg8 arg9 harg9 arg10 harg10 arg11 harg11) K } := by
  refine ⟨[], [], ?_, ?_, fun xi5 xi6 E K => ?run⟩
  case run =>
    simp only [cc1__attn_outproj_kernel_eq_skeleton]; unfold cc1__attn_outproj_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0; obtain rfl := harg11.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    iexists _; iexact HS1

set_option maxHeartbeats 1000000 in
/-- THE LAST HEAD (`h = 15`, hence `h ≠ 0`). The accumulators enter at `xs·`; the outputs' memrefs at anything. The body
    runs to the continuation holding the inputs as they were, each accumulator with its piece, and each output with the
    piece copied from its accumulator (`L5`: the projection accumulator plus the bias; `L6`: the probability accumulator). -/
noncomputable def kernelRun1_C (c : Dev nD) (i : grid1.Coords) (arg3 : Memref sig .tc .vmem S1x1x512x64 .bf16) (harg3 : arg3.IsWhole) (arg4 : Memref sig .tc .vmem S1x1x64x2048 .bf16) (harg4 : arg4.IsWhole) (arg5 : Memref sig .tc .vmem S1x1x64x2048 .bf16) (harg5 : arg5.IsWhole) (arg6 : Memref sig .tc .vmem S16x64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x512x2048 .f32) (harg9 : arg9.IsWhole) (arg10 : Memref sig .tc .vmem S512x2048 .f32) (harg10 : arg10.IsWhole) (arg11 : Memref sig .tc .vmem S512x1024 .f32) (harg11 : arg11.IsWhole) (hc0 : ¬cond1_0 i) (hc1 : cond1_1 i)
    (x0 : Vec F S1x1x512x64 .bf16) (x1 : Vec F S1x1x64x2048 .bf16) (x2 : Vec F S1x1x64x2048 .bf16) (x3 : Vec F S16x64x1024 .bf16) (x4 : Vec F S1x1024 .f32) (xs0 : Vec F S512x2048 .f32) (xs1 : Vec F S512x1024 .f32) :
    Σ' (L5 : List (View.Piece (Elt F) S1x512x1024 .f32)) (L6 : List (View.Piece (Elt F) S1x512x2048 .f32)) (LS0 : List (View.Piece (Elt F) S512x2048 .f32)), { LS1 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__attn_outproj_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__attn_outproj_kernel_eq_skeleton]; unfold cc1__attn_outproj_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg10.eq_unread hfs0; obtain rfl := harg11.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    isplitl [HS0]; · iexists _; iexact HS0
    iexists _; iexact HS1

end Cert.KernelIdeal.Hand

end
-- ==== Proof.KIRegion1.lean ====
import proofs.«407651_j53060025975075_3_alg».proof.Proof.KIRegion1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region: what its outputs and accumulators hold point by point, the proof data, the body obligation -/

/-! ## What each case leaves -/

/-- At the first head nothing is stored into output 5 (the window is idle there and not written back): no pieces — a
    placeholder that nothing consults. -/
def out1_A_5 (c : Dev nD) (i : grid1.Coords) (arg3 : Memref sig .tc .vmem S1x1x512x64 .bf16) (harg3 : arg3.IsWhole) (arg4 : Memref sig .tc .vmem S1x1x64x2048 .bf16) (harg4 : arg4.IsWhole) (arg5 : Memref sig .tc .vmem S1x1x64x2048 .bf16) (harg5 : arg5.IsWhole) (arg6 : Memref sig .tc .vmem S16x64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x512x2048 .f32) (harg9 : arg9.IsWhole) (arg10 : Memref sig .tc .vmem S512x2048 .f32) (harg10 : arg10.IsWhole) (arg11 : Memref sig .tc .vmem S512x1024 .f32) (harg11 : arg11.IsWhole) (hc0 : cond1_0 i) (hc1 : ¬cond1_1 i)
    (x0 : Vec F S1x1x512x64 .bf16) (x1 : Vec F S1x1x64x2048 .bf16) (x2 : Vec F S1x1x64x2048 .bf16) (x3 : Vec F S16x64x1024 .bf16) (x4 : Vec F S1x1024 .f32) : Vec F S1x512x1024 .f32 :=
  VO1_5.read (Elt F) (VO1_5.writes (Elt F) VO1_5.junk (kernelRun1_A c i arg3 harg3 arg4 harg4 arg5 harg5 arg6 harg6 arg7 harg7 arg8 harg8 arg9 harg9 arg10 harg10 arg11 harg11 hc0 hc1 x0 x1 x2 x3 x4).1)

/-- At the first head nothing is stored into output 6 (the window is idle there and not written back): no pieces — a
    placeholder that nothing consults. -/
def out1_A_6 (c : Dev nD) (i : grid1.Coords) (arg3 : Memref sig .tc .vmem S1x1x512x64 .bf16) (harg3 : arg3.IsWhole) (arg4 : Memref sig .tc .vmem S1x1x64x2048 .bf16) (harg4 : arg4.IsWhole) (arg5 : Memref sig .tc .vmem S1x1x64x2048 .bf16) (harg5 : arg5.IsWhole) (arg6 : Memref sig .tc .vmem S16x64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x512x2048 .f32) (harg9 : arg9.IsWhole) (arg10 : Memref sig .tc .vmem S512x2048 .f32) (harg10 : arg10.IsWhole) (arg11 : Memref sig .tc .vmem S512x1024 .f32) (harg11 : arg11.IsWhole) (hc0 : cond1_0 i) (hc1 : ¬cond1_1 i)
    (x0 : Vec F S1x1x512x64 .bf16) (x1 : Vec F S1x1x64x2048 .bf16) (x2 : Vec F S1x1x64x2048 .bf16) (x3 : Vec F S16x64x1024 .bf16) (x4 : Vec F S1x1024 .f32) : Vec F S1x512x2048 .f32 :=
  VO1_6.read (Elt F) (VO1_6.writes (Elt F) VO1_6.junk (kernelRun1_A c i arg3 harg3 arg4 harg4 arg5 harg5 arg6 harg6 arg7 harg7 arg8 harg8 arg9 harg9 arg10 harg10 arg11 harg11 hc0 hc1 x0 x1 x2 x3 x4).2.1)

/-- At the first head the pieces stored into accumulator 0 cover it (whole-buffer stores). -/
theorem scover1_A_0 (c : Dev nD) (i : grid1.Coords) (arg3 : Memref sig .tc .vmem S1x1x512x64 .bf16) (harg3 : arg3.IsWhole) (arg4 : Memref sig .tc .vmem S1x1x64x2048 .bf16) (harg4 : arg4.IsWhole) (arg5 : Memref sig .tc .vmem S1x1x64x2048 .bf16) (harg5 : arg5.IsWhole) (arg6 : Memref sig .tc .vmem S16x64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x512x2048 .f32) (harg9 : arg9.IsWhole) (arg10 : Memref sig .tc .vmem S512x2048 .f32) (harg10 : arg10.IsWhole) (arg11 : Memref sig .tc .vmem S512x1024 .f32) (harg11 : arg11.IsWhole) (hc0 : cond1_0 i) (hc1 : ¬cond1_1 i)
    (x0 : Vec F S1x1x512x64 .bf16) (x1 : Vec F S1x1x64x2048 .bf16) (x2 : Vec F S1x1x64x2048 .bf16) (x3 : Vec F S16x64x1024 .bf16) (x4 : Vec F S1x1024 .f32) (y : S512x2048.Idx) :
    ∃ pc ∈ (kernelRun1_A c i arg3 harg3 arg4 harg4 arg5 harg5 arg6 harg6 arg7 harg7 arg8 harg8 arg9 harg9 arg10 harg10 arg11 harg11 hc0 hc1 x0 x1 x2 x3 x4).2.2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3 x4).2.2.1 S512x2048.size (by sl_kernel_rfl) y

/-- What the first head leaves in accumulator 0: its pieces read back over junk. -/
def sout1_A_0 (c : Dev nD) (i : grid1.Coords) (arg3 : Memref sig .tc .vmem S1x1x512x64 .bf16) (harg3 : arg3.IsWhole) (arg4 : Memref sig .tc .vmem S1x1x64x2048 .bf16) (harg4 : arg4.IsWhole) (arg5 : Memref sig .tc .vmem S1x1x64x2048 .bf16) (harg5 : arg5.IsWhole) (arg6 : Memref sig .tc .vmem S16x64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x512x2048 .f32) (harg9 : arg9.IsWhole) (arg10 : Memref sig .tc .vmem S512x2048 .f32) (harg10 : arg10.IsWhole) (arg11 : Memref sig .tc .vmem S512x1024 .f32) (harg11 : arg11.IsWhole) (hc0 : cond1_0 i) (hc1 : ¬cond1_1 i)
    (x0 : Vec F S1x1x512x64 .bf16) (x1 : Vec F S1x1x64x2048 .bf16) (x2 : Vec F S1x1x64x2048 .bf16) (x3 : Vec F S16x64x1024 .bf16) (x4 : Vec F S1x1024 .f32) : Vec F S512x2048 .f32 :=
  VS1_0.read (Elt F) (VS1_0.writes (Elt F) VS1_0.junk (kernelRun1_A c i arg3 harg3 arg4 harg4 arg5 harg5 arg6 harg6 arg7 harg7 arg8 harg8 arg9 harg9 arg10 harg10 arg11 harg11 hc0 hc1 x0 x1 x2 x3 x4).2.2.1)

/-- At the first head the pieces stored into accumulator 1 cover it (whole-buffer stores). -/
theorem scover1_A_1 (c : Dev nD) (i : grid1.Coords) (arg3 : Memref sig .tc .vmem S1x1x512x64 .bf16) (harg3 : arg3.IsWhole) (arg4 : Memref sig .tc .vmem S1x1x64x2048 .bf16) (harg4 : arg4.IsWhole) (arg5 : Memref sig .tc .vmem S1x1x64x2048 .bf16) (harg5 : arg5.IsWhole) (arg6 : Memref sig .tc .vmem S16x64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x512x2048 .f32) (harg9 : arg9.IsWhole) (arg10 : Memref sig .tc .vmem S512x2048 .f32) (harg10 : arg10.IsWhole) (arg11 : Memref sig .tc .vmem S512x1024 .f32) (harg11 : arg11.IsWhole) (hc0 : cond1_0 i) (hc1 : ¬cond1_1 i)
    (x0 : Vec F S1x1x512x64 .bf16) (x1 : Vec F S1x1x64x2048 .bf16) (x2 : Vec F S1x1x64x2048 .bf16) (x3 : Vec F S16x64x1024 .bf16) (x4 : Vec F S1x1024 .f32) (y : S512x1024.Idx) :
    ∃ pc ∈ (kernelRun1_A c i arg3 harg3 arg4 harg4 arg5 harg5 arg6 harg6 arg7 harg7 arg8 harg8 arg9 harg9 arg10 harg10 arg11 harg11 hc0 hc1 x0 x1 x2 x3 x4).2.2.2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3 x4).2.2.2.1 S512x1024.size (by sl_kernel_rfl) y

/-- What the first head leaves in accumulator 1: its pieces read back over junk. -/
def sout1_A_1 (c : Dev nD) (i : grid1.Coords) (arg3 : Memref sig .tc .vmem S1x1x512x64 .bf16) (harg3 : arg3.IsWhole) (arg4 : Memref sig .tc .vmem S1x1x64x2048 .bf16) (harg4 : arg4.IsWhole) (arg5 : Memref sig .tc .vmem S1x1x64x2048 .bf16) (harg5 : arg5.IsWhole) (arg6 : Memref sig .tc .vmem S16x64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x512x2048 .f32) (harg9 : arg9.IsWhole) (arg10 : Memref sig .tc .vmem S512x2048 .f32) (harg10 : arg10.IsWhole) (arg11 : Memref sig .tc .vmem S512x1024 .f32) (harg11 : arg11.IsWhole) (hc0 : cond1_0 i) (hc1 : ¬cond1_1 i)
    (x0 : Vec F S1x1x512x64 .bf16) (x1 : Vec F S1x1x64x2048 .bf16) (x2 : Vec F S1x1x64x2048 .bf16) (x3 : Vec F S16x64x1024 .bf16) (x4 : Vec F S1x1024 .f32) : Vec F S512x1024 .f32 :=
  VS1_1.read (Elt F) (VS1_1.writes (Elt F) VS1_1.junk (kernelRun1_A c i arg3 harg3 arg4 harg4 arg5 harg5 arg6 harg6 arg7 harg7 arg8 harg8 arg9 harg9 arg10 harg10 arg11 harg11 hc0 hc1 x0 x1 x2 x3 x4).2.2.2.1)

/-- At a middle head nothing is stored into output 5 (the window is idle there and not written back): no pieces — a
    placeholder that nothing consults. -/
def out1_B_5 (c : Dev nD) (i : grid1.Coords) (arg3 : Memref sig .tc .vmem S1x1x512x64 .bf16) (harg3 : arg3.IsWhole) (arg4 : Memref sig .tc .vmem S1x1x64x2048 .bf16) (harg4 : arg4.IsWhole) (arg5 : Memref sig .tc .vmem S1x1x64x2048 .bf16) (harg5 : arg5.IsWhole) (arg6 : Memref sig .tc .vmem S16x64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x512x2048 .f32) (harg9 : arg9.IsWhole) (arg10 : Memref sig .tc .vmem S512x2048 .f32) (harg10 : arg10.IsWhole) (arg11 : Memref sig .tc .vmem S512x1024 .f32) (harg11 : arg11.IsWhole) (hc0 : ¬cond1_0 i) (hc1 : ¬cond1_1 i)
    (x0 : Vec F S1x1x512x64 .bf16) (x1 : Vec F S1x1x64x2048 .bf16) (x2 : Vec F S1x1x64x2048 .bf16) (x3 : Vec F S16x64x1024 .bf16) (x4 : Vec F S1x1024 .f32) (xs0 : Vec F S512x2048 .f32) (xs1 : Vec F S512x1024 .f32) : Vec F S1x512x1024 .f32 :=
  VO1_5.read (Elt F) (VO1_5.writes (Elt F) VO1_5.junk (kernelRun1_B c i arg3 harg3 arg4 harg4 arg5 harg5 arg6 harg6 arg7 harg7 arg8 harg8 arg9 harg9 arg10 harg10 arg11 harg11 hc0 hc1 x0 x1 x2 x3 x4 xs0 xs1).1)

/-- At a middle head nothing is stored into output 6 (the window is idle there and not written back): no pieces — a
    placeholder that nothing consults. -/
def out1_B_6 (c : Dev nD) (i : grid1.Coords) (arg3 : Memref sig .tc .vmem S1x1x512x64 .bf16) (harg3 : arg3.IsWhole) (arg4 : Memref sig .tc .vmem S1x1x64x2048 .bf16) (harg4 : arg4.IsWhole) (arg5 : Memref sig .tc .vmem S1x1x64x2048 .bf16) (harg5 : arg5.IsWhole) (arg6 : Memref sig .tc .vmem S16x64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x512x2048 .f32) (harg9 : arg9.IsWhole) (arg10 : Memref sig .tc .vmem S512x2048 .f32) (harg10 : arg10.IsWhole) (arg11 : Memref sig .tc .vmem S512x1024 .f32) (harg11 : arg11.IsWhole) (hc0 : ¬cond1_0 i) (hc1 : ¬cond1_1 i)
    (x0 : Vec F S1x1x512x64 .bf16) (x1 : Vec F S1x1x64x2048 .bf16) (x2 : Vec F S1x1x64x2048 .bf16) (x3 : Vec F S16x64x1024 .bf16) (x4 : Vec F S1x1024 .f32) (xs0 : Vec F S512x2048 .f32) (xs1 : Vec F S512x1024 .f32) : Vec F S1x512x2048 .f32 :=
  VO1_6.read (Elt F) (VO1_6.writes (Elt F) VO1_6.junk (kernelRun1_B c i arg3 harg3 arg4 harg4 arg5 harg5 arg6 harg6 arg7 harg7 arg8 harg8 arg9 harg9 arg10 harg10 arg11 harg11 hc0 hc1 x0 x1 x2 x3 x4 xs0 xs1).2.1)

/-- At a middle head the pieces stored into accumulator 0 cover it (whole-buffer stores). -/
theorem scover1_B_0 (c : Dev nD) (i : grid1.Coords) (arg3 : Memref sig .tc .vmem S1x1x512x64 .bf16) (harg3 : arg3.IsWhole) (arg4 : Memref sig .tc .vmem S1x1x64x2048 .bf16) (harg4 : arg4.IsWhole) (arg5 : Memref sig .tc .vmem S1x1x64x2048 .bf16) (harg5 : arg5.IsWhole) (arg6 : Memref sig .tc .vmem S16x64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x512x2048 .f32) (harg9 : arg9.IsWhole) (arg10 : Memref sig .tc .vmem S512x2048 .f32) (harg10 : arg10.IsWhole) (arg11 : Memref sig .tc .vmem S512x1024 .f32) (harg11 : arg11.IsWhole) (hc0 : ¬cond1_0 i) (hc1 : ¬cond1_1 i)
    (x0 : Vec F S1x1x512x64 .bf16) (x1 : Vec F S1x1x64x2048 .bf16) (x2 : Vec F S1x1x64x2048 .bf16) (x3 : Vec F S16x64x1024 .bf16) (x4 : Vec F S1x1024 .f32) (xs0 : Vec F S512x2048 .f32) (xs1 : Vec F S512x1024 .f32) (y : S512x2048.Idx) :
    ∃ pc ∈ (kernelRun1_B c i arg3 harg3 arg4 harg4 arg5 harg5 arg6 harg6 arg7 harg7 arg8 harg8 arg9 harg9 arg10 harg10 arg11 harg11 hc0 hc1 x0 x1 x2 x3 x4 xs0 xs1).2.2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 x4 xs0 xs1).2.2.1 S512x2048.size (by sl_kernel_rfl) y

/-- What a middle head leaves in accumulator 0: its pieces read back over junk. -/
def sout1_B_0 (c : Dev nD) (i : grid1.Coords) (arg3 : Memref sig .tc .vmem S1x1x512x64 .bf16) (harg3 : arg3.IsWhole) (arg4 : Memref sig .tc .vmem S1x1x64x2048 .bf16) (harg4 : arg4.IsWhole) (arg5 : Memref sig .tc .vmem S1x1x64x2048 .bf16) (harg5 : arg5.IsWhole) (arg6 : Memref sig .tc .vmem S16x64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x512x2048 .f32) (harg9 : arg9.IsWhole) (arg10 : Memref sig .tc .vmem S512x2048 .f32) (harg10 : arg10.IsWhole) (arg11 : Memref sig .tc .vmem S512x1024 .f32) (harg11 : arg11.IsWhole) (hc0 : ¬cond1_0 i) (hc1 : ¬cond1_1 i)
    (x0 : Vec F S1x1x512x64 .bf16) (x1 : Vec F S1x1x64x2048 .bf16) (x2 : Vec F S1x1x64x2048 .bf16) (x3 : Vec F S16x64x1024 .bf16) (x4 : Vec F S1x1024 .f32) (xs0 : Vec F S512x2048 .f32) (xs1 : Vec F S512x1024 .f32) : Vec F S512x2048 .f32 :=
  VS1_0.read (Elt F) (VS1_0.writes (Elt F) VS1_0.junk (kernelRun1_B c i arg3 harg3 arg4 harg4 arg5 harg5 arg6 harg6 arg7 harg7 arg8 harg8 arg9 harg9 arg10 harg10 arg11 harg11 hc0 hc1 x0 x1 x2 x3 x4 xs0 xs1).2.2.1)

/-- At a middle head the pieces stored into accumulator 1 cover it (whole-buffer stores). -/
theorem scover1_B_1 (c : Dev nD) (i : grid1.Coords) (arg3 : Memref sig .tc .vmem S1x1x512x64 .bf16) (harg3 : arg3.IsWhole) (arg4 : Memref sig .tc .vmem S1x1x64x2048 .bf16) (harg4 : arg4.IsWhole) (arg5 : Memref sig .tc .vmem S1x1x64x2048 .bf16) (harg5 : arg5.IsWhole) (arg6 : Memref sig .tc .vmem S16x64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x512x2048 .f32) (harg9 : arg9.IsWhole) (arg10 : Memref sig .tc .vmem S512x2048 .f32) (harg10 : arg10.IsWhole) (arg11 : Memref sig .tc .vmem S512x1024 .f32) (harg11 : arg11.IsWhole) (hc0 : ¬cond1_0 i) (hc1 : ¬cond1_1 i)
    (x0 : Vec F S1x1x512x64 .bf16) (x1 : Vec F S1x1x64x2048 .bf16) (x2 : Vec F S1x1x64x2048 .bf16) (x3 : Vec F S16x64x1024 .bf16) (x4 : Vec F S1x1024 .f32) (xs0 : Vec F S512x2048 .f32) (xs1 : Vec F S512x1024 .f32) (y : S512x1024.Idx) :
    ∃ pc ∈ (kernelRun1_B c i arg3 harg3 arg4 harg4 arg5 harg5 arg6 harg6 arg7 harg7 arg8 harg8 arg9 harg9 arg10 harg10 arg11 harg11 hc0 hc1 x0 x1 x2 x3 x4 xs0 xs1).2.2.2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 x4 xs0 xs1).2.2.2.1 S512x1024.size (by sl_kernel_rfl) y

/-- What a middle head leaves in accumulator 1: its pieces read back over junk. -/
def sout1_B_1 (c : Dev nD) (i : grid1.Coords) (arg3 : Memref sig .tc .vmem S1x1x512x64 .bf16) (harg3 : arg3.IsWhole) (arg4 : Memref sig .tc .vmem S1x1x64x2048 .bf16) (harg4 : arg4.IsWhole) (arg5 : Memref sig .tc .vmem S1x1x64x2048 .bf16) (harg5 : arg5.IsWhole) (arg6 : Memref sig .tc .vmem S16x64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x512x2048 .f32) (harg9 : arg9.IsWhole) (arg10 : Memref sig .tc .vmem S512x2048 .f32) (harg10 : arg10.IsWhole) (arg11 : Memref sig .tc .vmem S512x1024 .f32) (harg11 : arg11.IsWhole) (hc0 : ¬cond1_0 i) (hc1 : ¬cond1_1 i)
    (x0 : Vec F S1x1x512x64 .bf16) (x1 : Vec F S1x1x64x2048 .bf16) (x2 : Vec F S1x1x64x2048 .bf16) (x3 : Vec F S16x64x1024 .bf16) (x4 : Vec F S1x1024 .f32) (xs0 : Vec F S512x2048 .f32) (xs1 : Vec F S512x1024 .f32) : Vec F S512x1024 .f32 :=
  VS1_1.read (Elt F) (VS1_1.writes (Elt F) VS1_1.junk (kernelRun1_B c i arg3 harg3 arg4 harg4 arg5 harg5 arg6 harg6 arg7 harg7 arg8 harg8 arg9 harg9 arg10 harg10 arg11 harg11 hc0 hc1 x0 x1 x2 x3 x4 xs0 xs1).2.2.2.1)

/-- At the last head the pieces stored into output 5 tile its block (one whole-block store), so they cover it. -/
theorem cover1_C_5 (c : Dev nD) (i : grid1.Coords) (arg3 : Memref sig .tc .vmem S1x1x512x64 .bf16) (harg3 : arg3.IsWhole) (arg4 : Memref sig .tc .vmem S1x1x64x2048 .bf16) (harg4 : arg4.IsWhole) (arg5 : Memref sig .tc .vmem S1x1x64x2048 .bf16) (harg5 : arg5.IsWhole) (arg6 : Memref sig .tc .vmem S16x64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x512x2048 .f32) (harg9 : arg9.IsWhole) (arg10 : Memref sig .tc .vmem S512x2048 .f32) (harg10 : arg10.IsWhole) (arg11 : Memref sig .tc .vmem S512x1024 .f32) (harg11 : arg11.IsWhole) (hc0 : ¬cond1_0 i) (hc1 : cond1_1 i)
    (x0 : Vec F S1x1x512x64 .bf16) (x1 : Vec F S1x1x64x2048 .bf16) (x2 : Vec F S1x1x64x2048 .bf16) (x3 : Vec F S16x64x1024 .bf16) (x4 : Vec F S1x1024 .f32) (xs0 : Vec F S512x2048 .f32) (xs1 : Vec F S512x1024 .f32) (y : S1x512x1024.Idx) :
    ∃ pc ∈ (kernelRun1_C c i arg3 harg3 arg4 harg4 arg5 harg5 arg6 harg6 arg7 harg7 arg8 harg8 arg9 harg9 arg10 harg10 arg11 harg11 hc0 hc1 x0 x1 x2 x3 x4 xs0 xs1).1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 xs0 xs1).1 S1x512x1024.size (by sl_kernel_rfl) y

/-- What the last head leaves in output 5's staging buffer: its pieces read back over junk. -/
def out1_C_5 (c : Dev nD) (i : grid1.Coords) (arg3 : Memref sig .tc .vmem S1x1x512x64 .bf16) (harg3 : arg3.IsWhole) (arg4 : Memref sig .tc .vmem S1x1x64x2048 .bf16) (harg4 : arg4.IsWhole) (arg5 : Memref sig .tc .vmem S1x1x64x2048 .bf16) (harg5 : arg5.IsWhole) (arg6 : Memref sig .tc .vmem S16x64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x512x2048 .f32) (harg9 : arg9.IsWhole) (arg10 : Memref sig .tc .vmem S512x2048 .f32) (harg10 : arg10.IsWhole) (arg11 : Memref sig .tc .vmem S512x1024 .f32) (harg11 : arg11.IsWhole) (hc0 : ¬cond1_0 i) (hc1 : cond1_1 i)
    (x0 : Vec F S1x1x512x64 .bf16) (x1 : Vec F S1x1x64x2048 .bf16) (x2 : Vec F S1x1x64x2048 .bf16) (x3 : Vec F S16x64x1024 .bf16) (x4 : Vec F S1x1024 .f32) (xs0 : Vec F S512x2048 .f32) (xs1 : Vec F S512x1024 .f32) : Vec F S1x512x1024 .f32 :=
  VO1_5.read (Elt F) (VO1_5.writes (Elt F) VO1_5.junk (kernelRun1_C c i arg3 harg3 arg4 harg4 arg5 harg5 arg6 harg6 arg7 harg7 arg8 harg8 arg9 harg9 arg10 harg10 arg11 harg11 hc0 hc1 x0 x1 x2 x3 x4 xs0 xs1).1)

/-- At the last head the pieces stored into output 6 tile its block (one whole-block store), so they cover it. -/
theorem cover1_C_6 (c : Dev nD) (i : grid1.Coords) (arg3 : Memref sig .tc .vmem S1x1x512x64 .bf16) (harg3 : arg3.IsWhole) (arg4 : Memref sig .tc .vmem S1x1x64x2048 .bf16) (harg4 : arg4.IsWhole) (arg5 : Memref sig .tc .vmem S1x1x64x2048 .bf16) (harg5 : arg5.IsWhole) (arg6 : Memref sig .tc .vmem S16x64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x512x2048 .f32) (harg9 : arg9.IsWhole) (arg10 : Memref sig .tc .vmem S512x2048 .f32) (harg10 : arg10.IsWhole) (arg11 : Memref sig .tc .vmem S512x1024 .f32) (harg11 : arg11.IsWhole) (hc0 : ¬cond1_0 i) (hc1 : cond1_1 i)
    (x0 : Vec F S1x1x512x64 .bf16) (x1 : Vec F S1x1x64x2048 .bf16) (x2 : Vec F S1x1x64x2048 .bf16) (x3 : Vec F S16x64x1024 .bf16) (x4 : Vec F S1x1024 .f32) (xs0 : Vec F S512x2048 .f32) (xs1 : Vec F S512x1024 .f32) (y : S1x512x2048.Idx) :
    ∃ pc ∈ (kernelRun1_C c i arg3 harg3 arg4 harg4 arg5 harg5 arg6 harg6 arg7 harg7 arg8 harg8 arg9 harg9 arg10 harg10 arg11 harg11 hc0 hc1 x0 x1 x2 x3 x4 xs0 xs1).2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 xs0 xs1).2.1 S1x512x2048.size (by sl_kernel_rfl) y

/-- What the last head leaves in output 6's staging buffer: its pieces read back over junk. -/
def out1_C_6 (c : Dev nD) (i : grid1.Coords) (arg3 : Memref sig .tc .vmem S1x1x512x64 .bf16) (harg3 : arg3.IsWhole) (arg4 : Memref sig .tc .vmem S1x1x64x2048 .bf16) (harg4 : arg4.IsWhole) (arg5 : Memref sig .tc .vmem S1x1x64x2048 .bf16) (harg5 : arg5.IsWhole) (arg6 : Memref sig .tc .vmem S16x64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x512x2048 .f32) (harg9 : arg9.IsWhole) (arg10 : Memref sig .tc .vmem S512x2048 .f32) (harg10 : arg10.IsWhole) (arg11 : Memref sig .tc .vmem S512x1024 .f32) (harg11 : arg11.IsWhole) (hc0 : ¬cond1_0 i) (hc1 : cond1_1 i)
    (x0 : Vec F S1x1x512x64 .bf16) (x1 : Vec F S1x1x64x2048 .bf16) (x2 : Vec F S1x1x64x2048 .bf16) (x3 : Vec F S16x64x1024 .bf16) (x4 : Vec F S1x1024 .f32) (xs0 : Vec F S512x2048 .f32) (xs1 : Vec F S512x1024 .f32) : Vec F S1x512x2048 .f32 :=
  VO1_6.read (Elt F) (VO1_6.writes (Elt F) VO1_6.junk (kernelRun1_C c i arg3 harg3 arg4 harg4 arg5 harg5 arg6 harg6 arg7 harg7 arg8 harg8 arg9 harg9 arg10 harg10 arg11 harg11 hc0 hc1 x0 x1 x2 x3 x4 xs0 xs1).2.1)

/-- At the last head the pieces stored into accumulator 0 cover it (whole-buffer stores). -/
theorem scover1_C_0 (c : Dev nD) (i : grid1.Coords) (arg3 : Memref sig .tc .vmem S1x1x512x64 .bf16) (harg3 : arg3.IsWhole) (arg4 : Memref sig .tc .vmem S1x1x64x2048 .bf16) (harg4 : arg4.IsWhole) (arg5 : Memref sig .tc .vmem S1x1x64x2048 .bf16) (harg5 : arg5.IsWhole) (arg6 : Memref sig .tc .vmem S16x64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x512x2048 .f32) (harg9 : arg9.IsWhole) (arg10 : Memref sig .tc .vmem S512x2048 .f32) (harg10 : arg10.IsWhole) (arg11 : Memref sig .tc .vmem S512x1024 .f32) (harg11 : arg11.IsWhole) (hc0 : ¬cond1_0 i) (hc1 : cond1_1 i)
    (x0 : Vec F S1x1x512x64 .bf16) (x1 : Vec F S1x1x64x2048 .bf16) (x2 : Vec F S1x1x64x2048 .bf16) (x3 : Vec F S16x64x1024 .bf16) (x4 : Vec F S1x1024 .f32) (xs0 : Vec F S512x2048 .f32) (xs1 : Vec F S512x1024 .f32) (y : S512x2048.Idx) :
    ∃ pc ∈ (kernelRun1_C c i arg3 harg3 arg4 harg4 arg5 harg5 arg6 harg6 arg7 harg7 arg8 harg8 arg9 harg9 arg10 harg10 arg11 harg11 hc0 hc1 x0 x1 x2 x3 x4 xs0 xs1).2.2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 xs0 xs1).2.2.1 S512x2048.size (by sl_kernel_rfl) y

/-- What the last head leaves in accumulator 0: its pieces read back over junk. -/
def sout1_C_0 (c : Dev nD) (i : grid1.Coords) (arg3 : Memref sig .tc .vmem S1x1x512x64 .bf16) (harg3 : arg3.IsWhole) (arg4 : Memref sig .tc .vmem S1x1x64x2048 .bf16) (harg4 : arg4.IsWhole) (arg5 : Memref sig .tc .vmem S1x1x64x2048 .bf16) (harg5 : arg5.IsWhole) (arg6 : Memref sig .tc .vmem S16x64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x512x2048 .f32) (harg9 : arg9.IsWhole) (arg10 : Memref sig .tc .vmem S512x2048 .f32) (harg10 : arg10.IsWhole) (arg11 : Memref sig .tc .vmem S512x1024 .f32) (harg11 : arg11.IsWhole) (hc0 : ¬cond1_0 i) (hc1 : cond1_1 i)
    (x0 : Vec F S1x1x512x64 .bf16) (x1 : Vec F S1x1x64x2048 .bf16) (x2 : Vec F S1x1x64x2048 .bf16) (x3 : Vec F S16x64x1024 .bf16) (x4 : Vec F S1x1024 .f32) (xs0 : Vec F S512x2048 .f32) (xs1 : Vec F S512x1024 .f32) : Vec F S512x2048 .f32 :=
  VS1_0.read (Elt F) (VS1_0.writes (Elt F) VS1_0.junk (kernelRun1_C c i arg3 harg3 arg4 harg4 arg5 harg5 arg6 harg6 arg7 harg7 arg8 harg8 arg9 harg9 arg10 harg10 arg11 harg11 hc0 hc1 x0 x1 x2 x3 x4 xs0 xs1).2.2.1)

/-- At the last head the pieces stored into accumulator 1 cover it (whole-buffer stores). -/
theorem scover1_C_1 (c : Dev nD) (i : grid1.Coords) (arg3 : Memref sig .tc .vmem S1x1x512x64 .bf16) (harg3 : arg3.IsWhole) (arg4 : Memref sig .tc .vmem S1x1x64x2048 .bf16) (harg4 : arg4.IsWhole) (arg5 : Memref sig .tc .vmem S1x1x64x2048 .bf16) (harg5 : arg5.IsWhole) (arg6 : Memref sig .tc .vmem S16x64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x512x2048 .f32) (harg9 : arg9.IsWhole) (arg10 : Memref sig .tc .vmem S512x2048 .f32) (harg10 : arg10.IsWhole) (arg11 : Memref sig .tc .vmem S512x1024 .f32) (harg11 : arg11.IsWhole) (hc0 : ¬cond1_0 i) (hc1 : cond1_1 i)
    (x0 : Vec F S1x1x512x64 .bf16) (x1 : Vec F S1x1x64x2048 .bf16) (x2 : Vec F S1x1x64x2048 .bf16) (x3 : Vec F S16x64x1024 .bf16) (x4 : Vec F S1x1024 .f32) (xs0 : Vec F S512x2048 .f32) (xs1 : Vec F S512x1024 .f32) (y : S512x1024.Idx) :
    ∃ pc ∈ (kernelRun1_C c i arg3 harg3 arg4 harg4 arg5 harg5 arg6 harg6 arg7 harg7 arg8 harg8 arg9 harg9 arg10 harg10 arg11 harg11 hc0 hc1 x0 x1 x2 x3 x4 xs0 xs1).2.2.2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 xs0 xs1).2.2.2.1 S512x1024.size (by sl_kernel_rfl) y

/-- What the last head leaves in accumulator 1: its pieces read back over junk. -/
def sout1_C_1 (c : Dev nD) (i : grid1.Coords) (arg3 : Memref sig .tc .vmem S1x1x512x64 .bf16) (harg3 : arg3.IsWhole) (arg4 : Memref sig .tc .vmem S1x1x64x2048 .bf16) (harg4 : arg4.IsWhole) (arg5 : Memref sig .tc .vmem S1x1x64x2048 .bf16) (harg5 : arg5.IsWhole) (arg6 : Memref sig .tc .vmem S16x64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x512x2048 .f32) (harg9 : arg9.IsWhole) (arg10 : Memref sig .tc .vmem S512x2048 .f32) (harg10 : arg10.IsWhole) (arg11 : Memref sig .tc .vmem S512x1024 .f32) (harg11 : arg11.IsWhole) (hc0 : ¬cond1_0 i) (hc1 : cond1_1 i)
    (x0 : Vec F S1x1x512x64 .bf16) (x1 : Vec F S1x1x64x2048 .bf16) (x2 : Vec F S1x1x64x2048 .bf16) (x3 : Vec F S16x64x1024 .bf16) (x4 : Vec F S1x1024 .f32) (xs0 : Vec F S512x2048 .f32) (xs1 : Vec F S512x1024 .f32) : Vec F S512x1024 .f32 :=
  VS1_1.read (Elt F) (VS1_1.writes (Elt F) VS1_1.junk (kernelRun1_C c i arg3 harg3 arg4 harg4 arg5 harg5 arg6 harg6 arg7 harg7 arg8 harg8 arg9 harg9 arg10 harg10 arg11 harg11 hc0 hc1 x0 x1 x2 x3 x4 xs0 xs1).2.2.2.1)

section Region1
variable (V : (c : Dev nD) → (b : Ref sig .tc) → Buf (Elt F) ((c : Thread nD τ).loc b))

/-! ## What the outputs and the accumulators hold after each point -/

/-- THE ACCUMULATION. What the two outputs' staging buffers and the two accumulators hold after the body at position
    `n` (outputs in window order, then the accumulators): the case the head coordinate selects at `n` (`n % 16` is 0,
    15, or neither), run at the point's memrefs and input blocks, the accumulators entering at what position `n - 1`
    left. No point has head coordinate both 0 and 15. -/
def outsAt1 (c : Dev nD) : (n : ℕ) → n < cfg1.N → Vec F S1x512x1024 .f32 × Vec F S1x512x2048 .f32 × Vec F S512x2048 .f32 × Vec F S512x1024 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 16 = 0 then
      if h1 : (n + 1) % 16 = 15 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 16 = 15 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.1 (outsAt1 c n (Nat.lt_of_succ_lt hn)).2.2.2, out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.1 (outsAt1 c n (Nat.lt_of_succ_lt hn)).2.2.2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.1 (outsAt1 c n (Nat.lt_of_succ_lt hn)).2.2.2, out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.1 (outsAt1 c n (Nat.lt_of_succ_lt hn)).2.2.2)

/-- `outsAt1` at a point of the first head. -/
theorem outsAt1_A (c : Dev nD) (t : Fin cfg1.N) (h0 : t.val % 16 = 0) (h1 : ¬t.val % 16 = 15) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t), out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- `outsAt1` at a point of a middle head: over what the point before left. -/
theorem outsAt1_B (c : Dev nD) (t : Fin cfg1.N) (h0 : ¬t.val % 16 = 0) (h1 : ¬t.val % 16 = 15) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2, out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of the last head: over what the point before left. -/
theorem outsAt1_C (c : Dev nD) (t : Fin cfg1.N) (h0 : ¬t.val % 16 = 0) (h1 : t.val % 16 = 15) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2, out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the region is entered with (every scoped
    buffer that is no staging buffer of it at anything); afterwards the same with the two accumulators at what the point
    before left in them (`outsAt1`'s last two components). -/
def PhiS1 (c : Dev nD) : (n : ℕ) → n ≤ cfg1.N → sProp 𝕄
  | 0, _ => Pipeline.ΦA spec1 c
  | n + 1, hn => iprop(iprop(other1 (F := F) c cc0_stg0_0 ∗ other1 (F := F) c cc0_stg0_1 ∗ other1 (F := F) c cc0_stg1_0 ∗ other1 (F := F) c cc0_stg2_0 ∗ other1 (F := F) c cc0_stg3_0 ∗ other1 (F := F) c cc0_stg3_1 ∗ owns (c : Thread nD τ) scM1_0 fullShare ((outsAt1 V c n hn).2.2.1) ∗ owns (c : Thread nD τ) scM1_1 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulators at that point's contents. -/
theorem PhiS1_succ (c : Dev nD) (n : ℕ) (hn : n < cfg1.N) :
    PhiS1 V c (n + 1) hn = iprop(iprop(other1 (F := F) c cc0_stg0_0 ∗ other1 (F := F) c cc0_stg0_1 ∗ other1 (F := F) c cc0_stg1_0 ∗ other1 (F := F) c cc0_stg2_0 ∗ other1 (F := F) c cc0_stg3_0 ∗ other1 (F := F) c cc0_stg3_1 ∗ owns (c : Thread nD τ) scM1_0 fullShare ((outsAt1 V c n hn).2.2.1) ∗ owns (c : Thread nD τ) scM1_1 fullShare ((outsAt1 V c n hn).2.2.2)) ∗ (∃ r, prngReg c r)) := rfl

/-- Before a point that is not the first: the accumulators at what the point before left. -/
theorem PhiS1_pos (c : Dev nD) (n : ℕ) (h : n ≤ cfg1.N) (hz : n ≠ 0) :
    PhiS1 V c n h = iprop(iprop(other1 (F := F) c cc0_stg0_0 ∗ other1 (F := F) c cc0_stg0_1 ∗ other1 (F := F) c cc0_stg1_0 ∗ other1 (F := F) c cc0_stg2_0 ∗ other1 (F := F) c cc0_stg3_0 ∗ other1 (F := F) c cc0_stg3_1 ∗ owns (c : Thread nD τ) scM1_0 fullShare ((outsAt1 V c (n - 1) (by omega)).2.2.1) ∗ owns (c : Thread nD τ) scM1_1 fullShare ((outsAt1 V c (n - 1) (by omega)).2.2.2)) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the outputs' at `outsAt1`; the invariant `PhiS1`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
    | ⟨6, _⟩ => (outsAt1 V c t.val t.isLt).2.1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem after1_6 (c : Dev nD) (t : Fin cfg1.N) : (dat1 V c).after 6 t = (outsAt1 V c t.val t.isLt).2.1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The inputs' memrefs hold their blocks; the head coordinate says which case the point is in;
    so that case's run applies. The invariant hands the body the accumulators at what the point before left (at anything
    before the first point) and takes them back at this point's contents, which the run's pieces cover; at the last head
    the outputs' buffers are taken back at their pieces, elsewhere as they were found; the other scoped buffers and the
    generator register pass through; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  by_cases h0 : t.val % 16 = 0
  · by_cases h1 : t.val % 16 = 15
    · exfalso; omega
    · -- the first head
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold sout1_A_0 sout1_A_1; (try dsimp only)
      by_cases hz : t.val = 0
      · rw [PhiS1_castSucc V c t, PhiS1_zero V c _ _ hz, PhiA1_eq]
        iintro ⟨⟨⟨Hr0, Hr1, Hr2, Hr3, Hr4, Hr5, HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [Hr0 Hr1 Hr2 Hr3 Hr4 Hr5 HS0 HS1 Hg]
        · isplitl [Hr0 Hr1 Hr2 Hr3 Hr4 Hr5 HS0 HS1]
          · isplitl [Hr0]; · iexact Hr0
            isplitl [Hr1]; · iexact Hr1
            isplitl [Hr2]; · iexact Hr2
            isplitl [Hr3]; · iexact Hr3
            isplitl [Hr4]; · iexact Hr4
            isplitl [Hr5]; · iexact Hr5
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
      · rw [PhiS1_castSucc V c t, PhiS1_pos V c _ _ hz]
        iintro ⟨⟨⟨Hr0, Hr1, Hr2, Hr3, Hr4, Hr5, HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        iintro ⟨H0, H1, H2, H3, H4, H5, H6, ⟨%es0, HS0⟩, ⟨%es1, HS1⟩⟩
        isplitl [Hr0 Hr1 Hr2 Hr3 Hr4 Hr5 HS0 HS1 Hg]
        · isplitl [Hr0 Hr1 Hr2 Hr3 Hr4 Hr5 HS0 HS1]
          · isplitl [Hr0]; · iexact Hr0
            isplitl [Hr1]; · iexact Hr1
            isplitl [Hr2]; · iexact Hr2
            isplitl [Hr3]; · iexact Hr3
            isplitl [Hr4]; · iexact Hr4
            isplitl [Hr5]; · iexact Hr5
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
  · by_cases h1 : t.val % 16 = 15
    · -- the last head
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [show (dat1 V c).leavesExact 6 t = owns (c : Thread nD τ) (ms1_6 t) fullShare ((dat1 V c).after 6 t) from by
        unfold Dat.leavesExact; rw [liveAt1_6_C t (fun h => h0 ((hcond1_0 t).mp h)) ((hcond1_1 t).mpr h1)], after1_6]
      rw [outsAt1_C V c t h0 h1]
      unfold out1_C_5 out1_C_6 sout1_C_0 sout1_C_1; (try dsimp only)
      by_cases hz : t.val = 0
      · exfalso; omega
      · rw [PhiS1_castSucc V c t, PhiS1_pos V c _ _ hz]
        iintro ⟨⟨⟨Hr0, Hr1, Hr2, Hr3, Hr4, Hr5, HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _).2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [HS0]; · iexact HS0
        isplitl [HS1]; · iexact HS1
        iintro ⟨H0, H1, H2, H3, H4, ⟨%e5, H5⟩, ⟨%e6, H6⟩, ⟨%es0, HS0⟩, ⟨%es1, HS1⟩⟩
        isplitl [Hr0 Hr1 Hr2 Hr3 Hr4 Hr5 HS0 HS1 Hg]
        · isplitl [Hr0 Hr1 Hr2 Hr3 Hr4 Hr5 HS0 HS1]
          · isplitl [Hr0]; · iexact Hr0
            isplitl [Hr1]; · iexact Hr1
            isplitl [Hr2]; · iexact Hr2
            isplitl [Hr3]; · iexact Hr3
            isplitl [Hr4]; · iexact Hr4
            isplitl [Hr5]; · iexact Hr5
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover1_C_5 c _ _ _ _ _ _ _ _ _ _ _ _ _ _ _ _ _ _ _ _ _ _ _ _ _ _ _ _)
        unfold owns; iexists _; isplitr
        swap; · iexact H6
        ipureintro; exact View.read_writes_of_cover _ _ _ _ _ (cover1_C_6 c _ _ _ _ _ _ _ _ _ _ _ _ _ _ _ _ _ _ _ _ _ _ _ _ _ _ _ _)
    · -- a middle head
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold sout1_B_0 sout1_B_1; (try dsimp only)
      by_cases hz : t.val = 0
      · exfalso; omega
      · rw [PhiS1_castSucc V c t, PhiS1_pos V c _ _ hz]
        iintro ⟨⟨⟨Hr0, Hr1, Hr2, Hr3, Hr4, Hr5, HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [Hr0 Hr1 Hr2 Hr3 Hr4 Hr5 HS0 HS1 Hg]
        · isplitl [Hr0 Hr1 Hr2 Hr3 Hr4 Hr5 HS0 HS1]
          · isplitl [Hr0]; · iexact Hr0
            isplitl [Hr1]; · iexact Hr1
            isplitl [Hr2]; · iexact Hr2
            isplitl [Hr3]; · iexact Hr3
            isplitl [Hr4]; · iexact Hr4
            isplitl [Hr5]; · iexact Hr5
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _)
            unfold owns; iexists _; isplitr
            swap; · iexact HS1
            ipureintro; exact View.read_writes_of_cover _ _ _ _ _ (scover1_B_1 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the entry invariant back: the accumulators' named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hr0, Hr1, Hr2, Hr3, Hr4, Hr5, HS0, HS1⟩, Hg⟩
  isplitl [Hr0 Hr1 Hr2 Hr3 Hr4 Hr5 HS0 HS1]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [HS0]; · iexists _; iexact HS0
    iexists _; iexact HS1
  iexact Hg

/-- The same after the last point. -/
theorem hout1 (c : Dev nD) : (dat1 V c).Φ (Fin.last cfg1.N) ⊢ Pipeline.ΦA spec1 c :=
  Phi_out1 V c _ (by rw [Fin.val_last]; have : cfg1.N = 256 := N_1; omega)

end Region1
-- ==== Proof.KIRun.lean ====
/-
  The run of @main: a stretch of host operations, the projection region, a second stretch, the attention
  region, a last stretch. The TensorCore's buffer contents at each of the six boundaries are a fold from the launch
  memory — a stretch applies its operations, a region leaves its windows' arrays at what its write-backs fold to and
  every other buffer as entered —; each region is entered from the boundary before it and left at the one after it;
  and every weakly fair execution terminates with every unscoped buffer at the last boundary's contents. The five
  argument arrays are written by no stretch and by no region, so they end as launched.
-/
import proofs.«407651_j53060025975075_3_alg».proof.Proof.KIRegion0
import proofs.«407651_j53060025975075_3_alg».proof.Proof.KIRegion1
import proofs.«407651_j53060025975075_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
/-- After the first stretch (the projection region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the projection region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second stretch (the attention region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the attention region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the last stretch: what the program returns is read here. -/
abbrev W5 : Dev nD → Valuation τ sig (Elt F) := fun c => StableHlo.after hostOps2 (W4 m c)

/-! ## An argument array reaches the end as launched -/

theorem W5_arg (c : Dev nD) (r : Ref sig .tc) (h0 : r ∉ hostOps0_W) (h1 : r ∉ hostOps1_W) (h2 : r ∉ hostOps2_W)
    (hs0 : ∀ w, Pipeline.arrRef spec0 w ≠ r) (hs1 : ∀ w, Pipeline.arrRef spec1 w ≠ r) :
    W5 m c (Proc.devRef .tc r) = m ((c : Thread nD τ).loc r) :=
  calc W5 m c (Proc.devRef .tc r)
    _ = W4 m c (Proc.devRef .tc r) := StableHlo.after_of_writes_sub hostOps2 _ hostOps2_writes h2
    _ = W3 m c (Proc.devRef .tc r) := W4_of_ne m c r hs1
    _ = W2 m c (Proc.devRef .tc r) := StableHlo.after_of_writes_sub hostOps1 _ hostOps1_writes h1
    _ = W1 m c (Proc.devRef .tc r) := W2_of_ne m c r hs0
    _ = W0 m c (Proc.devRef .tc r) := StableHlo.after_of_writes_sub hostOps0 _ hostOps0_writes h0
    _ = m ((c : Thread nD τ).loc r) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A stretch of host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- The projection region: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W3`, left at `W4`. Its invariant starts as the
    scoped rest with the generator register and ends with the two accumulators at named contents, which are
    forgotten at the exit. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from hin1 (V3 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from hout1 (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- @main is the run of the segments. -/
theorem main_run (c : Dev nD) : main (F := F) c = Pipeline.Seg.run (segs m) := (main_chain c).trans (by chain_rfl)

set_option backward.isDefEq.respectTransparency.types false in
/-- From any memory with zero counters every weakly fair execution of @main terminates, nothing faulting, and every
    final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      change iprop(StableHlo.held (c : Thread nD τ) (Pipeline.ucRefs τ sig) (W5 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_arg m c main_arg0 (by decide) (by decide) (by decide) (by decide) (by decide)),
     (h c _ (mem_uc main_arg1 (by decide))).trans (W5_arg m c main_arg1 (by decide) (by decide) (by decide) (by decide) (by decide)),
     (h c _ (mem_uc main_arg2 (by decide))).trans (W5_arg m c main_arg2 (by decide) (by decide) (by decide) (by decide) (by decide)),
     (h c _ (mem_uc main_arg3 (by decide))).trans (W5_arg m c main_arg3 (by decide) (by decide) (by decide) (by decide) (by decide)),
     (h c _ (mem_uc main_arg4 (by decide))).trans (W5_arg m c main_arg4 (by decide) (by decide) (by decide) (by decide) (by decide))⟩)
    (run_all m ρ)

end Cert.KernelIdeal.Hand

end
-- ==== Proof.Spec.lean ====
/-
  Multi-head self-attention over the extended reals, as two arrangements of one computation.

  From x : [2048, 4, 1024], the projection weights W : [3072, 1024] with bias, and the output weights
  Wo : [1024, 1024] with bias, both programs compute, per batch b and head h (16 heads of width 64),
      scores(t, s) = (1/8) · Σ_d q(t, d) · k(s, d),   weights = softmax over s,   attn(t, d) = Σ_s weights(t, s) · v(s, d),
  and return  Σ_{h, d} attn_h(t, d) · Wo(e, 64 h + d) + bias(e)  together with the mean over the heads of the weights.
  They differ in where the factor 1/8 sits (on the finished score, or on q before the contraction), in how the
  softmax divides (p · (1 / l), or p / l), in how the head mean is taken (Σ_h w_h · (1/16), or (Σ_h w_h) / 16) and in
  how the output contraction is grouped (by head and lane, or over the flat width 1024). `K` names the first
  arrangement, `R` the second; over finite inputs they agree (Proof/Algebra.lean).
-/
import Idealize.ShloMosaic.PureOps.Ideal
import Idealize.ShloMosaic.Lib.ValueIdx

noncomputable section

namespace Cert.Spec

open Idealize.ShloMosaic Idealize.ShloMosaic.ValueIdx

/-! ## Shapes -/

abbrev SX : Shape := ⟨3, ![2048, 4, 1024]⟩
abbrev SW : Shape := ⟨2, ![3072, 1024]⟩
abbrev SB : Shape := ⟨1, ![3072]⟩
abbrev SWo : Shape := ⟨2, ![1024, 1024]⟩
abbrev SBo : Shape := ⟨1, ![1024]⟩
abbrev SQKV : Shape := ⟨2, ![8192, 3072]⟩
abbrev SQ : Shape := ⟨4, ![4, 16, 2048, 64]⟩
abbrev SKt : Shape := ⟨4, ![4, 16, 64, 2048]⟩
abbrev SWh : Shape := ⟨3, ![16, 64, 1024]⟩
abbrev SBr : Shape := ⟨2, ![1, 1024]⟩
abbrev SOutB : Shape := ⟨3, ![4, 2048, 1024]⟩
abbrev SOut : Shape := ⟨3, ![2048, 4, 1024]⟩
abbrev SAvg : Shape := ⟨3, ![4, 2048, 2048]⟩

/-! ## Constants: 1/8 on the scores, 1/16 and 16 for the head mean, 1 in the softmax's reciprocal -/

def cEighth : EReal := Ideal.ofBits .f32 0x3E000000#32
def cSixteenth : EReal := Ideal.ofBits .f32 0x3D800000#32
def cSixteen : EReal := Ideal.ofBits .f32 0x41800000#32
def cOne : EReal := Ideal.ofBits .f32 0x3F800000#32

/-! ## Column indices of the fused projection: head h, lane d -/

def colQ (h : Fin 16) (d : Fin 64) : Fin 3072 := ⟨h.val * 64 + d.val, by have := h.isLt; have := d.isLt; omega⟩
def colK (h : Fin 16) (d : Fin 64) : Fin 3072 := ⟨1024 + h.val * 64 + d.val, by have := h.isLt; have := d.isLt; omega⟩
def colV (h : Fin 16) (d : Fin 64) : Fin 3072 := ⟨2048 + h.val * 64 + d.val, by have := h.isLt; have := d.isLt; omega⟩
def colE (h : Fin 16) (d : Fin 64) : Fin 1024 := ⟨h.val * 64 + d.val, by have := h.isLt; have := d.isLt; omega⟩
/-- Row `4 t + b` of the flattened [8192, ·] activations. -/
def rowTB (t : Fin 2048) (b : Fin 4) : Fin 8192 := ⟨t.val * 4 + b.val, by have := t.isLt; have := b.isLt; omega⟩

/-! ## The softmax of one row, in the two spellings -/

/-- The row's maximum (the supremum over the lane; `⊥` is the neutral element). -/
def rowMax (f : Fin 2048 → EReal) : EReal := Finset.univ.sup f
/-- Numerator exp (f s − max). -/
def expShift (f : Fin 2048 → EReal) (s : Fin 2048) : EReal := Ideal.exp (f s - rowMax f)
/-- Denominator Σ_s exp (f s − max). -/
def expSum (f : Fin 2048 → EReal) : EReal := ∑ s : Fin 2048, expShift f s
/-- p · (1 / l). -/
def softmaxK (f : Fin 2048 → EReal) (s : Fin 2048) : EReal := expShift f s * Ideal.div cOne (expSum f)
/-- p / l. -/
def softmaxR (f : Fin 2048 → EReal) (s : Fin 2048) : EReal := Ideal.div (expShift f s) (expSum f)

/-! ## The fused projection -/

/-- qkv(4 t + b, f) = Σ_k x(t, b, k) · W(f, k) + bias(f), on the flattened rows. -/
def qkv (x : SX.Idx → EReal) (w : SW.Idx → EReal) (bi : SB.Idx → EReal) (t : Fin 2048) (b : Fin 4) (f : Fin 3072) : EReal :=
  (∑ k : Fin 1024, x (ix3 t b k) * w (ix2 f k)) + bi (ix1 f)

/-! ## The attention of one (batch, head) from head-major arrays: what the second kernel region computes -/

section Region
variable (q : SQ.Idx → EReal) (kt vt : SKt.Idx → EReal) (wh : SWh.Idx → EReal) (br : SBr.Idx → EReal)

/-- (Σ_d q(t, d) · k(d, s)) · (1/8). -/
def scoreA (b : Fin 4) (h : Fin 16) (t s : Fin 2048) : EReal := (∑ d : Fin 64, q (ix4 b h t d) * kt (ix4 b h d s)) * cEighth
def weightA (b : Fin 4) (h : Fin 16) (t s : Fin 2048) : EReal := softmaxK (scoreA q kt b h t) s
def attnA (b : Fin 4) (h : Fin 16) (t : Fin 2048) (d : Fin 64) : EReal := ∑ s : Fin 2048, weightA q kt b h t s * vt (ix4 b h d s)
/-- The head mean as accumulated: Σ_h w_h · (1/16). -/
def avgA (b : Fin 4) (t s : Fin 2048) : EReal := ∑ h : Fin 16, weightA q kt b h t s * cSixteenth
/-- The output projection accumulated head by head, then the bias. -/
def outA (b : Fin 4) (t : Fin 2048) (e : Fin 1024) : EReal :=
  (∑ h : Fin 16, ∑ d : Fin 64, attnA q kt vt b h t d * wh (ix3 h d e)) + br (ix2 (0 : Fin 1) e)

end Region

/-! ## Arrangement K: the whole program from its five arguments -/

section Args
variable (x : SX.Idx → EReal) (w : SW.Idx → EReal) (bi : SB.Idx → EReal) (wo : SWo.Idx → EReal) (bo : SBo.Idx → EReal)

/-- Head-major q: q(b, h, t, d) = qkv(t, b, 64 h + d). -/
def qK : SQ.Idx → EReal := fun j => qkv x w bi (j 2) (j 0) (colQ (j 1) (j 3))
/-- Head-major transposed k: k(b, h, d, s) = qkv(s, b, 1024 + 64 h + d). -/
def ktK : SKt.Idx → EReal := fun j => qkv x w bi (j 3) (j 0) (colK (j 1) (j 2))
def vtK : SKt.Idx → EReal := fun j => qkv x w bi (j 3) (j 0) (colV (j 1) (j 2))
/-- Per-head output weights: wh(h, d, e) = Wo(e, 64 h + d). -/
def whK : SWh.Idx → EReal := fun j => wo (ix2 (j 2) (colE (j 0) (j 1)))
def brK : SBr.Idx → EReal := fun j => bo (ix1 (j 1))

def outK : SOut.Idx → EReal := fun i => outA (qK x w bi) (ktK x w bi) (vtK x w bi) (whK wo) (brK bo) (i 1) (i 0) (i 2)
def avgK : SAvg.Idx → EReal := fun i => avgA (qK x w bi) (ktK x w bi) (i 0) (i 1) (i 2)

/-! ## Arrangement R -/

/-- Σ_d (q(t, d) · (1/8)) · k(s, d). -/
def scoreR (b : Fin 4) (h : Fin 16) (t s : Fin 2048) : EReal :=
  ∑ d : Fin 64, (qkv x w bi t b (colQ h d) * cEighth) * qkv x w bi s b (colK h d)
def weightR (b : Fin 4) (h : Fin 16) (t s : Fin 2048) : EReal := softmaxR (scoreR x w bi b h t) s
def attnR (b : Fin 4) (h : Fin 16) (t : Fin 2048) (d : Fin 64) : EReal :=
  ∑ s : Fin 2048, weightR x w bi b h t s * qkv x w bi s b (colV h d)
/-- Lane e' of the flat width 1024 is head e' / 64, lane e' % 64. -/
def attnFlatR (t : Fin 2048) (b : Fin 4) (e' : Fin 1024) : EReal :=
  attnR x w bi b ⟨e'.val / 64, by have := e'.isLt; omega⟩ t ⟨e'.val % 64, Nat.mod_lt _ (by decide)⟩
def outR : SOut.Idx → EReal := fun i =>
  (∑ e' : Fin 1024, attnFlatR x w bi (i 0) (i 1) e' * wo (ix2 (i 2) e')) + bo (ix1 (i 2))
def avgR : SAvg.Idx → EReal := fun i =>
  Ideal.div (∑ h : Fin 16, weightR x w bi (i 0) h (i 1) (i 2)) cSixteen

end Args

end Cert.Spec

end
-- ==== Proof.KGlue.lean ====
/-
  The host operations around the two kernel regions, read at an index over the extended reals.

  Each stretch of host operations (before the first region, between the two, after the second) is a chain of layout
  operations: reshapes (same row-major position), column slices, transposes, and format changes (the identity on
  extended reals). For an arbitrary valuation `W` of the buffers before a stretch, each buffer the stretch writes is
  `W` at one buffer, at an index computed from the result index; every other buffer keeps its contents.
-/
import proofs.«407651_j53060025975075_3_alg».proof.Proof.Gen.KernelIdeal.Launch
import proofs.«407651_j53060025975075_3_alg».proof.Proof.Gen.KernelIdeal.Regions
import proofs.«407651_j53060025975075_3_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.KGlue

open Cert.KernelIdeal Cert.KernelIdeal.Gen Idealize.ShloMosaic Idealize.ShloMosaic.TcCoe Idealize.ShloMosaic.ValueIdx Cert.Spec

theorem v0_eq (W : Valuation τ sig (Elt Ideal)) :
    (StableHlo.after (hostOps0 (F := Ideal)) W) (Proc.devRef .tc main_v0)
      = fun j : S8192x1024.Idx => W (Proc.devRef .tc main_arg0)
          (ix3 (⟨(j 0).val / 4, by have h0 : (j 0).val < 8192 := (j 0).isLt; omega⟩ : Fin 2048)
               (⟨(j 0).val % 4, Nat.mod_lt _ (by decide)⟩ : Fin 4) (j 1)) := by
  show StableHlo.after hostOps0 W (Proc.devRef .tc main_v0) = _
  after_results
  funext j
  exact shapeCast_apply _ shapeCasts_S2048x4x1024_S8192x1024 j _ (by
    rewrite [Shape.rowMajor_val_three, Shape.rowMajor_val_two]
    have h0 : (j 0).val < 8192 := (j 0).isLt
    show ((j 0).val / 4 * 4 + (j 0).val % 4) * 1024 + (j 1).val = (j 0).val * 1024 + (j 1).val
    omega)

theorem v19_eq (W : Valuation τ sig (Elt Ideal)) :
    (StableHlo.after (hostOps2 (F := Ideal)) W) (Proc.devRef .tc main_v19)
      = fun j : S2048x4x1024.Idx => W (Proc.devRef .tc main_v18_0) (ix3 (j 1) (j 0) (j 2)) := by
  show StableHlo.after hostOps2 W (Proc.devRef .tc main_v19) = _
  after_results
  funext j
  exact transpose_apply [1, 0, 2] _ transposes_S4x2048x1024_S2048x4x1024_1_0_2 j _ (fun b => match b with
    | ⟨0, _⟩ => rfl
    | ⟨1, _⟩ => rfl
    | ⟨2, _⟩ => rfl)

theorem v1_eq (W : Valuation τ sig (Elt Ideal)) :
    (StableHlo.after (hostOps0 (F := Ideal)) W) (Proc.devRef .tc main_v1) = W (Proc.devRef .tc main_arg1) := by
  show StableHlo.after hostOps0 W (Proc.devRef .tc main_v1) = _
  after_results
  rfl

theorem v2_eq (W : Valuation τ sig (Elt Ideal)) :
    (StableHlo.after (hostOps0 (F := Ideal)) W) (Proc.devRef .tc main_v2)
      = fun j : S1x3072.Idx => W (Proc.devRef .tc main_arg2) (ix1 (j 1)) := by
  show StableHlo.after hostOps0 W (Proc.devRef .tc main_v2) = _
  after_results
  funext j
  exact shapeCast_apply _ shapeCasts_S3072_S1x3072 j _ (by
    rewrite [Shape.rowMajor_val_one, Shape.rowMajor_val_two]
    have h0 : (j 0).val < 1 := (j 0).isLt
    show (j 1).val = (j 0).val * 3072 + (j 1).val
    omega)

theorem keep0 (W : Valuation τ sig (Elt Ideal)) (r : Ref sig .tc) (h : r ∉ hostOps0_W) :
    (StableHlo.after (hostOps0 (F := Ideal)) W) (Proc.devRef .tc r) = W (Proc.devRef .tc r) :=
  StableHlo.after_of_writes_sub hostOps0 _ hostOps0_writes h

theorem keep1 (W : Valuation τ sig (Elt Ideal)) (r : Ref sig .tc) (h : r ∉ hostOps1_W) :
    (StableHlo.after (hostOps1 (F := Ideal)) W) (Proc.devRef .tc r) = W (Proc.devRef .tc r) :=
  StableHlo.after_of_writes_sub hostOps1 _ hostOps1_writes h

theorem keep2 (W : Valuation τ sig (Elt Ideal)) (r : Ref sig .tc) (h : r ∉ hostOps2_W) :
    (StableHlo.after (hostOps2 (F := Ideal)) W) (Proc.devRef .tc r) = W (Proc.devRef .tc r) :=
  StableHlo.after_of_writes_sub hostOps2 _ hostOps2_writes h

theorem v17_eq (W : Valuation τ sig (Elt Ideal)) :
    (StableHlo.after (hostOps1 (F := Ideal)) W) (Proc.devRef .tc main_v17)
      = fun j : S1x1024.Idx => W (Proc.devRef .tc main_arg4) (ix1 (j 1)) := by
  show StableHlo.after hostOps1 W (Proc.devRef .tc main_v17) = _
  after_results
  funext j
  exact shapeCast_apply _ shapeCasts_S1024_S1x1024 j _ (by
    rewrite [Shape.rowMajor_val_one, Shape.rowMajor_val_two]
    have h0 : (j 0).val < 1 := (j 0).isLt
    show (j 1).val = (j 0).val * 1024 + (j 1).val
    omega)

theorem v9_eq (W : Valuation τ sig (Elt Ideal)) :
    (StableHlo.after (hostOps1 (F := Ideal)) W) (Proc.devRef .tc main_v9)
      = fun j : S4x16x2048x64.Idx => W (Proc.devRef .tc main_v3) (ix2 (rowTB (j 2) (j 0)) (colQ (j 1) (j 3))) := by
  show StableHlo.after hostOps1 W (Proc.devRef .tc main_v9) = _
  after_results
  funext j
  obtain ⟨b, h, t, d, rfl⟩ : ∃ (b : Fin 4) (h : Fin 16) (t : Fin 2048) (d : Fin 64), j = ix4 b h t d :=
    ⟨j 0, j 1, j 2, j 3, eq_ix4 j⟩
  show _ = W (Proc.devRef .tc main_v3) (ix2 (rowTB t b) (colQ h d))
  refine (transpose_apply [1, 2, 0, 3] _ transposes_S2048x4x16x64_S4x16x2048x64_1_2_0_3 (ix4 b h t d) (ix4 t b h d) (fun a => match a with
    | ⟨0, _⟩ => rfl
    | ⟨1, _⟩ => rfl
    | ⟨2, _⟩ => rfl
    | ⟨3, _⟩ => rfl)).trans ?_
  refine (shapeCast_apply _ shapeCasts_S2048x4x1024_S2048x4x16x64 (ix4 t b h d) (ix3 t b (colE h d)) (by
    rewrite [Shape.rowMajor_val_three, Shape.rowMajor_val_four]
    show (t.val * 4 + b.val) * 1024 + (h.val * 64 + d.val) = ((t.val * 4 + b.val) * 16 + h.val) * 64 + d.val
    omega)).trans ?_
  refine (extractStridedSlice_apply ![0, 0, 0] _ slices_S2048x4x3072_S2048x4x1024_0_0_0 (ix3 t b (colE h d)) (ix3 t b (colQ h d)) (fun a => match a with
    | ⟨0, _⟩ => by show t.val = 0 + t.val; omega
    | ⟨1, _⟩ => by show b.val = 0 + b.val; omega
    | ⟨2, _⟩ => by show h.val * 64 + d.val = 0 + (h.val * 64 + d.val); omega)).trans ?_
  exact shapeCast_apply _ shapeCasts_S8192x3072_S2048x4x3072 (ix3 t b (colQ h d)) (ix2 (rowTB t b) (colQ h d)) (by
    rewrite [Shape.rowMajor_val_two, Shape.rowMajor_val_three]
    rfl)

theorem v11_eq (W : Valuation τ sig (Elt Ideal)) :
    (StableHlo.after (hostOps1 (F := Ideal)) W) (Proc.devRef .tc main_v11)
      = fun j : S4x16x64x2048.Idx => W (Proc.devRef .tc main_v3) (ix2 (rowTB (j 3) (j 0)) (colK (j 1) (j 2))) := by
  show StableHlo.after hostOps1 W (Proc.devRef .tc main_v11) = _
  after_results
  funext j
  obtain ⟨b, h, d, s, rfl⟩ : ∃ (b : Fin 4) (h : Fin 16) (d : Fin 64) (s : Fin 2048), j = ix4 b h d s :=
    ⟨j 0, j 1, j 2, j 3, eq_ix4 j⟩
  show _ = W (Proc.devRef .tc main_v3) (ix2 (rowTB s b) (colK h d))
  refine (transpose_apply [1, 2, 3, 0] _ transposes_S2048x4x16x64_S4x16x64x2048_1_2_3_0 (ix4 b h d s) (ix4 s b h d) (fun a => match a with
    | ⟨0, _⟩ => rfl
    | ⟨1, _⟩ => rfl
    | ⟨2, _⟩ => rfl
    | ⟨3, _⟩ => rfl)).trans ?_
  refine (shapeCast_apply _ shapeCasts_S2048x4x1024_S2048x4x16x64 (ix4 s b h d) (ix3 s b (colE h d)) (by
    rewrite [Shape.rowMajor_val_three, Shape.rowMajor_val_four]
    show (s.val * 4 + b.val) * 1024 + (h.val * 64 + d.val) = ((s.val * 4 + b.val) * 16 + h.val) * 64 + d.val
    omega)).trans ?_
  refine (extractStridedSlice_apply ![0, 0, 1024] _ slices_S2048x4x3072_S2048x4x1024_0_0_1024 (ix3 s b (colE h d)) (ix3 s b (colK h d)) (fun a => match a with
    | ⟨0, _⟩ => by show s.val = 0 + s.val; omega
    | ⟨1, _⟩ => by show b.val = 0 + b.val; omega
    | ⟨2, _⟩ => by show 1024 + h.val * 64 + d.val = 1024 + (h.val * 64 + d.val); omega)).trans ?_
  exact shapeCast_apply _ shapeCasts_S8192x3072_S2048x4x3072 (ix3 s b (colK h d)) (ix2 (rowTB s b) (colK h d)) (by
    rewrite [Shape.rowMajor_val_two, Shape.rowMajor_val_three]
    rfl)

theorem v13_eq (W : Valuation τ sig (Elt Ideal)) :
    (StableHlo.after (hostOps1 (F := Ideal)) W) (Proc.devRef .tc main_v13)
      = fun j : S4x16x64x2048.Idx => W (Proc.devRef .tc main_v3) (ix2 (rowTB (j 3) (j 0)) (colV (j 1) (j 2))) := by
  show StableHlo.after hostOps1 W (Proc.devRef .tc main_v13) = _
  after_results
  funext j
  obtain ⟨b, h, d, s, rfl⟩ : ∃ (b : Fin 4) (h : Fin 16) (d : Fin 64) (s : Fin 2048), j = ix4 b h d s :=
    ⟨j 0, j 1, j 2, j 3, eq_ix4 j⟩
  show _ = W (Proc.devRef .tc main_v3) (ix2 (rowTB s b) (colV h d))
  refine (transpose_apply [1, 2, 3, 0] _ transposes_S2048x4x16x64_S4x16x64x2048_1_2_3_0 (ix4 b h d s) (ix4 s b h d) (fun a => match a with
    | ⟨0, _⟩ => rfl
    | ⟨1, _⟩ => rfl
    | ⟨2, _⟩ => rfl
    | ⟨3, _⟩ => rfl)).trans ?_
  refine (shapeCast_apply _ shapeCasts_S2048x4x1024_S2048x4x16x64 (ix4 s b h d) (ix3 s b (colE h d)) (by
    rewrite [Shape.rowMajor_val_three, Shape.rowMajor_val_four]
    show (s.val * 4 + b.val) * 1024 + (h.val * 64 + d.val) = ((s.val * 4 + b.val) * 16 + h.val) * 64 + d.val
    omega)).trans ?_
  refine (extractStridedSlice_apply ![0, 0, 2048] _ slices_S2048x4x3072_S2048x4x1024_0_0_2048 (ix3 s b (colE h d)) (ix3 s b (colV h d)) (fun a => match a with
    | ⟨0, _⟩ => by show s.val = 0 + s.val; omega
    | ⟨1, _⟩ => by show b.val = 0 + b.val; omega
    | ⟨2, _⟩ => by show 2048 + h.val * 64 + d.val = 2048 + (h.val * 64 + d.val); omega)).trans ?_
  exact shapeCast_apply _ shapeCasts_S8192x3072_S2048x4x3072 (ix3 s b (colV h d)) (ix2 (rowTB s b) (colV h d)) (by
    rewrite [Shape.rowMajor_val_two, Shape.rowMajor_val_three]
    rfl)

theorem v16_eq (W : Valuation τ sig (Elt Ideal)) :
    (StableHlo.after (hostOps1 (F := Ideal)) W) (Proc.devRef .tc main_v16)
      = fun j : S16x64x1024.Idx => W (Proc.devRef .tc main_arg3) (ix2 (j 2) (colE (j 0) (j 1))) := by
  show StableHlo.after hostOps1 W (Proc.devRef .tc main_v16) = _
  after_results
  funext j
  obtain ⟨h, d, e, rfl⟩ : ∃ (h : Fin 16) (d : Fin 64) (e : Fin 1024), j = ix3 h d e := ⟨j 0, j 1, j 2, eq_ix3 j⟩
  show _ = W (Proc.devRef .tc main_arg3) (ix2 e (colE h d))
  refine (truncf_apply (s := S16x64x1024) _ bitsLt_bf16_f32 _).trans ?_
  refine (transpose_apply [1, 2, 0] _ transposes_S1024x16x64_S16x64x1024_1_2_0 (ix3 h d e) (ix3 e h d) (fun a => match a with
    | ⟨0, _⟩ => rfl
    | ⟨1, _⟩ => rfl
    | ⟨2, _⟩ => rfl)).trans ?_
  exact shapeCast_apply _ shapeCasts_S1024x1024_S1024x16x64 (ix3 e h d) (ix2 e (colE h d)) (by
    rewrite [Shape.rowMajor_val_two, Shape.rowMajor_val_three]
    show e.val * 1024 + (h.val * 64 + d.val) = (e.val * 16 + h.val) * 64 + d.val
    omega)

end Cert.KernelIdeal.KGlue

end
-- ==== Proof.PayIdx.lean ====
/-
  The payloads of the two kernel bodies read at an index, over the extended reals: each stored value as plain sums
  and products over Fin coordinates. The projection kernel stores x · Wᵀ + bias; the attention kernel stores, per
  head, the softmax of the scaled scores, its running head mean, and the running output projection.
-/
import proofs.«407651_j53060025975075_3_alg».proof.Proof.Gen.KernelIdeal.Skeleton
import proofs.«407651_j53060025975075_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayIdx

open Cert.KernelIdeal Cert.KernelIdeal.Gen Idealize.ShloMosaic Idealize.ShloMosaic.ValueIdx

/-! ## Shape casts and broadcasts the two bodies use, read at an index by coordinates -/

section Layout
variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Layout

/-! ## The projection's contraction: row r of x against row f of W -/

theorem lhs_proj_0 (i : S512x3072.Idx) (q : dot_S512x1024_S3072x1024_S512x3072_1_1_0_0_n_n.contr.Idx) :
    (dot_S512x1024_S3072x1024_S512x3072_1_1_0_0_n_n.lhsIdx i q 0).val = (i 0).val := by
  unfold DotDims.lhsIdx
  rw [dif_neg (show ¬(0 : Fin S512x1024.rank) ∈ dot_S512x1024_S3072x1024_S512x3072_1_1_0_0_n_n.lhsBatch by decide), dif_pos (show (0 : Fin S512x1024.rank) ∈ dot_S512x1024_S3072x1024_S512x3072_1_1_0_0_n_n.lhsNonContracting by decide)]
  rfl
theorem lhs_proj_1 (i : S512x3072.Idx) (q : dot_S512x1024_S3072x1024_S512x3072_1_1_0_0_n_n.contr.Idx) :
    (dot_S512x1024_S3072x1024_S512x3072_1_1_0_0_n_n.lhsIdx i q 1).val = (q ⟨0, by decide⟩).val :=
  dot_S512x1024_S3072x1024_S512x3072_1_1_0_0_n_n.lhsIdx_val_of_single rfl i q
theorem rhs_proj_0 (i : S512x3072.Idx) (q : dot_S512x1024_S3072x1024_S512x3072_1_1_0_0_n_n.contr.Idx) :
    (dot_S512x1024_S3072x1024_S512x3072_1_1_0_0_n_n.rhsIdx i q 0).val = (i 1).val := by
  unfold DotDims.rhsIdx
  rw [dif_neg (show ¬(0 : Fin S3072x1024.rank) ∈ dot_S512x1024_S3072x1024_S512x3072_1_1_0_0_n_n.rhsBatch by decide), dif_pos (show (0 : Fin S3072x1024.rank) ∈ dot_S512x1024_S3072x1024_S512x3072_1_1_0_0_n_n.rhsNonContracting by decide)]
  rfl
theorem rhs_proj_1 (i : S512x3072.Idx) (q : dot_S512x1024_S3072x1024_S512x3072_1_1_0_0_n_n.contr.Idx) :
    (dot_S512x1024_S3072x1024_S512x3072_1_1_0_0_n_n.rhsIdx i q 1).val = (q ⟨0, by decide⟩).val :=
  dot_S512x1024_S3072x1024_S512x3072_1_1_0_0_n_n.rhsIdx_val_of_single rfl i q

/-- The projection's matmul into the zero accumulator, at (r, c): Σ_k a(r, k) · b(c, k). -/
theorem matmul_proj_apply (a : FVec Ideal S512x1024 .bf16) (b : FVec Ideal S3072x1024 .bf16) (r : Fin 512) (c : Fin 3072) :
    matmul dot_S512x1024_S3072x1024_S512x3072_1_1_0_0_n_n none a b (constant (F := Ideal) S512x3072 .f32 0x00000000#32) (ix2 r c)
      = ∑ k : Fin 1024, a (ix2 r k) * b (ix2 c k) := by
  simp only [matmul]
  rw [Ideal.matmul_constant_zero_apply, ← Equiv.sum_comp (contrEquiv1 dot_S512x1024_S3072x1024_S512x3072_1_1_0_0_n_n 1024 rfl rfl).symm]
  refine Finset.sum_congr rfl fun k _ => ?_
  have hk := contrEquiv1_symm_val dot_S512x1024_S3072x1024_S512x3072_1_1_0_0_n_n 1024 rfl rfl k
  have el : dot_S512x1024_S3072x1024_S512x3072_1_1_0_0_n_n.lhsIdx (ix2 r c) ((contrEquiv1 dot_S512x1024_S3072x1024_S512x3072_1_1_0_0_n_n 1024 rfl rfl).symm k) = ix2 r k := funext fun a => Fin.ext (by
    match a with
    | ⟨0, _⟩ => exact lhs_proj_0 _ _
    | ⟨1, _⟩ => exact (lhs_proj_1 _ _).trans hk)
  have er : dot_S512x1024_S3072x1024_S512x3072_1_1_0_0_n_n.rhsIdx (ix2 r c) ((contrEquiv1 dot_S512x1024_S3072x1024_S512x3072_1_1_0_0_n_n 1024 rfl rfl).symm k) = ix2 c k := funext fun a => Fin.ext (by
    match a with
    | ⟨0, _⟩ => exact rhs_proj_0 _ _
    | ⟨1, _⟩ => exact (rhs_proj_1 _ _).trans hk)
  rw [el, er]

/-- The projection kernel's stored value at (r, f): Σ_k x(r, k) · W(f, k) + bias(f). -/
theorem k0_pay1_apply (x0 : Vec Ideal S512x1024 .f32) (x1 : Vec Ideal S3072x1024 .bf16) (x2 : Vec Ideal S1x3072 .f32)
    (r : Fin 512) (f : Fin 3072) :
    k0_pay1 (F := Ideal) x0 x1 x2 (ix2 r f)
      = (∑ k : Fin 1024, x0 (ix2 r k) * x1 (ix2 f k)) + x2 (ix2 (0 : Fin 1) f) := by
  unfold k0_pay1
  rw [truncf_apply, addf_apply, matmul_proj_apply, broadcastTo_1b_ab_apply]
  simp only [shapeCast_self, truncf_apply]

/-! ## The payloads that only move or clear data -/

/-- The head mean written out at the last head: the accumulated [512, 2048] block under a leading unit axis. -/
theorem k1_pay2_apply (x : Vec Ideal S512x2048 .f32) (t : Fin 512) (s : Fin 2048) :
    k1_pay2 (F := Ideal) x (ix3 (0 : Fin 1) t s) = x (ix2 t s) := by
  unfold k1_pay2
  exact shapeCast_ab_1ab_apply x shapeCasts_S512x2048_S1x512x2048 0 t s

/-- The output written out at the last head: the accumulated projection plus the output bias. -/
theorem k1_pay3_apply (x : Vec Ideal S512x1024 .f32) (bias : Vec Ideal S1x1024 .f32) (t : Fin 512) (e : Fin 1024) :
    k1_pay3 (F := Ideal) x bias (ix3 (0 : Fin 1) t e) = x (ix2 t e) + bias (ix2 (0 : Fin 1) e) := by
  unfold k1_pay3
  rw [shapeCast_ab_1ab_apply, addf_apply, broadcastTo_1b_ab_apply, shapeCast_self]

/-- The head-mean accumulator is cleared to zero at the first head. -/
theorem k1_pay4_apply (t : Fin 512) (s : Fin 2048) : k1_pay4 (F := Ideal) (ix2 t s) = 0 := by
  unfold k1_pay4
  rw [shapeCast_self, broadcast_apply]
  exact Ideal.ofBits_zero_f32

/-- The output accumulator is cleared to zero at the first head. -/
theorem k1_pay5_apply (t : Fin 512) (e : Fin 1024) : k1_pay5 (F := Ideal) (ix2 t e) = 0 := by
  unfold k1_pay5
  rw [shapeCast_self, broadcast_apply]
  exact Ideal.ofBits_zero_f32

/-- The values block of one (batch, head), its two unit axes dropped. -/
theorem k1_pay6_apply (v : Vec Ideal S1x1x64x2048 .bf16) (d : Fin 64) (s : Fin 2048) :
    k1_pay6 (F := Ideal) v (ix2 d s) = v (ix4 (0 : Fin 1) (0 : Fin 1) d s) := by
  unfold k1_pay6
  exact shapeCast_11ab_ab_apply v shapeCasts_S1x1x64x2048_S64x2048 d s

/-! ## The softmax of one head's scaled scores -/

theorem lhs_score_0 (i : S512x2048.Idx) (q : dot_S512x64_S64x2048_S512x2048_1_0_0_1_n_n.contr.Idx) :
    (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
  rfl
theorem lhs_score_1 (i : S512x2048.Idx) (q : dot_S512x64_S64x2048_S512x2048_1_0_0_1_n_n.contr.Idx) :
    (dot_S512x64_S64x2048_S512x2048_1_0_0_1_n_n.lhsIdx i q 1).val = (q ⟨0, by decide⟩).val :=
  dot_S512x64_S64x2048_S512x2048_1_0_0_1_n_n.lhsIdx_val_of_single rfl i q
theorem rhs_score_0 (i : S512x2048.Idx) (q : dot_S512x64_S64x2048_S512x2048_1_0_0_1_n_n.contr.Idx) :
    (dot_S512x64_S64x2048_S512x2048_1_0_0_1_n_n.rhsIdx i q 0).val = (q ⟨0, by decide⟩).val :=
  dot_S512x64_S64x2048_S512x2048_1_0_0_1_n_n.rhsIdx_val_of_single rfl i q
theorem rhs_score_1 (i : S512x2048.Idx) (q : dot_S512x64_S64x2048_S512x2048_1_0_0_1_n_n.contr.Idx) :
    (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
  rfl

/-- Queries against transposed keys, at (r, c): Σ_d a(r, d) · b(d, c). -/
theorem matmul_score_apply (a : FVec Ideal S512x64 .bf16) (b : FVec Ideal S64x2048 .bf16) (r : Fin 512) (c : Fin 2048) :
    matmul dot_S512x64_S64x2048_S512x2048_1_0_0_1_n_n none a b (constant (F := Ideal) S512x2048 .f32 0x00000000#32) (ix2 r c)
      = ∑ k : Fin 64, a (ix2 r k) * b (ix2 k c) := by
  simp only [matmul]
  rw [Ideal.matmul_constant_zero_apply, ← Equiv.sum_comp (contrEquiv1 dot_S512x64_S64x2048_S512x2048_1_0_0_1_n_n 64 rfl rfl).symm]
  refine Finset.sum_congr rfl fun k _ => ?_
  have hk := contrEquiv1_symm_val dot_S512x64_S64x2048_S512x2048_1_0_0_1_n_n 64 rfl rfl k
  have el : dot_S512x64_S64x2048_S512x2048_1_0_0_1_n_n.lhsIdx (ix2 r c) ((contrEquiv1 dot_S512x64_S64x2048_S512x2048_1_0_0_1_n_n 64 rfl rfl).symm k) = ix2 r k := funext fun a => Fin.ext (by
    match a with
    | ⟨0, _⟩ => exact lhs_score_0 _ _
    | ⟨1, _⟩ => exact (lhs_score_1 _ _).trans hk)
  have er : dot_S512x64_S64x2048_S512x2048_1_0_0_1_n_n.rhsIdx (ix2 r c) ((contrEquiv1 dot_S512x64_S64x2048_S512x2048_1_0_0_1_n_n 64 rfl rfl).symm k) = ix2 k c := funext fun a => Fin.ext (by
    match a with
    | ⟨0, _⟩ => exact (rhs_score_0 _ _).trans hk
    | ⟨1, _⟩ => exact rhs_score_1 _ _)
  rw [el, er]

/-- The f32 word of −∞ denotes the bottom element. -/
theorem ofBits_negInf_f32 : Ideal.ofBits .f32 0xFF800000#32 = ⊥ := by simp [Ideal.ofBits, Ideal.ieee]

/-- An exponential at an index is the exponential of the element. -/
theorem exp_apply {s : Shape} {φ : FTy} (x : FVec Ideal s φ) (i : s.Idx) : exp x i = Ideal.exp (x i) := rfl

/-- Over the row index t, the source index with lane s inserted is (t, s). -/
theorem lift_row (h : S512x2048.Reduces [1] S512) (t : Fin 512) (s : Fin 2048) : h.lift (ix1 t) s = ix2 t s :=
  funext fun c => match c with | ⟨0, _⟩ => Fin.ext rfl | ⟨1, _⟩ => Fin.ext rfl

/-- A row maximum started from −∞ is the supremum of the row. -/
theorem rowMax_read (src : FVec Ideal S512x2048 .f32) (h : S512x2048.Reduces [1] S512) (hφ : FKind.Formats .f32)
    (hacc : (0xFF800000#32 : BitVec 32) = 0xFF800000#32) (t : Fin 512) :
    multiReduction .maximumf [1] S512 src 0xFF800000#32 h hφ hacc (ix1 t) = Finset.univ.sup fun s : Fin 2048 => src (ix2 t s) := by
  refine (Ideal.multiReduction_maximumf_single src 0xFF800000#32 h hφ hacc (ix1 t)).trans ?_
  have e : (src ∘ h.lift (ix1 t)) = fun s : Fin 2048 => src (ix2 t s) := funext fun s => congrArg src (lift_row h t s)
  rw [e]
  show (Finset.univ : Finset (Fin 2048)).fold max (Ideal.ofBits .f32 0xFF800000#32) _ = _
  rw [ofBits_negInf_f32]
  rfl

/-- A row sum started from zero is the sum of the row. -/
theorem rowSum_read (src : FVec Ideal S512x2048 .f32) (h : S512x2048.Reduces [1] S512) (hφ : FKind.Formats .f32)
    (hacc : (0x00000000#32 : BitVec 32) = 0x00000000#32) (t : Fin 512) :
    multiReduction .add [1] S512 src 0x00000000#32 h hφ hacc (ix1 t) = ∑ s : Fin 2048, src (ix2 t s) := by
  refine (Ideal.multiReduction_add_single src 0x00000000#32 h hφ hacc (ix1 t)).trans ?_
  exact Finset.sum_congr rfl fun s _ => congrArg src (lift_row h t s)

/-- One head's scaled scores: (q · k) · (1/8). -/
def scores (q : Vec Ideal S1x1x512x64 .bf16) (k : Vec Ideal S1x1x64x2048 .bf16) : FVec Ideal S512x2048 .f32 :=
  have v4 : FVec Ideal S512x64 .bf16 := shapeCast S512x64 q shapeCasts_S1x1x512x64_S512x64
  have v6 : FVec Ideal S64x2048 .bf16 := shapeCast S64x2048 k shapeCasts_S1x1x64x2048_S64x2048
  have cst : FVec Ideal S512x2048 .f32 := constant S512x2048 .f32 0x00000000#32
  have v9 : FVec Ideal S512x2048 .f32 := matmul dot_S512x64_S64x2048_S512x2048_1_0_0_1_n_n none v4 v6 cst
  have cst_12 : Ideal .f32 := Scalar.ofBits .f32 0x3E000000#32
  have v10 : FVec Ideal S512x2048 .f32 := broadcast S512x2048 cst_12
  mulf v9 v10

/-- The body's softmax over the lanes of a [512, 2048] block: exp (x − row max), times one over the row's sum. -/
def softmaxRows (x : FVec Ideal S512x2048 .f32) : FVec Ideal S512x2048 .f32 :=
  have v12 : FVec Ideal S512 .f32 := multiReduction .maximumf [1] S512 x 0xFF800000#32 reduces_S512x2048_S512 (.inl rfl) rfl
  have v13 : FVec Ideal S512x1 .f32 := shapeCast S512x1 v12 shapeCasts_S512_S512x1
  have v14 : FVec Ideal S512x2048 .f32 := broadcastTo S512x2048 v13 broadcasts_S512x1_S512x2048
  have v15 : FVec Ideal S512x2048 .f32 := subf x v14
  have v16 : FVec Ideal S512x2048 .f32 := exp v15
  have v17 : FVec Ideal S512 .f32 := multiReduction .add [1] S512 v16 0x00000000#32 reduces_S512x2048_S512 (.inl rfl) rfl
  have v18 : FVec Ideal S512x1 .f32 := shapeCast S512x1 v17 shapeCasts_S512_S512x1
  have cst_15 : Ideal .f32 := Scalar.ofBits .f32 0x3F800000#32
  have v19 : FVec Ideal S512x1 .f32 := broadcast S512x1 cst_15
  have v20 : FVec Ideal S512x1 .f32 := divf v19 v18
  have v21 : FVec Ideal S512x2048 .f32 := broadcastTo S512x2048 v20 broadcasts_S512x1_S512x2048
  have v22 : FVec Ideal S512x2048 .f32 := mulf v16 v21
  v22

set_option maxRecDepth 65536 in
/-- The attention body's weights are the softmax steps applied to the scaled scores. -/
theorem k1_pay7_eq (q : Vec Ideal S1x1x512x64 .bf16) (k : Vec Ideal S1x1x64x2048 .bf16) :
    k1_pay7 (F := Ideal) q k = softmaxRows (scores q k) := rfl

/-- The scaled scores at (t, s). -/
theorem scores_apply (q : Vec Ideal S1x1x512x64 .bf16) (k : Vec Ideal S1x1x64x2048 .bf16) (t : Fin 512) (s : Fin 2048) :
    scores q k (ix2 t s)
      = (∑ d : Fin 64, q (ix4 (0 : Fin 1) (0 : Fin 1) t d) * k (ix4 (0 : Fin 1) (0 : Fin 1) d s)) * Cert.Spec.cEighth := by
  unfold scores
  rw [mulf_apply, matmul_score_apply, broadcast_apply]
  simp only [shapeCast_11ab_ab_apply]
  rfl

/-- The softmax steps at (t, s): the softmax of row t, in the spelling p · (1 / l). -/
theorem softmaxRows_apply (x : FVec Ideal S512x2048 .f32) (t : Fin 512) (s : Fin 2048) :
    softmaxRows x (ix2 t s) = Cert.Spec.softmaxK (fun s' => x (ix2 t s')) s := by
  unfold softmaxRows
  simp only [mulf_apply, broadcastTo_a1_ab_apply, divf_apply, broadcast_apply, shapeCast_a_a1_apply, subf_apply, exp_apply]
  rw [rowSum_read]
  simp only [broadcastTo_a1_ab_apply, shapeCast_a_a1_apply, subf_apply, exp_apply]
  rw [rowMax_read]
  rfl

/-- One head's attention weights at (t, s): the softmax over s' of (Σ_d q(t, d) · k(d, s')) · (1/8). -/
theorem k1_pay7_apply (q : Vec Ideal S1x1x512x64 .bf16) (k : Vec Ideal S1x1x64x2048 .bf16) (t : Fin 512) (s : Fin 2048) :
    k1_pay7 (F := Ideal) q k (ix2 t s)
      = Cert.Spec.softmaxK (fun s' => (∑ d : Fin 64, q (ix4 (0 : Fin 1) (0 : Fin 1) t d) * k (ix4 (0 : Fin 1) (0 : Fin 1) d s'))
          * Cert.Spec.cEighth) s := by
  rw [k1_pay7_eq, softmaxRows_apply]
  exact congrArg (fun f => Cert.Spec.softmaxK f s) (funext fun s' => scores_apply q k t s')

/-- The running head mean after one head: the previous value plus the weights times 1/16. -/
theorem k1_pay8_apply (q : Vec Ideal S1x1x512x64 .bf16) (k : Vec Ideal S1x1x64x2048 .bf16) (prev : Vec Ideal S512x2048 .f32)
    (t : Fin 512) (s : Fin 2048) :
    k1_pay8 (F := Ideal) q k prev (ix2 t s) = prev (ix2 t s) + k1_pay7 (F := Ideal) q k (ix2 t s) * Cert.Spec.cSixteenth := by
  unfold k1_pay8
  rw [shapeCast_self, addf_apply, mulf_apply, broadcast_apply]
  rfl

/-- The weights handed to the weights-times-values contraction: the format change is the identity. -/
theorem k1_pay9_apply (q : Vec Ideal S1x1x512x64 .bf16) (k : Vec Ideal S1x1x64x2048 .bf16) (t : Fin 512) (s : Fin 2048) :
    k1_pay9 (F := Ideal) q k (ix2 t s) = k1_pay7 (F := Ideal) q k (ix2 t s) := by
  unfold k1_pay9
  rw [truncf_apply]

/-! ## The weights-times-values contraction and the output projection of one head -/

theorem lhs_pv_0 (i : S512x64.Idx) (q : dot_S512x2048_S64x2048_S512x64_1_1_0_0_n_n.contr.Idx) :
    (dot_S512x2048_S64x2048_S512x64_1_1_0_0_n_n.lhsIdx i q 0).val = (i 0).val := by
  unfold DotDims.lhsIdx
  rw [dif_neg (show ¬(0 : Fin S512x2048.rank) ∈ dot_S512x2048_S64x2048_S512x64_1_1_0_0_n_n.lhsBatch by decide), dif_pos (show (0 : Fin S512x2048.rank) ∈ dot_S512x2048_S64x2048_S512x64_1_1_0_0_n_n.lhsNonContracting by decide)]
  rfl
theorem lhs_pv_1 (i : S512x64.Idx) (q : dot_S512x2048_S64x2048_S512x64_1_1_0_0_n_n.contr.Idx) :
    (dot_S512x2048_S64x2048_S512x64_1_1_0_0_n_n.lhsIdx i q 1).val = (q ⟨0, by decide⟩).val :=
  dot_S512x2048_S64x2048_S512x64_1_1_0_0_n_n.lhsIdx_val_of_single rfl i q
theorem rhs_pv_0 (i : S512x64.Idx) (q : dot_S512x2048_S64x2048_S512x64_1_1_0_0_n_n.contr.Idx) :
    (dot_S512x2048_S64x2048_S512x64_1_1_0_0_n_n.rhsIdx i q 0).val = (i 1).val := by
  unfold DotDims.rhsIdx
  rw [dif_neg (show ¬(0 : Fin S64x2048.rank) ∈ dot_S512x2048_S64x2048_S512x64_1_1_0_0_n_n.rhsBatch by decide), dif_pos (show (0 : Fin S64x2048.rank) ∈ dot_S512x2048_S64x2048_S512x64_1_1_0_0_n_n.rhsNonContracting by decide)]
  rfl
theorem rhs_pv_1 (i : S512x64.Idx) (q : dot_S512x2048_S64x2048_S512x64_1_1_0_0_n_n.contr.Idx) :
    (dot_S512x2048_S64x2048_S512x64_1_1_0_0_n_n.rhsIdx i q 1).val = (q ⟨0, by decide⟩).val :=
  dot_S512x2048_S64x2048_S512x64_1_1_0_0_n_n.rhsIdx_val_of_single rfl i q

/-- Weights against transposed values, at (r, c): Σ_s a(r, s) · b(c, s). -/
theorem matmul_pv_apply (a : FVec Ideal S512x2048 .bf16) (b : FVec Ideal S64x2048 .bf16) (r : Fin 512) (c : Fin 64) :
    matmul dot_S512x2048_S64x2048_S512x64_1_1_0_0_n_n none a b (constant (F := Ideal) S512x64 .f32 0x00000000#32) (ix2 r c)
      = ∑ k : Fin 2048, a (ix2 r k) * b (ix2 c k) := by
  simp only [matmul]
  rw [Ideal.matmul_constant_zero_apply, ← Equiv.sum_comp (contrEquiv1 dot_S512x2048_S64x2048_S512x64_1_1_0_0_n_n 2048 rfl rfl).symm]
  refine Finset.sum_congr rfl fun k _ => ?_
  have hk := contrEquiv1_symm_val dot_S512x2048_S64x2048_S512x64_1_1_0_0_n_n 2048 rfl rfl k
  have el : dot_S512x2048_S64x2048_S512x64_1_1_0_0_n_n.lhsIdx (ix2 r c) ((contrEquiv1 dot_S512x2048_S64x2048_S512x64_1_1_0_0_n_n 2048 rfl rfl).symm k) = ix2 r k := funext fun a => Fin.ext (by
    match a with
    | ⟨0, _⟩ => exact lhs_pv_0 _ _
    | ⟨1, _⟩ => exact (lhs_pv_1 _ _).trans hk)
  have er : dot_S512x2048_S64x2048_S512x64_1_1_0_0_n_n.rhsIdx (ix2 r c) ((contrEquiv1 dot_S512x2048_S64x2048_S512x64_1_1_0_0_n_n 2048 rfl rfl).symm k) = ix2 c k := funext fun a => Fin.ext (by
    match a with
    | ⟨0, _⟩ => exact rhs_pv_0 _ _
    | ⟨1, _⟩ => exact (rhs_pv_1 _ _).trans hk)
  rw [el, er]

theorem lhs_out_0 (i : S512x1024.Idx) (q : dot_S512x64_S64x1024_S512x1024_1_0_0_1_n_n.contr.Idx) :
    (dot_S512x64_S64x1024_S512x1024_1_0_0_1_n_n.lhsIdx i q 0).val = (i 0).val := by
  unfold DotDims.lhsIdx
  rw [dif_neg (show ¬(0 : Fin S512x64.rank) ∈ dot_S512x64_S64x1024_S512x1024_1_0_0_1_n_n.lhsBatch by decide), dif_pos (show (0 : Fin S512x64.rank) ∈ dot_S512x64_S64x1024_S512x1024_1_0_0_1_n_n.lhsNonContracting by decide)]
  rfl
theorem lhs_out_1 (i : S512x1024.Idx) (q : dot_S512x64_S64x1024_S512x1024_1_0_0_1_n_n.contr.Idx) :
    (dot_S512x64_S64x1024_S512x1024_1_0_0_1_n_n.lhsIdx i q 1).val = (q ⟨0, by decide⟩).val :=
  dot_S512x64_S64x1024_S512x1024_1_0_0_1_n_n.lhsIdx_val_of_single rfl i q
theorem rhs_out_0 (i : S512x1024.Idx) (q : dot_S512x64_S64x1024_S512x1024_1_0_0_1_n_n.contr.Idx) :
    (dot_S512x64_S64x1024_S512x1024_1_0_0_1_n_n.rhsIdx i q 0).val = (q ⟨0, by decide⟩).val :=
  dot_S512x64_S64x1024_S512x1024_1_0_0_1_n_n.rhsIdx_val_of_single rfl i q
theorem rhs_out_1 (i : S512x1024.Idx) (q : dot_S512x64_S64x1024_S512x1024_1_0_0_1_n_n.contr.Idx) :
    (dot_S512x64_S64x1024_S512x1024_1_0_0_1_n_n.rhsIdx i q 1).val = (i 1).val := by
  unfold DotDims.rhsIdx
  rw [dif_neg (show ¬(1 : Fin S64x1024.rank) ∈ dot_S512x64_S64x1024_S512x1024_1_0_0_1_n_n.rhsBatch by decide), dif_pos (show (1 : Fin S64x1024.rank) ∈ dot_S512x64_S64x1024_S512x1024_1_0_0_1_n_n.rhsNonContracting by decide)]
  rfl

/-- One head's attention against its slab of output weights, at (r, c): Σ_d a(r, d) · b(d, c). -/
theorem matmul_out_apply (a : FVec Ideal S512x64 .bf16) (b : FVec Ideal S64x1024 .bf16) (r : Fin 512) (c : Fin 1024) :
    matmul dot_S512x64_S64x1024_S512x1024_1_0_0_1_n_n none a b (constant (F := Ideal) S512x1024 .f32 0x00000000#32) (ix2 r c)
      = ∑ k : Fin 64, a (ix2 r k) * b (ix2 k c) := by
  simp only [matmul]
  rw [Ideal.matmul_constant_zero_apply, ← Equiv.sum_comp (contrEquiv1 dot_S512x64_S64x1024_S512x1024_1_0_0_1_n_n 64 rfl rfl).symm]
  refine Finset.sum_congr rfl fun k _ => ?_
  have hk := contrEquiv1_symm_val dot_S512x64_S64x1024_S512x1024_1_0_0_1_n_n 64 rfl rfl k
  have el : dot_S512x64_S64x1024_S512x1024_1_0_0_1_n_n.lhsIdx (ix2 r c) ((contrEquiv1 dot_S512x64_S64x1024_S512x1024_1_0_0_1_n_n 64 rfl rfl).symm k) = ix2 r k := funext fun a => Fin.ext (by
    match a with
    | ⟨0, _⟩ => exact lhs_out_0 _ _
    | ⟨1, _⟩ => exact (lhs_out_1 _ _).trans hk)
  have er : dot_S512x64_S64x1024_S512x1024_1_0_0_1_n_n.rhsIdx (ix2 r c) ((contrEquiv1 dot_S512x64_S64x1024_S512x1024_1_0_0_1_n_n 64 rfl rfl).symm k) = ix2 k c := funext fun a => Fin.ext (by
    match a with
    | ⟨0, _⟩ => exact (rhs_out_0 _ _).trans hk
    | ⟨1, _⟩ => exact rhs_out_1 _ _)
  rw [el, er]

/-- The running output projection after one head, at (t, e): the previous value plus
    Σ_d (Σ_s w(t, s) · v(d, s)) · wo(0, d, e). -/
theorem k1_pay1_apply (v8 : FVec Ideal S64x2048 .bf16) (w30 : FVec Ideal S512x2048 .bf16) (wsl : Vec Ideal S1x64x1024 .bf16)
    (prev : Vec Ideal S512x1024 .f32) (t : Fin 512) (e : Fin 1024) :
    k1_pay1 (F := Ideal) v8 w30 wsl prev (ix2 t e)
      = prev (ix2 t e) + ∑ d : Fin 64, (∑ s : Fin 2048, w30 (ix2 t s) * v8 (ix2 d s)) * wsl (ix3 (0 : Fin 1) d e) := by
  unfold k1_pay1
  rw [shapeCast_self, addf_apply, matmul_out_apply]
  refine congrArg (prev (ix2 t e) + ·) (Finset.sum_congr rfl fun d _ => ?_)
  rw [truncf_apply, matmul_pv_apply, shapeCast_1ab_ab_apply]

end Cert.KernelIdeal.PayIdx

end
-- ==== Proof.KV0.lean ====
/- Region 0's output array after its 16 grid points, at the extended reals: row r, column f of the [8192, 3072]
   array holds  Σ_k x[r, k] · W[f, k] + b[f]  of the arrays the region finds on entry (x : [8192, 1024] the rows,
   W : [3072, 1024] the weight, b : [1, 3072] the bias). Point t writes rows 512 t … 512 t + 511, each from the same
   rows of x and all of W and b, and the 16 row blocks cover the array. -/
import proofs.«407651_j53060025975075_3_alg».proof.Proof.KIRegion0
import proofs.«407651_j53060025975075_3_alg».proof.Proof.PayIdx
import Idealize.ShloMosaic.Lib.Pipeline.Value
import Idealize.ShloMosaic.Lib.ValueIdx
import Idealize.ShloMosaic.Lib.Tactic

set_option maxRecDepth 16384

noncomputable section

open scoped BigOperators

namespace Cert.KernelIdeal.KV0

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The projection, index by index, of the three arrays: Σ_k x[r, k] · W[f, k] + b[f] at row r, column f. -/
abbrev proj (x : S8192x1024.Idx → EReal) (W : S3072x1024.Idx → EReal) (b : S1x3072.Idx → EReal) : S8192x3072.Idx → EReal :=
  fun j => (∑ k : Fin 1024, x (ix2 (j 0) k) * W (ix2 (j 1) k)) + b (ix2 (0 : Fin 1) (j 1))

/-- The block index maps over the 16 points: the row windows (x and the output) are at block row t, column block 0;
    the weight and the bias are at block (0, 0) throughout. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The body's payload at an index of the output block, by its two coordinates. -/
theorem pay_at (x0 : Vec Ideal S512x1024 .f32) (x1 : Vec Ideal S3072x1024 .bf16) (x2 : Vec Ideal S1x3072 .f32) (y : S512x3072.Idx) :
    k0_pay1 (F := Ideal) x0 x1 x2 y = (∑ k : Fin 1024, x0 (ix2 (y 0) k) * x1 (ix2 (y 1) k)) + x2 (ix2 (0 : Fin 1) (y 1)) := by
  exact (congrArg (k0_pay1 (F := Ideal) x0 x1 x2) (eq_ix2 y)).trans (PayIdx.k0_pay1_apply x0 x1 x2 (y 0) (y 1))

/-- The payload of blocks that are the arrays read at the matching rows and columns is the projection there. -/
theorem pay_eq_proj (x0 : Vec Ideal S512x1024 .f32) (x1 : Vec Ideal S3072x1024 .bf16) (x2 : Vec Ideal S1x3072 .f32)
    (a0 : S8192x1024.Idx → EReal) (a1 : S3072x1024.Idx → EReal) (a2 : S1x3072.Idx → EReal) (y : S512x3072.Idx) (j : S8192x3072.Idx)
    (h0 : ∀ k : Fin 1024, x0 (ix2 (y 0) k) = a0 (ix2 (j 0) k))
    (h1 : ∀ k : Fin 1024, x1 (ix2 (y 1) k) = a1 (ix2 (j 1) k))
    (h2 : x2 (ix2 (0 : Fin 1) (y 1)) = a2 (ix2 (0 : Fin 1) (j 1))) :
    k0_pay1 (F := Ideal) x0 x1 x2 y = proj a0 a1 a2 j := by
  rw [pay_at]
  show _ = (∑ k : Fin 1024, a0 (ix2 (j 0) k) * a1 (ix2 (j 1) k)) + a2 (ix2 (0 : Fin 1) (j 1))
  rw [h2]
  congr 1
  exact Finset.sum_congr rfl fun k _ => by rw [h0 k, h1 k]

/-- Window 0's block at point t is rows 512 t … 512 t + 511 of x. -/
theorem rows_at (c : Dev nD) (t : Fin cfg0.N) (x : S512x1024.Idx) (i : S8192x1024.Idx)
    (h0 : (i 0).val = 512 * t.val + (x 0).val) (h1 : (i 1).val = (x 1).val) :
    (iblk0 V c 0 t : Vec Ideal S512x1024 .f32) x = (V c main_v0 : S8192x1024.Idx → EReal) i := by
  obtain ⟨e0, e1, -⟩ := idx_facts t
  unfold iblk0
  rw [View.read_apply]
  show V c main_v0 _ = V c main_v0 _
  congr 1
  funext a
  apply Fin.ext
  match a with
  | ⟨0, _⟩ => show win0_0.index t (0 : Fin 2) * 512 + 1 * (x 0).val = (i 0).val; omega
  | ⟨1, _⟩ => show win0_0.index t (1 : Fin 2) * 1024 + 1 * (x 1).val = (i 1).val; omega

/-- Window 1's block at every point is all of W. -/
theorem weight_at (c : Dev nD) (t : Fin cfg0.N) (x : S3072x1024.Idx) :
    (iblk0 V c 1 t : Vec Ideal S3072x1024 .bf16) x = (V c main_v1 : S3072x1024.Idx → EReal) x := by
  obtain ⟨-, -, e0, e1, -⟩ := idx_facts t
  unfold iblk0
  rw [View.read_apply]
  show V c main_v1 _ = V c main_v1 _
  congr 1
  funext a
  apply Fin.ext
  match a with
  | ⟨0, _⟩ => show win0_1.index t (0 : Fin 2) * 3072 + 1 * (x 0).val = (x 0).val; omega
  | ⟨1, _⟩ => show win0_1.index t (1 : Fin 2) * 1024 + 1 * (x 1).val = (x 1).val; omega

/-- Window 2's block at every point is all of b. -/
theorem bias_at (c : Dev nD) (t : Fin cfg0.N) (x : S1x3072.Idx) :
    (iblk0 V c 2 t : Vec Ideal S1x3072 .f32) x = (V c main_v2 : S1x3072.Idx → EReal) x := by
  obtain ⟨-, -, -, -, e0, e1, -⟩ := idx_facts t
  unfold iblk0
  rw [View.read_apply]
  show V c main_v2 _ = V c main_v2 _
  congr 1
  funext a
  apply Fin.ext
  match a with
  | ⟨0, _⟩ => show win0_2.index t (0 : Fin 2) * 1 + 1 * (x 0).val = (x 0).val; omega
  | ⟨1, _⟩ => show win0_2.index t (1 : Fin 2) * 3072 + 1 * (x 1).val = (x 1).val; omega

/-- What point t writes back is block t of the projection of the entry arrays. -/
theorem flushed3_eq (c : Dev nD) (t : Fin cfg0.N) :
    (dat0 (F := Ideal) V c).flushed 3 t = ((cfg0.win 3).blk t).view.read (Elt Ideal) (proj (V c main_v0) (V c main_v1) (V c main_v2)) := by
  show (cfg0.win 3).cut (grid0.coords t) ((dat0 (F := Ideal) V c).after 3 t) = _
  rw [after0_3]
  unfold out0_3
  rw [View.canon_unit_zero hz]
  simp only [View.ld_unit_zero (S := S512x1024) hz, View.ld_unit_zero (S := S3072x1024) hz, View.ld_unit_zero (S := S1x3072) hz]
  obtain ⟨-, -, -, -, -, -, e0, e1⟩ := idx_facts t
  funext y
  show k0_pay1 (F := Ideal) (iblk0 V c 0 t) (iblk0 V c 1 t) (iblk0 V c 2 t) y
    = proj (V c main_v0) (V c main_v1) (V c main_v2) (((cfg0.win 3).blk t).view.emb y)
  have r0 : ((((cfg0.win 3).blk t).view.emb y) 0).val = 512 * t.val + (y 0).val := by
    show win0_3.index t (0 : Fin 2) * 512 + 1 * (y 0).val = _; omega
  have r1 : ((((cfg0.win 3).blk t).view.emb y) 1).val = (y 1).val := by
    show win0_3.index t (1 : Fin 2) * 3072 + 1 * (y 1).val = _; omega
  refine pay_eq_proj (iblk0 V c 0 t) (iblk0 V c 1 t) (iblk0 V c 2 t) _ _ _ y _ (fun k => ?_) (fun k => ?_) ?_
  · exact rows_at V c t _ _ r0 rfl
  · rw [weight_at V c t]
    congr 1
    funext a; apply Fin.ext
    match a with
    | ⟨0, _⟩ => exact r1.symm
    | ⟨1, _⟩ => rfl
  · rw [bias_at V c t]
    congr 1
    funext a; apply Fin.ext
    match a with
    | ⟨0, _⟩ => rfl
    | ⟨1, _⟩ => exact r1.symm

/-- An index of the array is in point t's block iff each coordinate is in the block's range on its axis. -/
theorem mem_blk3 (t : Fin cfg0.N) (i : S8192x3072.Idx) :
    i ∈ ((cfg0.win 3).blk t).view.set ↔ ∀ a : Fin 2, win0_3.index t a * S512x3072.size a ≤ (i a).val ∧ (i a).val < win0_3.index t a * S512x3072.size a + S512x3072.size a := by
  show i ∈ ((View.whole main_v3).slice (win0_3.rect t)).set ↔ _
  rw [View.set_slice_whole, Rect.mem_set_unit]
  exact Iff.rfl

/-- Every index of the array is in the block of the point its row falls in: row r is in block r / 512. -/
theorem cover3 (i : S8192x3072.Idx) : ∃ t : Fin cfg0.N, (cfg0.win 3).flush t = true ∧ i ∈ ((cfg0.win 3).blk t).view.set := by
  have hN : cfg0.N = 16 := N_0
  have hi0 : (i 0).val < 8192 := idx2_lt0 i
  have hi1 : (i 1).val < 3072 := idx2_lt1 i
  let t : Fin cfg0.N := ⟨(i 0).val / 512, by rw [hN]; omega⟩
  have ht : t.val = (i 0).val / 512 := rfl
  obtain ⟨-, -, -, -, -, -, e0, e1⟩ := idx_facts t
  refine ⟨t, flush0_3 t, ?_⟩
  rw [mem_blk3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 3072 ≤ (i 1).val ∧ (i 1).val < win0_3.index t (1 : Fin 2) * 3072 + 3072; omega

/-- Region 0's output array after all 16 points is the projection of the arrays the region finds on entry. -/
theorem arr0_3 (c : Dev nD) : (dat0 (F := Ideal) V c).arrAt 3 cfg0.N = proj (V c main_v0) (V c main_v1) (V c main_v2) :=
  (dat0 (F := Ideal) V c).arrAt_eq_of_cover 3 (proj (V c main_v0) (V c main_v1) (V c main_v2))
    (fun t _ => flushed3_eq V c t) (fun i => cover3 i)

end Cert.KernelIdeal.KV0

end
-- ==== Proof.KV1Pieces.lean ====
import proofs.«407651_j53060025975075_3_alg».proof.Proof.KIRegion1
import Idealize.ShloMosaic.Lib.Pipeline.Value
import Idealize.ShloMosaic.Lib.Tactic

set_option maxRecDepth 16384

noncomputable section

namespace Cert.KernelIdeal.KV1

open Cert.KernelIdeal Cert.KernelIdeal.Gen Cert.KernelIdeal.Hand
open Idealize.ShloMosaic Idealize.ShloMosaic.TcCoe Idealize.ShloMosaic.Tactic Idealize.SL.Sem

variable {F : FTy → Type} [FloatOps F]

/-! # What each case of the attention body leaves, as explicit values

Each case's run found the pieces stored into the two accumulators (and, at the last head, into the two outputs). Here
those pieces are read back as values of the input blocks `x0` (queries), `x1` (keys), `x2` (values), `x3` (all heads'
output weights), `x4` (bias) and the entering accumulators `xs0`, `xs1`: every store is a whole-buffer store, so a
buffer holds the payload of the last store into it, and a load after a store reads that store's payload. -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The rectangle of the weights block the body loads at point `i`: head `h`'s `64 × 1024` slab of the `16 × 64 × 1024` array. -/
abbrev wrect (i : grid1.Coords) : Rect S16x64x1024 := Rect.unit (s := S16x64x1024) (k1_off1 i) S1x64x1024.size (k1_off1_inb i)

/-- At the first head accumulator 0 is reset to zero and then holds zero plus the point's scaled probabilities. -/
theorem sout1_A_0_eq (c : Dev nD) (i : grid1.Coords) (arg3 : Memref sig .tc .vmem S1x1x512x64 .bf16) (harg3 : arg3.IsWhole) (arg4 : Memref sig .tc .vmem S1x1x64x2048 .bf16) (harg4 : arg4.IsWhole) (arg5 : Memref sig .tc .vmem S1x1x64x2048 .bf16) (harg5 : arg5.IsWhole) (arg6 : Memref sig .tc .vmem S16x64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x512x2048 .f32) (harg9 : arg9.IsWhole) (arg10 : Memref sig .tc .vmem S512x2048 .f32) (harg10 : arg10.IsWhole) (arg11 : Memref sig .tc .vmem S512x1024 .f32) (harg11 : arg11.IsWhole) (hc0 : cond1_0 i) (hc1 : ¬cond1_1 i)
    (x0 : Vec F S1x1x512x64 .bf16) (x1 : Vec F S1x1x64x2048 .bf16) (x2 : Vec F S1x1x64x2048 .bf16) (x3 : Vec F S16x64x1024 .bf16) (x4 : Vec F S1x1024 .f32) :
    sout1_A_0 c i arg3 harg3 arg4 harg4 arg5 harg5 arg6 harg6 arg7 harg7 arg8 harg8 arg9 harg9 arg10 harg10 arg11 harg11 hc0 hc1 x0 x1 x2 x3 x4 = k1_pay8 x0 x1 (k1_pay4 (F := F)) := by
  unfold sout1_A_0
  rw [View.read_writes_eq_canon _ _ _ (scover1_A_0 c i arg3 harg3 arg4 harg4 arg5 harg5 arg6 harg6 arg7 harg7 arg8 harg8 arg9 harg9 arg10 harg10 arg11 harg11 hc0 hc1 x0 x1 x2 x3 x4)]
  unfold kernelRun1_A
  dsimp only
  try sl_unfold_words
  rw [View.canon_cons_unit_zero (S := S512x2048) hz2]
  simp only [View.readAt_eq_ld, harg3.read_unread, harg4.read_unread, harg5.read_unread, harg6.read_unread, harg7.read_unread, harg10.read_unread, harg11.read_unread,
    View.ld_unit_zero (S := S1x1x512x64) hz4, View.ld_unit_zero (S := S1x1x64x2048) hz4, View.ld_unit_zero (S := S1x1024) hz2,
    View.ld_unit_zero (S := S512x2048) hz2, View.ld_unit_zero (S := S512x1024) hz2,
    View.readCov_unit_zero (S := S512x2048) _ hz2, View.readCov_unit_zero (S := S512x1024) _ hz2]

/-- At the first head accumulator 1 is reset to zero and then holds zero plus the head's projected output. -/
theorem sout1_A_1_eq (c : Dev nD) (i : grid1.Coords) (arg3 : Memref sig .tc .vmem S1x1x512x64 .bf16) (harg3 : arg3.IsWhole) (arg4 : Memref sig .tc .vmem S1x1x64x2048 .bf16) (harg4 : arg4.IsWhole) (arg5 : Memref sig .tc .vmem S1x1x64x2048 .bf16) (harg5 : arg5.IsWhole) (arg6 : Memref sig .tc .vmem S16x64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x512x2048 .f32) (harg9 : arg9.IsWhole) (arg10 : Memref sig .tc .vmem S512x2048 .f32) (harg10 : arg10.IsWhole) (arg11 : Memref sig .tc .vmem S512x1024 .f32) (harg11 : arg11.IsWhole) (hc0 : cond1_0 i) (hc1 : ¬cond1_1 i)
    (x0 : Vec F S1x1x512x64 .bf16) (x1 : Vec F S1x1x64x2048 .bf16) (x2 : Vec F S1x1x64x2048 .bf16) (x3 : Vec F S16x64x1024 .bf16) (x4 : Vec F S1x1024 .f32) :
    sout1_A_1 c i arg3 harg3 arg4 harg4 arg5 harg5 arg6 harg6 arg7 harg7 arg8 harg8 arg9 harg9 arg10 harg10 arg11 harg11 hc0 hc1 x0 x1 x2 x3 x4 = k1_pay1 (k1_pay6 x2) (k1_pay9 x0 x1) (View.ld x3 (wrect i)) (k1_pay5 (F := F)) := by
  unfold sout1_A_1
  rw [View.read_writes_eq_canon _ _ _ (scover1_A_1 c i arg3 harg3 arg4 harg4 arg5 harg5 arg6 harg6 arg7 harg7 arg8 harg8 arg9 harg9 arg10 harg10 arg11 harg11 hc0 hc1 x0 x1 x2 x3 x4)]
  unfold kernelRun1_A
  dsimp only
  try sl_unfold_words
  rw [View.canon_cons_unit_zero (S := S512x1024) hz2]
  simp only [View.readAt_eq_ld, harg3.read_unread, harg4.read_unread, harg5.read_unread, harg6.read_unread, harg7.read_unread, harg10.read_unread, harg11.read_unread,
    View.ld_unit_zero (S := S1x1x512x64) hz4, View.ld_unit_zero (S := S1x1x64x2048) hz4, View.ld_unit_zero (S := S1x1024) hz2,
    View.ld_unit_zero (S := S512x2048) hz2, View.ld_unit_zero (S := S512x1024) hz2,
    View.readCov_unit_zero (S := S512x2048) _ hz2, View.readCov_unit_zero (S := S512x1024) _ hz2]
  rfl

/-- At a middle head accumulator 0 holds what it entered with plus the point's scaled probabilities. -/
theorem sout1_B_0_eq (c : Dev nD) (i : grid1.Coords) (arg3 : Memref sig .tc .vmem S1x1x512x64 .bf16) (harg3 : arg3.IsWhole) (arg4 : Memref sig .tc .vmem S1x1x64x2048 .bf16) (harg4 : arg4.IsWhole) (arg5 : Memref sig .tc .vmem S1x1x64x2048 .bf16) (harg5 : arg5.IsWhole) (arg6 : Memref sig .tc .vmem S16x64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x512x2048 .f32) (harg9 : arg9.IsWhole) (arg10 : Memref sig .tc .vmem S512x2048 .f32) (harg10 : arg10.IsWhole) (arg11 : Memref sig .tc .vmem S512x1024 .f32) (harg11 : arg11.IsWhole) (hc0 : ¬cond1_0 i) (hc1 : ¬cond1_1 i)
    (x0 : Vec F S1x1x512x64 .bf16) (x1 : Vec F S1x1x64x2048 .bf16) (x2 : Vec F S1x1x64x2048 .bf16) (x3 : Vec F S16x64x1024 .bf16) (x4 : Vec F S1x1024 .f32) (xs0 : Vec F S512x2048 .f32) (xs1 : Vec F S512x1024 .f32) :
    sout1_B_0 c i arg3 harg3 arg4 harg4 arg5 harg5 arg6 harg6 arg7 harg7 arg8 harg8 arg9 harg9 arg10 harg10 arg11 harg11 hc0 hc1 x0 x1 x2 x3 x4 xs0 xs1 = k1_pay8 x0 x1 xs0 := by
  unfold sout1_B_0
  rw [View.read_writes_eq_canon _ _ _ (scover1_B_0 c i arg3 harg3 arg4 harg4 arg5 harg5 arg6 harg6 arg7 harg7 arg8 harg8 arg9 harg9 arg10 harg10 arg11 harg11 hc0 hc1 x0 x1 x2 x3 x4 xs0 xs1)]
  unfold kernelRun1_B
  dsimp only
  try sl_unfold_words
  rw [View.canon_cons_unit_zero (S := S512x2048) hz2]
  simp only [View.readAt_eq_ld, harg3.read_unread, harg4.read_unread, harg5.read_unread, harg6.read_unread, harg7.read_unread, harg10.read_unread, harg11.read_unread,
    View.ld_unit_zero (S := S1x1x512x64) hz4, View.ld_unit_zero (S := S1x1x64x2048) hz4, View.ld_unit_zero (S := S1x1024) hz2,
    View.ld_unit_zero (S := S512x2048) hz2, View.ld_unit_zero (S := S512x1024) hz2,
    View.readCov_unit_zero (S := S512x2048) _ hz2, View.readCov_unit_zero (S := S512x1024) _ hz2]

/-- At a middle head accumulator 1 holds what it entered with plus the head's projected output. -/
theorem sout1_B_1_eq (c : Dev nD) (i : grid1.Coords) (arg3 : Memref sig .tc .vmem S1x1x512x64 .bf16) (harg3 : arg3.IsWhole) (arg4 : Memref sig .tc .vmem S1x1x64x2048 .bf16) (harg4 : arg4.IsWhole) (arg5 : Memref sig .tc .vmem S1x1x64x2048 .bf16) (harg5 : arg5.IsWhole) (arg6 : Memref sig .tc .vmem S16x64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x512x2048 .f32) (harg9 : arg9.IsWhole) (arg10 : Memref sig .tc .vmem S512x2048 .f32) (harg10 : arg10.IsWhole) (arg11 : Memref sig .tc .vmem S512x1024 .f32) (harg11 : arg11.IsWhole) (hc0 : ¬cond1_0 i) (hc1 : ¬cond1_1 i)
    (x0 : Vec F S1x1x512x64 .bf16) (x1 : Vec F S1x1x64x2048 .bf16) (x2 : Vec F S1x1x64x2048 .bf16) (x3 : Vec F S16x64x1024 .bf16) (x4 : Vec F S1x1024 .f32) (xs0 : Vec F S512x2048 .f32) (xs1 : Vec F S512x1024 .f32) :
    sout1_B_1 c i arg3 harg3 arg4 harg4 arg5 harg5 arg6 harg6 arg7 harg7 arg8 harg8 arg9 harg9 arg10 harg10 arg11 harg11 hc0 hc1 x0 x1 x2 x3 x4 xs0 xs1 = k1_pay1 (k1_pay6 x2) (k1_pay9 x0 x1) (View.ld x3 (wrect i)) xs1 := by
  unfold sout1_B_1
  rw [View.read_writes_eq_canon _ _ _ (scover1_B_1 c i arg3 harg3 arg4 harg4 arg5 harg5 arg6 harg6 arg7 harg7 arg8 harg8 arg9 harg9 arg10 harg10 arg11 harg11 hc0 hc1 x0 x1 x2 x3 x4 xs0 xs1)]
  unfold kernelRun1_B
  dsimp only
  try sl_unfold_words
  rw [View.canon_cons_unit_zero (S := S512x1024) hz2]
  simp only [View.readAt_eq_ld, harg3.read_unread, harg4.read_unread, harg5.read_unread, harg6.read_unread, harg7.read_unread, harg10.read_unread, harg11.read_unread,
    View.ld_unit_zero (S := S1x1x512x64) hz4, View.ld_unit_zero (S := S1x1x64x2048) hz4, View.ld_unit_zero (S := S1x1024) hz2,
    View.ld_unit_zero (S := S512x2048) hz2, View.ld_unit_zero (S := S512x1024) hz2,
    View.readCov_unit_zero (S := S512x2048) _ hz2, View.readCov_unit_zero (S := S512x1024) _ hz2]
  rfl

/-- At the last head accumulator 0 is updated as at a middle head. -/
theorem sout1_C_0_eq (c : Dev nD) (i : grid1.Coords) (arg3 : Memref sig .tc .vmem S1x1x512x64 .bf16) (harg3 : arg3.IsWhole) (arg4 : Memref sig .tc .vmem S1x1x64x2048 .bf16) (harg4 : arg4.IsWhole) (arg5 : Memref sig .tc .vmem S1x1x64x2048 .bf16) (harg5 : arg5.IsWhole) (arg6 : Memref sig .tc .vmem S16x64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x512x2048 .f32) (harg9 : arg9.IsWhole) (arg10 : Memref sig .tc .vmem S512x2048 .f32) (harg10 : arg10.IsWhole) (arg11 : Memref sig .tc .vmem S512x1024 .f32) (harg11 : arg11.IsWhole) (hc0 : ¬cond1_0 i) (hc1 : cond1_1 i)
    (x0 : Vec F S1x1x512x64 .bf16) (x1 : Vec F S1x1x64x2048 .bf16) (x2 : Vec F S1x1x64x2048 .bf16) (x3 : Vec F S16x64x1024 .bf16) (x4 : Vec F S1x1024 .f32) (xs0 : Vec F S512x2048 .f32) (xs1 : Vec F S512x1024 .f32) :
    sout1_C_0 c i arg3 harg3 arg4 harg4 arg5 harg5 arg6 harg6 arg7 harg7 arg8 harg8 arg9 harg9 arg10 harg10 arg11 harg11 hc0 hc1 x0 x1 x2 x3 x4 xs0 xs1 = k1_pay8 x0 x1 xs0 := by
  unfold sout1_C_0
  rw [View.read_writes_eq_canon _ _ _ (scover1_C_0 c i arg3 harg3 arg4 harg4 arg5 harg5 arg6 harg6 arg7 harg7 arg8 harg8 arg9 harg9 arg10 harg10 arg11 harg11 hc0 hc1 x0 x1 x2 x3 x4 xs0 xs1)]
  unfold kernelRun1_C
  dsimp only
  try sl_unfold_words
  rw [View.canon_cons_unit_zero (S := S512x2048) hz2]
  simp only [View.readAt_eq_ld, harg3.read_unread, harg4.read_unread, harg5.read_unread, harg6.read_unread, harg7.read_unread, harg10.read_unread, harg11.read_unread,
    View.ld_unit_zero (S := S1x1x512x64) hz4, View.ld_unit_zero (S := S1x1x64x2048) hz4, View.ld_unit_zero (S := S1x1024) hz2,
    View.ld_unit_zero (S := S512x2048) hz2, View.ld_unit_zero (S := S512x1024) hz2,
    View.readCov_unit_zero (S := S512x2048) _ hz2, View.readCov_unit_zero (S := S512x1024) _ hz2]

/-- At the last head accumulator 1 is updated as at a middle head. -/
theorem sout1_C_1_eq (c : Dev nD) (i : grid1.Coords) (arg3 : Memref sig .tc .vmem S1x1x512x64 .bf16) (harg3 : arg3.IsWhole) (arg4 : Memref sig .tc .vmem S1x1x64x2048 .bf16) (harg4 : arg4.IsWhole) (arg5 : Memref sig .tc .vmem S1x1x64x2048 .bf16) (harg5 : arg5.IsWhole) (arg6 : Memref sig .tc .vmem S16x64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x512x2048 .f32) (harg9 : arg9.IsWhole) (arg10 : Memref sig .tc .vmem S512x2048 .f32) (harg10 : arg10.IsWhole) (arg11 : Memref sig .tc .vmem S512x1024 .f32) (harg11 : arg11.IsWhole) (hc0 : ¬cond1_0 i) (hc1 : cond1_1 i)
    (x0 : Vec F S1x1x512x64 .bf16) (x1 : Vec F S1x1x64x2048 .bf16) (x2 : Vec F S1x1x64x2048 .bf16) (x3 : Vec F S16x64x1024 .bf16) (x4 : Vec F S1x1024 .f32) (xs0 : Vec F S512x2048 .f32) (xs1 : Vec F S512x1024 .f32) :
    sout1_C_1 c i arg3 harg3 arg4 harg4 arg5 harg5 arg6 harg6 arg7 harg7 arg8 harg8 arg9 harg9 arg10 harg10 arg11 harg11 hc0 hc1 x0 x1 x2 x3 x4 xs0 xs1 = k1_pay1 (k1_pay6 x2) (k1_pay9 x0 x1) (View.ld x3 (wrect i)) xs1 := by
  unfold sout1_C_1
  rw [View.read_writes_eq_canon _ _ _ (scover1_C_1 c i arg3 harg3 arg4 harg4 arg5 harg5 arg6 harg6 arg7 harg7 arg8 harg8 arg9 harg9 arg10 harg10 arg11 harg11 hc0 hc1 x0 x1 x2 x3 x4 xs0 xs1)]
  unfold kernelRun1_C
  dsimp only
  try sl_unfold_words
  rw [View.canon_cons_unit_zero (S := S512x1024) hz2]
  simp only [View.readAt_eq_ld, harg3.read_unread, harg4.read_unread, harg5.read_unread, harg6.read_unread, harg7.read_unread, harg10.read_unread, harg11.read_unread,
    View.ld_unit_zero (S := S1x1x512x64) hz4, View.ld_unit_zero (S := S1x1x64x2048) hz4, View.ld_unit_zero (S := S1x1024) hz2,
    View.ld_unit_zero (S := S512x2048) hz2, View.ld_unit_zero (S := S512x1024) hz2,
    View.readCov_unit_zero (S := S512x2048) _ hz2, View.readCov_unit_zero (S := S512x1024) _ hz2]
  rfl

/-- At the last head output 6 receives the updated accumulator 0 (reshaped). -/
theorem out1_C_6_eq (c : Dev nD) (i : grid1.Coords) (arg3 : Memref sig .tc .vmem S1x1x512x64 .bf16) (harg3 : arg3.IsWhole) (arg4 : Memref sig .tc .vmem S1x1x64x2048 .bf16) (harg4 : arg4.IsWhole) (arg5 : Memref sig .tc .vmem S1x1x64x2048 .bf16) (harg5 : arg5.IsWhole) (arg6 : Memref sig .tc .vmem S16x64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x512x2048 .f32) (harg9 : arg9.IsWhole) (arg10 : Memref sig .tc .vmem S512x2048 .f32) (harg10 : arg10.IsWhole) (arg11 : Memref sig .tc .vmem S512x1024 .f32) (harg11 : arg11.IsWhole) (hc0 : ¬cond1_0 i) (hc1 : cond1_1 i)
    (x0 : Vec F S1x1x512x64 .bf16) (x1 : Vec F S1x1x64x2048 .bf16) (x2 : Vec F S1x1x64x2048 .bf16) (x3 : Vec F S16x64x1024 .bf16) (x4 : Vec F S1x1024 .f32) (xs0 : Vec F S512x2048 .f32) (xs1 : Vec F S512x1024 .f32) :
    out1_C_6 c i arg3 harg3 arg4 harg4 arg5 harg5 arg6 harg6 arg7 harg7 arg8 harg8 arg9 harg9 arg10 harg10 arg11 harg11 hc0 hc1 x0 x1 x2 x3 x4 xs0 xs1 = k1_pay2 (k1_pay8 x0 x1 xs0) := by
  unfold out1_C_6
  rw [View.read_writes_eq_canon _ _ _ (cover1_C_6 c i arg3 harg3 arg4 harg4 arg5 harg5 arg6 harg6 arg7 harg7 arg8 harg8 arg9 harg9 arg10 harg10 arg11 harg11 hc0 hc1 x0 x1 x2 x3 x4 xs0 xs1)]
  unfold kernelRun1_C
  dsimp only
  try sl_unfold_words
  rw [View.canon_cons_unit_zero (S := S1x512x2048) hz3]
  simp only [View.readAt_eq_ld, harg3.read_unread, harg4.read_unread, harg5.read_unread, harg6.read_unread, harg7.read_unread, harg10.read_unread, harg11.read_unread,
    View.ld_unit_zero (S := S1x1x512x64) hz4, View.ld_unit_zero (S := S1x1x64x2048) hz4, View.ld_unit_zero (S := S1x1024) hz2,
    View.ld_unit_zero (S := S512x2048) hz2, View.ld_unit_zero (S := S512x1024) hz2,
    View.readCov_unit_zero (S := S512x2048) _ hz2, View.readCov_unit_zero (S := S512x1024) _ hz2]

/-- At the last head output 5 receives the updated accumulator 1 plus the bias. -/
theorem out1_C_5_eq (c : Dev nD) (i : grid1.Coords) (arg3 : Memref sig .tc .vmem S1x1x512x64 .bf16) (harg3 : arg3.IsWhole) (arg4 : Memref sig .tc .vmem S1x1x64x2048 .bf16) (harg4 : arg4.IsWhole) (arg5 : Memref sig .tc .vmem S1x1x64x2048 .bf16) (harg5 : arg5.IsWhole) (arg6 : Memref sig .tc .vmem S16x64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x512x2048 .f32) (harg9 : arg9.IsWhole) (arg10 : Memref sig .tc .vmem S512x2048 .f32) (harg10 : arg10.IsWhole) (arg11 : Memref sig .tc .vmem S512x1024 .f32) (harg11 : arg11.IsWhole) (hc0 : ¬cond1_0 i) (hc1 : cond1_1 i)
    (x0 : Vec F S1x1x512x64 .bf16) (x1 : Vec F S1x1x64x2048 .bf16) (x2 : Vec F S1x1x64x2048 .bf16) (x3 : Vec F S16x64x1024 .bf16) (x4 : Vec F S1x1024 .f32) (xs0 : Vec F S512x2048 .f32) (xs1 : Vec F S512x1024 .f32) :
    out1_C_5 c i arg3 harg3 arg4 harg4 arg5 harg5 arg6 harg6 arg7 harg7 arg8 harg8 arg9 harg9 arg10 harg10 arg11 harg11 hc0 hc1 x0 x1 x2 x3 x4 xs0 xs1 = k1_pay3 (k1_pay1 (k1_pay6 x2) (k1_pay9 x0 x1) (View.ld x3 (wrect i)) xs1) x4 := by
  unfold out1_C_5
  rw [View.read_writes_eq_canon _ _ _ (cover1_C_5 c i arg3 harg3 arg4 harg4 arg5 harg5 arg6 harg6 arg7 harg7 arg8 harg8 arg9 harg9 arg10 harg10 arg11 harg11 hc0 hc1 x0 x1 x2 x3 x4 xs0 xs1)]
  unfold kernelRun1_C
  dsimp only
  try sl_unfold_words
  rw [View.canon_cons_unit_zero (S := S1x512x1024) hz3]
  simp only [View.readAt_eq_ld, harg3.read_unread, harg4.read_unread, harg5.read_unread, harg6.read_unread, harg7.read_unread, harg10.read_unread, harg11.read_unread,
    View.ld_unit_zero (S := S1x1x512x64) hz4, View.ld_unit_zero (S := S1x1x64x2048) hz4, View.ld_unit_zero (S := S1x1024) hz2,
    View.ld_unit_zero (S := S512x2048) hz2, View.ld_unit_zero (S := S512x1024) hz2,
    View.readCov_unit_zero (S := S512x2048) _ hz2, View.readCov_unit_zero (S := S512x1024) _ hz2]
  rfl

end Cert.KernelIdeal.KV1

end
-- ==== Proof.KV1Blocks.lean ====
/-
  The attention region's input blocks, read at an index of the arrays the region is entered with: the grid point
  t = 64 b + 16 qi + h reads the 512 query rows of block qi of head h of batch b, that head's keys and values whole,
  and the whole output weights and bias.
-/
import proofs.«407651_j53060025975075_3_alg».proof.Proof.KIRegion1Runs
import proofs.«407651_j53060025975075_3_alg».proof.Proof.Gen.KernelIdeal.Launch
import Idealize.ShloMosaic.Lib.ValueIdx
import Idealize.ShloMosaic.Lib.Pipeline.Value

noncomputable section

namespace Cert.KernelIdeal.KV1

open Cert.KernelIdeal Cert.KernelIdeal.Gen Cert.KernelIdeal.Hand Idealize.ShloMosaic Idealize.ShloMosaic.TcCoe
  Idealize.ShloMosaic.ValueIdx Idealize.SL.Sem

variable (V : (c : Dev nD) → (b : Ref sig .tc) → Buf (Elt Ideal) ((c : Thread nD τ).loc b))

/-! ## The grid point's coordinates: t = 64 b + 16 qi + h -/

theorem lt_256 (t : Fin cfg1.N) : t.val < 256 := N_1 ▸ t.isLt

/-- The batch. -/
def bOf (t : Fin cfg1.N) : Fin 4 := ⟨t.val / 64, by have := lt_256 t; omega⟩
/-- The block of 512 query rows. -/
def qiOf (t : Fin cfg1.N) : Fin 4 := ⟨(t.val / 16) % 4, Nat.mod_lt _ (by decide)⟩
/-- The head. -/
def hOf (t : Fin cfg1.N) : Fin 16 := ⟨t.val % 16, Nat.mod_lt _ (by decide)⟩
/-- Row r of the point's query block, as a row of the sequence. -/
def rowOf (t : Fin cfg1.N) (r : Fin 512) : Fin 2048 :=
  ⟨512 * (qiOf t).val + r.val, by have := (qiOf t).isLt; have := r.isLt; omega⟩

/-! ## The blocks, by their vector types -/

abbrev qblk (c : Dev nD) (t : Fin cfg1.N) : Vec Ideal S1x1x512x64 .bf16 := iblk1 V c 0 t
abbrev kblk (c : Dev nD) (t : Fin cfg1.N) : Vec Ideal S1x1x64x2048 .bf16 := iblk1 V c 1 t
abbrev vblk (c : Dev nD) (t : Fin cfg1.N) : Vec Ideal S1x1x64x2048 .bf16 := iblk1 V c 2 t
abbrev wblk (c : Dev nD) (t : Fin cfg1.N) : Vec Ideal S16x64x1024 .bf16 := iblk1 V c 3 t
abbrev bblk (c : Dev nD) (t : Fin cfg1.N) : Vec Ideal S1x1024 .f32 := iblk1 V c 4 t

/-! ## The block indices over the grid -/

theorem index1_0 : ∀ t : Fin cfg1.N, win1_0.index t (0 : Fin 4) = t.val / 64 ∧ win1_0.index t (1 : Fin 4) = t.val % 16
    ∧ win1_0.index t (2 : Fin 4) = (t.val / 16) % 4 ∧ win1_0.index t (3 : Fin 4) = 0 :=
  (by decide +kernel : ∀ t : Fin grid1.N, win1_0.index t (0 : Fin 4) = t.val / 64 ∧ win1_0.index t (1 : Fin 4) = t.val % 16
    ∧ win1_0.index t (2 : Fin 4) = (t.val / 16) % 4 ∧ win1_0.index t (3 : Fin 4) = 0)

theorem index1_1 : ∀ t : Fin cfg1.N, win1_1.index t (0 : Fin 4) = t.val / 64 ∧ win1_1.index t (1 : Fin 4) = t.val % 16
    ∧ win1_1.index t (2 : Fin 4) = 0 ∧ win1_1.index t (3 : Fin 4) = 0 :=
  (by decide +kernel : ∀ t : Fin grid1.N, win1_1.index t (0 : Fin 4) = t.val / 64 ∧ win1_1.index t (1 : Fin 4) = t.val % 16
    ∧ win1_1.index t (2 : Fin 4) = 0 ∧ win1_1.index t (3 : Fin 4) = 0)

theorem index1_2 : ∀ t : Fin cfg1.N, win1_2.index t (0 : Fin 4) = t.val / 64 ∧ win1_2.index t (1 : Fin 4) = t.val % 16
    ∧ win1_2.index t (2 : Fin 4) = 0 ∧ win1_2.index t (3 : Fin 4) = 0 :=
  (by decide +kernel : ∀ t : Fin grid1.N, win1_2.index t (0 : Fin 4) = t.val / 64 ∧ win1_2.index t (1 : Fin 4) = t.val % 16
    ∧ win1_2.index t (2 : Fin 4) = 0 ∧ win1_2.index t (3 : Fin 4) = 0)

theorem index1_3 : ∀ t : Fin cfg1.N, win1_3.index t (0 : Fin 3) = 0 ∧ win1_3.index t (1 : Fin 3) = 0 ∧ win1_3.index t (2 : Fin 3) = 0 :=
  (by decide +kernel : ∀ t : Fin grid1.N, win1_3.index t (0 : Fin 3) = 0 ∧ win1_3.index t (1 : Fin 3) = 0 ∧ win1_3.index t (2 : Fin 3) = 0)

theorem index1_4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)

/-- The body's slice of the output weights starts at the point's head. -/
theorem off1 : ∀ t : Fin cfg1.N, k1_off1 (grid1.coords t) (0 : Fin 3) = t.val % 16 ∧ k1_off1 (grid1.coords t) (1 : Fin 3) = 0
    ∧ k1_off1 (grid1.coords t) (2 : Fin 3) = 0 :=
  (by decide +kernel : ∀ t : Fin grid1.N, k1_off1 (grid1.coords t) (0 : Fin 3) = t.val % 16 ∧ k1_off1 (grid1.coords t) (1 : Fin 3) = 0
    ∧ k1_off1 (grid1.coords t) (2 : Fin 3) = 0)

/-! ## The blocks read at an index -/

/-- Row r, lane d of the query block is row 512 qi + r of head h of batch b. -/
theorem qblk_apply (c : Dev nD) (t : Fin cfg1.N) (r : Fin 512) (d : Fin 64) :
    qblk V c t (ix4 (0 : Fin 1) (0 : Fin 1) r d) = V c main_v9 (ix4 (bOf t) (hOf t) (rowOf t r) d) := by
  have hi := index1_0 t
  unfold qblk iblk1
  rw [View.read_apply]
  show V c main_v9 _ = V c main_v9 _
  congr 1
  funext a
  apply Fin.ext
  match a with
  | ⟨0, _⟩ => show win1_0.index t 0 * 1 + 1 * 0 = t.val / 64; rw [hi.1]; omega
  | ⟨1, _⟩ => show win1_0.index t 1 * 1 + 1 * 0 = t.val % 16; rw [hi.2.1]; omega
  | ⟨2, _⟩ => show win1_0.index t 2 * 512 + 1 * r.val = 512 * ((t.val / 16) % 4) + r.val; rw [hi.2.2.1]; omega
  | ⟨3, _⟩ => show win1_0.index t 3 * 64 + 1 * d.val = d.val; rw [hi.2.2.2]; omega

/-- The key block is head h of batch b, whole. -/
theorem kblk_apply (c : Dev nD) (t : Fin cfg1.N) (d : Fin 64) (s : Fin 2048) :
    kblk V c t (ix4 (0 : Fin 1) (0 : Fin 1) d s) = V c main_v11 (ix4 (bOf t) (hOf t) d s) := by
  have hi := index1_1 t
  unfold kblk iblk1
  rw [View.read_apply]
  show V c main_v11 _ = V c main_v11 _
  congr 1
  funext a
  apply Fin.ext
  match a with
  | ⟨0, _⟩ => show win1_1.index t 0 * 1 + 1 * 0 = t.val / 64; rw [hi.1]; omega
  | ⟨1, _⟩ => show win1_1.index t 1 * 1 + 1 * 0 = t.val % 16; rw [hi.2.1]; omega
  | ⟨2, _⟩ => show win1_1.index t 2 * 64 + 1 * d.val = d.val; rw [hi.2.2.1]; omega
  | ⟨3, _⟩ => show win1_1.index t 3 * 2048 + 1 * s.val = s.val; rw [hi.2.2.2]; omega

/-- The value block likewise. -/
theorem vblk_apply (c : Dev nD) (t : Fin cfg1.N) (d : Fin 64) (s : Fin 2048) :
    vblk V c t (ix4 (0 : Fin 1) (0 : Fin 1) d s) = V c main_v13 (ix4 (bOf t) (hOf t) d s) := by
  have hi := index1_2 t
  unfold vblk iblk1
  rw [View.read_apply]
  show V c main_v13 _ = V c main_v13 _
  congr 1
  funext a
  apply Fin.ext
  match a with
  | ⟨0, _⟩ => show win1_2.index t 0 * 1 + 1 * 0 = t.val / 64; rw [hi.1]; omega
  | ⟨1, _⟩ => show win1_2.index t 1 * 1 + 1 * 0 = t.val % 16; rw [hi.2.1]; omega
  | ⟨2, _⟩ => show win1_2.index t 2 * 64 + 1 * d.val = d.val; rw [hi.2.2.1]; omega
  | ⟨3, _⟩ => show win1_2.index t 3 * 2048 + 1 * s.val = s.val; rw [hi.2.2.2]; omega

/-- The output weights are read whole at every point. -/
theorem wblk_eq (c : Dev nD) (t : Fin cfg1.N) : wblk V c t = V c main_v16 := by
  have hi := index1_3 t
  funext j
  unfold wblk iblk1
  rw [View.read_apply]
  show V c main_v16 _ = V c main_v16 j
  congr 1
  funext a
  apply Fin.ext
  match a with
  | ⟨0, _⟩ => show win1_3.index t 0 * 16 + 1 * (j 0).val = (j 0).val; rw [hi.1]; omega
  | ⟨1, _⟩ => show win1_3.index t 1 * 64 + 1 * (j 1).val = (j 1).val; rw [hi.2.1]; omega
  | ⟨2, _⟩ => show win1_3.index t 2 * 1024 + 1 * (j 2).val = (j 2).val; rw [hi.2.2]; omega

/-- The bias row likewise. -/
theorem bblk_eq (c : Dev nD) (t : Fin cfg1.N) : bblk V c t = V c main_v17 := by
  have hi := index1_4 t
  funext j
  unfold bblk iblk1
  rw [View.read_apply]
  show V c main_v17 _ = V c main_v17 j
  congr 1
  funext a
  apply Fin.ext
  match a with
  | ⟨0, _⟩ => show win1_4.index t 0 * 1 + 1 * (j 0).val = (j 0).val; rw [hi.1]; omega
  | ⟨1, _⟩ => show win1_4.index t 1 * 1024 + 1 * (j 1).val = (j 1).val; rw [hi.2]; omega

/-- The slice of the output weights the body loads is the point's head's 64 rows. -/
theorem wslice_apply (c : Dev nD) (t : Fin cfg1.N) (d : Fin 64) (e : Fin 1024) :
    View.ld (wblk V c t) (Rect.unit (s := S16x64x1024) (k1_off1 (grid1.coords t)) S1x64x1024.size (k1_off1_inb (grid1.coords t)))
        (ix3 (0 : Fin 1) d e)
      = V c main_v16 (ix3 (hOf t) d e) := by
  have ho := off1 t
  rw [wblk_eq]
  unfold View.ld
  show V c main_v16 _ = V c main_v16 _
  congr 1
  funext a
  apply Fin.ext
  match a with
  | ⟨0, _⟩ => show k1_off1 (grid1.coords t) 0 + 1 * 0 = t.val % 16; rw [ho.1]; omega
  | ⟨1, _⟩ => show k1_off1 (grid1.coords t) 1 + 1 * d.val = d.val; rw [ho.2.1]; omega
  | ⟨2, _⟩ => show k1_off1 (grid1.coords t) 2 + 1 * e.val = e.val; rw [ho.2.2]; omega

end Cert.KernelIdeal.KV1

end
-- ==== Proof.KV1Step.lean ====
/-
  One head's contribution to the two accumulators of the attention region, read at an index in the specification's
  terms: the first accumulator gains the head's softmax weights over sixteen, the second the head's attention output
  through the head's slice of the output weights. Summed over the heads 0..15 these are the specification's head mean
  and, with the bias, its output projection.
-/
import proofs.«407651_j53060025975075_3_alg».proof.Proof.PayIdx
import proofs.«407651_j53060025975075_3_alg».proof.Proof.Spec
import Idealize.ShloMosaic.Lib.ValueIdx

noncomputable section

namespace Cert.KernelIdeal.KV1

open Cert.KernelIdeal Cert.KernelIdeal.Gen Cert.Spec
open Idealize.ShloMosaic Idealize.ShloMosaic.ValueIdx

variable (q : SQ.Idx → EReal) (kt vt : SKt.Idx → EReal) (wh : SWh.Idx → EReal) (br : SBr.Idx → EReal)

/-- The softmax weights the body computes from a query block and a key block are the specification's weights of the
    head the blocks belong to, at the rows the query block holds. -/
theorem pay7_eq (x0 : Vec Ideal S1x1x512x64 .bf16) (x1 : Vec Ideal S1x1x64x2048 .bf16) (b : Fin 4) (h : Fin 16) (row : Fin 512 → Fin 2048)
    (hq : ∀ (r : Fin 512) (d : Fin 64), x0 (ix4 (0 : Fin 1) (0 : Fin 1) r d) = q (ix4 b h (row r) d))
    (hk : ∀ (d : Fin 64) (s : Fin 2048), x1 (ix4 (0 : Fin 1) (0 : Fin 1) d s) = kt (ix4 b h d s)) (r : Fin 512) (s : Fin 2048) :
    k1_pay7 (F := Ideal) x0 x1 (ix2 r s) = weightA q kt b h (row r) s := by
  rw [PayIdx.k1_pay7_apply]
  unfold weightA scoreA
  simp only [hq, hk]

/-- The first accumulator after a point: what it held plus the head's weights over sixteen. -/
theorem step0 (x0 : Vec Ideal S1x1x512x64 .bf16) (x1 : Vec Ideal S1x1x64x2048 .bf16) (acc : Vec Ideal S512x2048 .f32) (b : Fin 4) (h : Fin 16) (row : Fin 512 → Fin 2048)
    (hq : ∀ (r : Fin 512) (d : Fin 64), x0 (ix4 (0 : Fin 1) (0 : Fin 1) r d) = q (ix4 b h (row r) d))
    (hk : ∀ (d : Fin 64) (s : Fin 2048), x1 (ix4 (0 : Fin 1) (0 : Fin 1) d s) = kt (ix4 b h d s)) (r : Fin 512) (s : Fin 2048) :
    k1_pay8 (F := Ideal) x0 x1 acc (ix2 r s) = acc (ix2 r s) + weightA q kt b h (row r) s * cSixteenth := by
  rw [PayIdx.k1_pay8_apply, pay7_eq q kt x0 x1 b h row hq hk]

/-- The second accumulator after a point: what it held plus the head's attention output through the head's slice of the
    output weights. -/
theorem step1 (x0 : Vec Ideal S1x1x512x64 .bf16) (x1 x2 : Vec Ideal S1x1x64x2048 .bf16) (wsl : Vec Ideal S1x64x1024 .bf16) (acc : Vec Ideal S512x1024 .f32)
    (b : Fin 4) (h : Fin 16) (row : Fin 512 → Fin 2048)
    (hq : ∀ (r : Fin 512) (d : Fin 64), x0 (ix4 (0 : Fin 1) (0 : Fin 1) r d) = q (ix4 b h (row r) d))
    (hk : ∀ (d : Fin 64) (s : Fin 2048), x1 (ix4 (0 : Fin 1) (0 : Fin 1) d s) = kt (ix4 b h d s))
    (hv : ∀ (d : Fin 64) (s : Fin 2048), x2 (ix4 (0 : Fin 1) (0 : Fin 1) d s) = vt (ix4 b h d s))
    (hw : ∀ (d : Fin 64) (e : Fin 1024), wsl (ix3 (0 : Fin 1) d e) = wh (ix3 h d e)) (r : Fin 512) (e : Fin 1024) :
    k1_pay1 (F := Ideal) (k1_pay6 (F := Ideal) x2) (k1_pay9 (F := Ideal) x0 x1) wsl acc (ix2 r e)
      = acc (ix2 r e) + ∑ d : Fin 64, attnA q kt vt b h (row r) d * wh (ix3 h d e) := by
  rw [PayIdx.k1_pay1_apply]
  unfold attnA
  simp only [PayIdx.k1_pay9_apply, PayIdx.k1_pay6_apply, pay7_eq q kt x0 x1 b h row hq hk, hv, hw]

/-! ## The sums over the heads 0..n -/

/-- Head number `n` of a run (the head coordinate is the point's number mod 16). -/
def headOf (n : ℕ) : Fin 16 := ⟨n % 16, Nat.mod_lt _ (by decide)⟩

theorem headOf_val (h : Fin 16) : headOf h.val = h := Fin.ext (Nat.mod_eq_of_lt h.isLt)

/-- The weights over sixteen, summed over the heads 0..n. -/
def accW (b : Fin 4) (t s : Fin 2048) (n : ℕ) : EReal :=
  ∑ h' ∈ Finset.range (n + 1), weightA q kt b (headOf h') t s * cSixteenth

/-- The projected attention outputs, summed over the heads 0..n. -/
def accO (b : Fin 4) (t : Fin 2048) (e : Fin 1024) (n : ℕ) : EReal :=
  ∑ h' ∈ Finset.range (n + 1), ∑ d : Fin 64, attnA q kt vt b (headOf h') t d * wh (ix3 (headOf h') d e)

theorem accW_zero (b : Fin 4) (t s : Fin 2048) : accW q kt b t s 0 = 0 + weightA q kt b (headOf 0) t s * cSixteenth := by
  unfold accW; rw [Finset.sum_range_one, zero_add]

theorem accW_succ (b : Fin 4) (t s : Fin 2048) (n : ℕ) :
    accW q kt b t s (n + 1) = accW q kt b t s n + weightA q kt b (headOf (n + 1)) t s * cSixteenth := by
  unfold accW; rw [Finset.sum_range_succ]

theorem accO_zero (b : Fin 4) (t : Fin 2048) (e : Fin 1024) :
    accO q kt vt wh b t e 0 = 0 + ∑ d : Fin 64, attnA q kt vt b (headOf 0) t d * wh (ix3 (headOf 0) d e) := by
  unfold accO; rw [Finset.sum_range_one, zero_add]

theorem accO_succ (b : Fin 4) (t : Fin 2048) (e : Fin 1024) (n : ℕ) :
    accO q kt vt wh b t e (n + 1) = accO q kt vt wh b t e n + ∑ d : Fin 64, attnA q kt vt b (headOf (n + 1)) t d * wh (ix3 (headOf (n + 1)) d e) := by
  unfold accO; rw [Finset.sum_range_succ]

/-- Over all sixteen heads the first sum is the specification's head mean. -/
theorem accW_last (b : Fin 4) (t s : Fin 2048) : accW q kt b t s 15 = avgA q kt b t s := by
  unfold accW avgA
  rw [Finset.sum_range (fun h' => weightA q kt b (headOf h') t s * cSixteenth)]
  exact Finset.sum_congr rfl fun h _ => by rw [headOf_val]

/-- Over all sixteen heads the second sum, with the bias, is the specification's output. -/
theorem accO_last (b : Fin 4) (t : Fin 2048) (e : Fin 1024) :
    accO q kt vt wh b t e 15 + br (ix2 (0 : Fin 1) e) = outA q kt vt wh br b t e := by
  unfold accO outA
  rw [Finset.sum_range (fun h' => ∑ d : Fin 64, attnA q kt vt b (headOf h') t d * wh (ix3 (headOf h') d e))]
  exact congrArg (· + br (ix2 (0 : Fin 1) e)) (Finset.sum_congr rfl fun h _ => by rw [headOf_val])

end Cert.KernelIdeal.KV1

end
-- ==== Proof.KV1Acc.lean ====
/-
  What the attention region's two accumulators hold after each grid point, and what its two output blocks hold after
  the last head of a run of sixteen points. Within the run for batch b and query rows 512 qi .. 512 qi + 511, after the
  point of head h the first accumulator holds, at (r, s), the softmax weights over sixteen summed over the heads 0..h,
  and the second, at (r, e), the heads' attention outputs through their slices of the output weights, summed likewise:
  by induction on the point, each point adding its head's term to what the point before left (the first head of a run
  to the zero block). At the last head the outputs are copied from the accumulators, the second with the bias row
  added: the specification's head mean and output projection.
-/
import proofs.«407651_j53060025975075_3_alg».proof.Proof.KIRegion1
import proofs.«407651_j53060025975075_3_alg».proof.Proof.KV1Pieces
import proofs.«407651_j53060025975075_3_alg».proof.Proof.KV1Blocks
import proofs.«407651_j53060025975075_3_alg».proof.Proof.KV1Step
import Idealize.ShloMosaic.Lib.Pipeline.Value
import Idealize.ShloMosaic.Lib.ValueIdx

set_option maxRecDepth 16384

noncomputable section

namespace Cert.KernelIdeal.KV1

open Cert.KernelIdeal Cert.KernelIdeal.Gen Cert.KernelIdeal.Hand Cert.Spec
open Idealize.ShloMosaic Idealize.ShloMosaic.TcCoe Idealize.SL.Sem Idealize.ShloMosaic.ValueIdx

/-! ## What a point leaves in the accumulators and the outputs, over what the point before left -/

section Bridge
variable (V : (c : Dev nD) → (b : Ref sig .tc) → Buf (Elt Ideal) ((c : Thread nD τ).loc b))

/-- The first accumulator as the point before left it. -/
abbrev prev0 (c : Dev nD) (t : Fin cfg1.N) : Vec Ideal S512x2048 .f32 :=
  (outsAt1 V c (t.val - 1) (Nat.lt_of_le_of_lt (Nat.sub_le _ _) t.isLt)).2.2.1
/-- The second accumulator as the point before left it. -/
abbrev prev1 (c : Dev nD) (t : Fin cfg1.N) : Vec Ideal S512x1024 .f32 :=
  (outsAt1 V c (t.val - 1) (Nat.lt_of_le_of_lt (Nat.sub_le _ _) t.isLt)).2.2.2

/-- At the first head of a run the first accumulator ends at the zero block plus the head's term. -/
theorem s0_first (c : Dev nD) (t : Fin cfg1.N) (h0 : t.val % 16 = 0) :
    (outsAt1 V c t.val t.isLt).2.2.1 = k1_pay8 (qblk V c t) (kblk V c t) (k1_pay4 (F := Ideal)) := by
  have h1 : ¬t.val % 16 = 15 := by omega
  rw [outsAt1_A V c t h0 h1]
  dsimp only
  exact sout1_A_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t)

/-- At a later head it ends at what the point before left plus the head's term. -/
theorem s0_later (c : Dev nD) (t : Fin cfg1.N) (h0 : ¬t.val % 16 = 0) :
    (outsAt1 V c t.val t.isLt).2.2.1 = k1_pay8 (qblk V c t) (kblk V c t) (prev0 V c t) := by
  by_cases h1 : t.val % 16 = 15
  · rw [outsAt1_C V c t h0 h1]
    dsimp only
    exact sout1_C_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2
  · rw [outsAt1_B V c t h0 h1]
    dsimp only
    exact sout1_B_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2

/-- The second accumulator at the first head of a run. -/
theorem s1_first (c : Dev nD) (t : Fin cfg1.N) (h0 : t.val % 16 = 0) :
    (outsAt1 V c t.val t.isLt).2.2.2 = k1_pay1 (k1_pay6 (vblk V c t)) (k1_pay9 (qblk V c t) (kblk V c t)) (View.ld (wblk V c t) (wrect (grid1.coords t))) (k1_pay5 (F := Ideal)) := by
  have h1 : ¬t.val % 16 = 15 := by omega
  rw [outsAt1_A V c t h0 h1]
  dsimp only
  exact sout1_A_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t)

/-- The second accumulator at a later head. -/
theorem s1_later (c : Dev nD) (t : Fin cfg1.N) (h0 : ¬t.val % 16 = 0) :
    (outsAt1 V c t.val t.isLt).2.2.2 = k1_pay1 (k1_pay6 (vblk V c t)) (k1_pay9 (qblk V c t) (kblk V c t)) (View.ld (wblk V c t) (wrect (grid1.coords t))) (prev1 V c t) := by
  by_cases h1 : t.val % 16 = 15
  · rw [outsAt1_C V c t h0 h1]
    dsimp only
    exact sout1_C_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2
  · rw [outsAt1_B V c t h0 h1]
    dsimp only
    exact sout1_B_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2

/-- At the last head the second output's block is the first accumulator as the point leaves it. -/
theorem o6_last (c : Dev nD) (t : Fin cfg1.N) (h1 : t.val % 16 = 15) :
    (outsAt1 V c t.val t.isLt).2.1 = k1_pay2 (outsAt1 V c t.val t.isLt).2.2.1 := by
  have h0 : ¬t.val % 16 = 0 := by omega
  rw [s0_later V c t h0, outsAt1_C V c t h0 h1]
  dsimp only
  exact out1_C_6_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2

/-- At the last head the first output's block is the second accumulator as the point leaves it, plus the bias row. -/
theorem o5_last (c : Dev nD) (t : Fin cfg1.N) (h1 : t.val % 16 = 15) :
    (outsAt1 V c t.val t.isLt).1 = k1_pay3 (outsAt1 V c t.val t.isLt).2.2.2 (bblk V c t) := by
  have h0 : ¬t.val % 16 = 0 := by omega
  rw [s1_later V c t h0, outsAt1_C V c t h0 h1]
  dsimp only
  exact out1_C_5_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2

end Bridge

/-! ## The accumulators after each point, at an index -/

section Value
variable (V : (c : Dev nD) → (b : Ref sig .tc) → Buf (Elt Ideal) ((c : Thread nD τ).loc b))

/-- The five arrays the region reads, as the specification types them: queries, transposed keys and values (head-major),
    the per-head output weights, the bias row. -/
abbrev qarr (c : Dev nD) : SQ.Idx → EReal := V c main_v9
abbrev karr (c : Dev nD) : SKt.Idx → EReal := V c main_v11
abbrev varr (c : Dev nD) : SKt.Idx → EReal := V c main_v13
abbrev warr (c : Dev nD) : SWh.Idx → EReal := V c main_v16
abbrev barr (c : Dev nD) : SBr.Idx → EReal := V c main_v17

/-- The head of a point is its number mod 16. -/
theorem hOf_eq (t : Fin cfg1.N) : hOf t = headOf t.val := rfl

/-- Within a run of sixteen points the batch does not move, -/
theorem bOf_pred (n : ℕ) (hn : n + 1 < cfg1.N) (h0 : ¬(n + 1) % 16 = 0) :
    bOf ⟨n, Nat.lt_of_succ_lt hn⟩ = bOf ⟨n + 1, hn⟩ :=
  Fin.ext (by show n / 64 = (n + 1) / 64; omega)

/-- nor do the query rows, -/
theorem rowOf_pred (n : ℕ) (hn : n + 1 < cfg1.N) (h0 : ¬(n + 1) % 16 = 0) (r : Fin 512) :
    rowOf ⟨n, Nat.lt_of_succ_lt hn⟩ r = rowOf ⟨n + 1, hn⟩ r :=
  Fin.ext (by show 512 * ((n / 16) % 4) + r.val = 512 * (((n + 1) / 16) % 4) + r.val; have : n / 16 = (n + 1) / 16 := by omega
              rw [this])

/-- and the head advances by one. -/
theorem headOf_succ (n : ℕ) (h0 : ¬(n + 1) % 16 = 0) : headOf (n % 16 + 1) = headOf (n + 1) :=
  Fin.ext (by show (n % 16 + 1) % 16 = (n + 1) % 16; omega)

theorem mod_succ (n : ℕ) (h0 : ¬(n + 1) % 16 = 0) : (n + 1) % 16 = n % 16 + 1 := by omega

/-- The first accumulator after the first head of a run. -/
theorem inv0_first (c : Dev nD) (t : Fin cfg1.N) (h0 : t.val % 16 = 0) (r : Fin 512) (s : Fin 2048) :
    (outsAt1 V c t.val t.isLt).2.2.1 (ix2 r s) = accW (qarr V c) (karr V c) (bOf t) (rowOf t r) s 0 := by
  refine (congrFun (s0_first V c t h0) (ix2 r s)).trans ?_
  refine (step0 (qarr V c) (karr V c) (qblk V c t) (kblk V c t) (k1_pay4 (F := Ideal)) (bOf t) (hOf t) (rowOf t)
    (qblk_apply V c t) (kblk_apply V c t) r s).trans ?_
  rw [PayIdx.k1_pay4_apply, accW_zero, hOf_eq]
  exact congrArg (fun h => (0 : EReal) + weightA (qarr V c) (karr V c) (bOf t) h (rowOf t r) s * cSixteenth) (Fin.ext (by show t.val % 16 = 0 % 16; omega))

/-- The first accumulator after a later head: what the point before left plus the head's weights over sixteen. -/
theorem inv0_step (c : Dev nD) (t : Fin cfg1.N) (h0 : ¬t.val % 16 = 0) (r : Fin 512) (s : Fin 2048) :
    (outsAt1 V c t.val t.isLt).2.2.1 (ix2 r s)
      = prev0 V c t (ix2 r s) + weightA (qarr V c) (karr V c) (bOf t) (hOf t) (rowOf t r) s * cSixteenth := by
  refine (congrFun (s0_later V c t h0) (ix2 r s)).trans ?_
  exact step0 (qarr V c) (karr V c) (qblk V c t) (kblk V c t) (prev0 V c t) (bOf t) (hOf t) (rowOf t)
    (qblk_apply V c t) (kblk_apply V c t) r s

/-- After the point of head h of a run the first accumulator holds the weights over sixteen summed over the heads 0..h. -/
theorem inv0 (c : Dev nD) : ∀ (n : ℕ) (hn : n < cfg1.N) (r : Fin 512) (s : Fin 2048),
    (outsAt1 V c n hn).2.2.1 (ix2 r s) = accW (qarr V c) (karr V c) (bOf ⟨n, hn⟩) (rowOf ⟨n, hn⟩ r) s (n % 16)
  | 0, hn, r, s => inv0_first V c ⟨0, hn⟩ rfl r s
  | n + 1, hn, r, s => by
    by_cases h0 : (n + 1) % 16 = 0
    · rw [h0]; exact inv0_first V c ⟨n + 1, hn⟩ h0 r s
    · refine (inv0_step V c ⟨n + 1, hn⟩ h0 r s).trans ?_
      show (outsAt1 V c n (Nat.lt_of_succ_lt hn)).2.2.1 (ix2 r s) + _ = _
      rw [inv0 c n (Nat.lt_of_succ_lt hn) r s, bOf_pred n hn h0, rowOf_pred n hn h0 r, mod_succ n h0, accW_succ, headOf_succ n h0]
      rfl

/-- The second accumulator after the first head of a run. -/
theorem inv1_first (c : Dev nD) (t : Fin cfg1.N) (h0 : t.val % 16 = 0) (r : Fin 512) (e : Fin 1024) :
    (outsAt1 V c t.val t.isLt).2.2.2 (ix2 r e) = accO (qarr V c) (karr V c) (varr V c) (warr V c) (bOf t) (rowOf t r) e 0 := by
  refine (congrFun (s1_first V c t h0) (ix2 r e)).trans ?_
  refine (step1 (qarr V c) (karr V c) (varr V c) (warr V c) (qblk V c t) (kblk V c t) (vblk V c t) (View.ld (wblk V c t) (wrect (grid1.coords t))) (k1_pay5 (F := Ideal)) (bOf t) (hOf t) (rowOf t)
    (qblk_apply V c t) (kblk_apply V c t) (vblk_apply V c t) (wslice_apply V c t) r e).trans ?_
  rw [PayIdx.k1_pay5_apply, accO_zero, hOf_eq]
  exact congrArg (fun h => (0 : EReal) + ∑ d : Fin 64, attnA (qarr V c) (karr V c) (varr V c) (bOf t) h (rowOf t r) d * warr V c (ix3 h d e)) (Fin.ext (by show t.val % 16 = 0 % 16; omega))

/-- The second accumulator after a later head. -/
theorem inv1_step (c : Dev nD) (t : Fin cfg1.N) (h0 : ¬t.val % 16 = 0) (r : Fin 512) (e : Fin 1024) :
    (outsAt1 V c t.val t.isLt).2.2.2 (ix2 r e)
      = prev1 V c t (ix2 r e) + ∑ d : Fin 64, attnA (qarr V c) (karr V c) (varr V c) (bOf t) (hOf t) (rowOf t r) d * warr V c (ix3 (hOf t) d e) := by
  refine (congrFun (s1_later V c t h0) (ix2 r e)).trans ?_
  exact step1 (qarr V c) (karr V c) (varr V c) (warr V c) (qblk V c t) (kblk V c t) (vblk V c t) (View.ld (wblk V c t) (wrect (grid1.coords t))) (prev1 V c t) (bOf t) (hOf t) (rowOf t)
    (qblk_apply V c t) (kblk_apply V c t) (vblk_apply V c t) (wslice_apply V c t) r e

/-- After the point of head h of a run the second accumulator holds the projected attention outputs of the heads 0..h. -/
theorem inv1 (c : Dev nD) : ∀ (n : ℕ) (hn : n < cfg1.N) (r : Fin 512) (e : Fin 1024),
    (outsAt1 V c n hn).2.2.2 (ix2 r e) = accO (qarr V c) (karr V c) (varr V c) (warr V c) (bOf ⟨n, hn⟩) (rowOf ⟨n, hn⟩ r) e (n % 16)
  | 0, hn, r, e => inv1_first V c ⟨0, hn⟩ rfl r e
  | n + 1, hn, r, e => by
    by_cases h0 : (n + 1) % 16 = 0
    · rw [h0]; exact inv1_first V c ⟨n + 1, hn⟩ h0 r e
    · refine (inv1_step V c ⟨n + 1, hn⟩ h0 r e).trans ?_
      show (outsAt1 V c n (Nat.lt_of_succ_lt hn)).2.2.2 (ix2 r e) + _ = _
      rw [inv1 c n (Nat.lt_of_succ_lt hn) r e, bOf_pred n hn h0, rowOf_pred n hn h0 r, mod_succ n h0, accO_succ, headOf_succ n h0]
      rfl

/-! ## The two output blocks at the last head of a run -/

/-- The first output's block after the last head: the specification's output projection at the run's batch and rows. -/
theorem acc5 (c : Dev nD) (t : Fin cfg1.N) (ht : t.val % 16 = 15) (r : Fin 512) (e : Fin 1024) :
    (outsAt1 V c t.val t.isLt).1 (ix3 (0 : Fin 1) r e)
      = outA (V c main_v9) (V c main_v11) (V c main_v13) (V c main_v16) (V c main_v17) (bOf t) (rowOf t r) e := by
  refine (congrFun (o5_last V c t ht) (ix3 (0 : Fin 1) r e)).trans ?_
  refine (PayIdx.k1_pay3_apply (outsAt1 V c t.val t.isLt).2.2.2 (bblk V c t) r e).trans ?_
  rw [inv1 V c t.val t.isLt r e, ht, bblk_eq V c t]
  exact accO_last (qarr V c) (karr V c) (varr V c) (warr V c) (barr V c) (bOf t) (rowOf t r) e

/-- The second output's block after the last head: the specification's head mean of the weights. -/
theorem acc6 (c : Dev nD) (t : Fin cfg1.N) (ht : t.val % 16 = 15) (r : Fin 512) (s : Fin 2048) :
    (outsAt1 V c t.val t.isLt).2.1 (ix3 (0 : Fin 1) r s)
      = avgA (V c main_v9) (V c main_v11) (bOf t) (rowOf t r) s := by
  refine (congrFun (o6_last V c t ht) (ix3 (0 : Fin 1) r s)).trans ?_
  refine (PayIdx.k1_pay2_apply (outsAt1 V c t.val t.isLt).2.2.1 r s).trans ?_
  rw [inv0 V c t.val t.isLt r s, ht]
  exact accW_last (qarr V c) (karr V c) (bOf t) (rowOf t r) s

end Value

end Cert.KernelIdeal.KV1

end
-- ==== Proof.KV1.lean ====
/-
  The attention region's two output arrays after its 256 grid points, over the extended reals.

  The grid is (batch b, query block qi, head h), point t = 64 b + 16 qi + h. Both outputs have blocks of 512 query rows at
  block index (b, qi, 0), accumulated over the 16 heads of a run and written back at its last head only (h = 15). After
  that point the staging buffers hold, at row r, the attention output projection, resp. the head-averaged weights, of
  batch b and query row 512 qi + r. Entry (b, t', ·) of either array is covered by the point 64 b + 16 (t' / 512) + 15,
  so the arrays end holding those two functions of the arrays the region finds on entry.
-/
import proofs.«407651_j53060025975075_3_alg».proof.Proof.KIRegion1
import proofs.«407651_j53060025975075_3_alg».proof.Proof.Spec
import proofs.«407651_j53060025975075_3_alg».proof.Proof.KV1Acc
import Idealize.ShloMosaic.Lib.Pipeline.Value
import Idealize.ShloMosaic.Lib.ValueIdx
import Idealize.ShloMosaic.Lib.Tactic

set_option maxRecDepth 16384

noncomputable section

open scoped BigOperators

namespace Cert.KernelIdeal.KV1

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The block index maps of the two outputs over the 256 points: block (b, qi, 0) at point 64 b + 16 qi + h. -/
theorem out_idx_facts : ∀ t : Fin cfg1.N, win1_5.index t (0 : Fin 3) = t.val / 64 ∧ win1_5.index t (1 : Fin 3) = t.val / 16 % 4
    ∧ win1_5.index t (2 : Fin 3) = 0
    ∧ win1_6.index t (0 : Fin 3) = t.val / 64 ∧ win1_6.index t (1 : Fin 3) = t.val / 16 % 4
    ∧ win1_6.index t (2 : Fin 3) = 0 :=
  (by decide +kernel : ∀ t : Fin grid1.N, _)

/-- The output projection as an array over (batch, query row, output lane). -/
abbrev outArr (q : S4x16x2048x64.Idx → EReal) (kt vt : S4x16x64x2048.Idx → EReal) (wh : S16x64x1024.Idx → EReal)
    (br : S1x1024.Idx → EReal) : S4x2048x1024.Idx → EReal :=
  fun j => Cert.Spec.outA q kt vt wh br (j 0) (j 1) (j 2)

/-- The head-averaged attention weights as an array over (batch, query row, key row). -/
abbrev avgArr (q : S4x16x2048x64.Idx → EReal) (kt : S4x16x64x2048.Idx → EReal) : S4x2048x2048.Idx → EReal :=
  fun j => Cert.Spec.avgA q kt (j 0) (j 1) (j 2)

theorem outArr_at (q : S4x16x2048x64.Idx → EReal) (kt vt : S4x16x64x2048.Idx → EReal) (wh : S16x64x1024.Idx → EReal)
    (br : S1x1024.Idx → EReal) (j : S4x2048x1024.Idx) (b : Fin 4) (t : Fin 2048) (e : Fin 1024)
    (h0 : (j 0).val = b.val) (h1 : (j 1).val = t.val) (h2 : (j 2).val = e.val) :
    outArr q kt vt wh br j = Cert.Spec.outA q kt vt wh br b t e := by
  have hj : j = ix3 b t e := funext fun a => Fin.ext (match a with | ⟨0, _⟩ => h0 | ⟨1, _⟩ => h1 | ⟨2, _⟩ => h2)
  subst hj
  rfl

theorem avgArr_at (q : S4x16x2048x64.Idx → EReal) (kt : S4x16x64x2048.Idx → EReal) (j : S4x2048x2048.Idx)
    (b : Fin 4) (t s : Fin 2048) (h0 : (j 0).val = b.val) (h1 : (j 1).val = t.val) (h2 : (j 2).val = s.val) :
    avgArr q kt j = Cert.Spec.avgA q kt b t s := by
  have hj : j = ix3 b t s := funext fun a => Fin.ext (match a with | ⟨0, _⟩ => h0 | ⟨1, _⟩ => h1 | ⟨2, _⟩ => h2)
  subst hj
  rfl

/-- What the last head's point of a run writes back to the first output is its block of the output projection. -/
theorem flushed5_eq (c : Dev nD) (t : Fin cfg1.N) (ht : t.val % 16 = 15) :
    (dat1 (F := Ideal) V c).flushed 5 t = ((cfg1.win 5).blk t).view.read (Elt Ideal)
      (outArr (V c main_v9) (V c main_v11) (V c main_v13) (V c main_v16) (V c main_v17)) := by
  show (cfg1.win 5).cut (grid1.coords t) ((dat1 (F := Ideal) V c).after 5 t) = _
  rw [after1_5]
  obtain ⟨e0, e1, e2, -⟩ := out_idx_facts t
  funext y
  obtain ⟨z, r, e, rfl⟩ : ∃ (z : Fin 1) (r : Fin 512) (e : Fin 1024), y = ix3 z r e := ⟨y 0, y 1, y 2, eq_ix3 y⟩
  obtain rfl : z = 0 := Subsingleton.elim _ _
  show (outsAt1 (F := Ideal) V c t.val t.isLt).1 (ix3 (0 : Fin 1) r e)
    = outArr (V c main_v9) (V c main_v11) (V c main_v13) (V c main_v16) (V c main_v17) (((cfg1.win 5).blk t).view.emb (ix3 (0 : Fin 1) r e))
  rw [acc5 V c t ht r e]
  refine (outArr_at _ _ _ _ _ _ (bOf t) (rowOf t r) e ?_ ?_ ?_).symm
  · show win1_5.index t (0 : Fin 3) * 1 + 1 * 0 = t.val / 64; omega
  · show win1_5.index t (1 : Fin 3) * 512 + 1 * r.val = 512 * (t.val / 16 % 4) + r.val; omega
  · show win1_5.index t (2 : Fin 3) * 1024 + 1 * e.val = e.val; omega

/-- What the last head's point of a run writes back to the second output is its block of the averaged weights. -/
theorem flushed6_eq (c : Dev nD) (t : Fin cfg1.N) (ht : t.val % 16 = 15) :
    (dat1 (F := Ideal) V c).flushed 6 t = ((cfg1.win 6).blk t).view.read (Elt Ideal)
      (avgArr (V c main_v9) (V c main_v11)) := by
  show (cfg1.win 6).cut (grid1.coords t) ((dat1 (F := Ideal) V c).after 6 t) = _
  rw [after1_6]
  obtain ⟨-, -, -, e0, e1, e2⟩ := out_idx_facts t
  funext y
  obtain ⟨z, r, s, rfl⟩ : ∃ (z : Fin 1) (r : Fin 512) (s : Fin 2048), y = ix3 z r s := ⟨y 0, y 1, y 2, eq_ix3 y⟩
  obtain rfl : z = 0 := Subsingleton.elim _ _
  show (outsAt1 (F := Ideal) V c t.val t.isLt).2.1 (ix3 (0 : Fin 1) r s)
    = avgArr (V c main_v9) (V c main_v11) (((cfg1.win 6).blk t).view.emb (ix3 (0 : Fin 1) r s))
  rw [acc6 V c t ht r s]
  refine (avgArr_at _ _ _ (bOf t) (rowOf t r) s ?_ ?_ ?_).symm
  · show win1_6.index t (0 : Fin 3) * 1 + 1 * 0 = t.val / 64; omega
  · show win1_6.index t (1 : Fin 3) * 512 + 1 * r.val = 512 * (t.val / 16 % 4) + r.val; omega
  · show win1_6.index t (2 : Fin 3) * 2048 + 1 * s.val = s.val; omega

/-- An index of the first output is in point t's block iff each coordinate is in the block's range on its axis. -/
theorem mem_blk5 (t : Fin cfg1.N) (i : S4x2048x1024.Idx) :
    i ∈ ((cfg1.win 5).blk t).view.set ↔ ∀ a : Fin 3, win1_5.index t a * S1x512x1024.size a ≤ (i a).val ∧ (i a).val < win1_5.index t a * S1x512x1024.size a + S1x512x1024.size a := by
  show i ∈ ((View.whole main_v18_0).slice (win1_5.rect t)).set ↔ _
  rw [View.set_slice_whole, Rect.mem_set_unit]
  exact Iff.rfl

/-- The same for the second output. -/
theorem mem_blk6 (t : Fin cfg1.N) (i : S4x2048x2048.Idx) :
    i ∈ ((cfg1.win 6).blk t).view.set ↔ ∀ a : Fin 3, win1_6.index t a * S1x512x2048.size a ≤ (i a).val ∧ (i a).val < win1_6.index t a * S1x512x2048.size a + S1x512x2048.size a := by
  show i ∈ ((View.whole main_v18_1).slice (win1_6.rect t)).set ↔ _
  rw [View.set_slice_whole, Rect.mem_set_unit]
  exact Iff.rfl

/-- Entry (b, t', ·) of the first output is in the block written back at the point 64 b + 16 (t' / 512) + 15. -/
theorem cover5 (i : S4x2048x1024.Idx) : ∃ t : Fin cfg1.N, (cfg1.win 5).flush t = true ∧ i ∈ ((cfg1.win 5).blk t).view.set := by
  have hN : cfg1.N = 256 := N_1
  have hi0 : (i 0).val < 4 := (i 0).isLt
  have hi1 : (i 1).val < 2048 := (i 1).isLt
  have hi2 : (i 2).val < 1024 := (i 2).isLt
  let t : Fin cfg1.N := ⟨64 * (i 0).val + 16 * ((i 1).val / 512) + 15, by rw [hN]; omega⟩
  have ht : t.val = 64 * (i 0).val + 16 * ((i 1).val / 512) + 15 := rfl
  obtain ⟨e0, e1, e2, -⟩ := out_idx_facts t
  refine ⟨t, (flush1_5 t).mpr (by omega), ?_⟩
  rw [mem_blk5]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 512 ≤ (i 1).val ∧ (i 1).val < win1_5.index t (1 : Fin 3) * 512 + 512; omega
  | ⟨2, _⟩ => show win1_5.index t (2 : Fin 3) * 1024 ≤ (i 2).val ∧ (i 2).val < win1_5.index t (2 : Fin 3) * 1024 + 1024; omega

/-- The same for the second output. -/
theorem cover6 (i : S4x2048x2048.Idx) : ∃ t : Fin cfg1.N, (cfg1.win 6).flush t = true ∧ i ∈ ((cfg1.win 6).blk t).view.set := by
  have hN : cfg1.N = 256 := N_1
  have hi0 : (i 0).val < 4 := (i 0).isLt
  have hi1 : (i 1).val < 2048 := (i 1).isLt
  have hi2 : (i 2).val < 2048 := (i 2).isLt
  let t : Fin cfg1.N := ⟨64 * (i 0).val + 16 * ((i 1).val / 512) + 15, by rw [hN]; omega⟩
  have ht : t.val = 64 * (i 0).val + 16 * ((i 1).val / 512) + 15 := rfl
  obtain ⟨-, -, -, e0, e1, e2⟩ := out_idx_facts t
  refine ⟨t, (flush1_6 t).mpr (by omega), ?_⟩
  rw [mem_blk6]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 512 ≤ (i 1).val ∧ (i 1).val < win1_6.index t (1 : Fin 3) * 512 + 512; omega
  | ⟨2, _⟩ => show win1_6.index t (2 : Fin 3) * 2048 ≤ (i 2).val ∧ (i 2).val < win1_6.index t (2 : Fin 3) * 2048 + 2048; omega

/-- The first output array after all 256 points: the attention output projection of the arrays the region finds on entry. -/
theorem arr1_5 (c : Dev nD) : (dat1 (F := Ideal) V c).arrAt 5 cfg1.N
    = fun j => Cert.Spec.outA (V c main_v9) (V c main_v11) (V c main_v13) (V c main_v16) (V c main_v17) (j 0) (j 1) (j 2) :=
  (dat1 (F := Ideal) V c).arrAt_eq_of_cover 5 (outArr (V c main_v9) (V c main_v11) (V c main_v13) (V c main_v16) (V c main_v17))
    (fun t hf => flushed5_eq V c t ((flush1_5 t).mp hf)) (fun i => cover5 i)

/-- The second output array after all 256 points: the head-averaged attention weights. -/
theorem arr1_6 (c : Dev nD) : (dat1 (F := Ideal) V c).arrAt 6 cfg1.N
    = fun j => Cert.Spec.avgA (V c main_v9) (V c main_v11) (j 0) (j 1) (j 2) :=
  (dat1 (F := Ideal) V c).arrAt_eq_of_cover 6 (avgArr (V c main_v9) (V c main_v11))
    (fun t hf => flushed6_eq V c t ((flush1_6 t).mp hf)) (fun i => cover6 i)

end Cert.KernelIdeal.KV1

end
-- ==== Proof.KValue.lean ====
/-
  The kernel program's two results are arrangement K of its five arguments.

  The output read back after the last stretch is the second region's output array, transposed; that array is the
  region's attention of its five entry arrays; those are layouts of the first region's projection and of the output
  weights and bias; and the projection is the fused projection of the three first arguments. The head mean is the
  second region's other array, which the last stretch leaves alone.
-/
import proofs.«407651_j53060025975075_3_alg».proof.Proof.KIRun
import proofs.«407651_j53060025975075_3_alg».proof.Proof.KGlue
import proofs.«407651_j53060025975075_3_alg».proof.Proof.KV0
import proofs.«407651_j53060025975075_3_alg».proof.Proof.KV1
import proofs.«407651_j53060025975075_3_alg».proof.Proof.Spec

noncomputable section

namespace Cert.KernelIdeal.KValue

open Cert.KernelIdeal Cert.KernelIdeal.Gen Cert.KernelIdeal.Hand Idealize.ShloMosaic Idealize.ShloMosaic.TcCoe Idealize.ShloMosaic.ValueIdx Cert.Spec

variable (m : (ℓ : Loc nD τ sig) → Buf (Elt Ideal) ℓ) (c : Dev nD)

/-! ## Row 4 t + b of the flattened activations is position (t, b) -/

theorem rowTB_div (t : Fin 2048) (b : Fin 4) (h : (rowTB t b).val / 4 < 2048) : (⟨(rowTB t b).val / 4, h⟩ : Fin 2048) = t :=
  Fin.ext (by have := t.isLt; have := b.isLt; show (t.val * 4 + b.val) / 4 = t.val; omega)
theorem rowTB_mod (t : Fin 2048) (b : Fin 4) (h : (rowTB t b).val % 4 < 4) : (⟨(rowTB t b).val % 4, h⟩ : Fin 4) = b :=
  Fin.ext (by have := t.isLt; have := b.isLt; show (t.val * 4 + b.val) % 4 = b.val; omega)

/-! ## The fused projection, as the first region leaves it -/

/-- An argument array the first region does not touch is, at the second stretch's entry, as launched. -/
theorem arg_W2 (r : Ref sig .tc) (h0 : r ∉ hostOps0_W) (hs0 : ∀ w, Pipeline.arrRef spec0 w ≠ r) :
    W2 (F := Ideal) m c (Proc.devRef .tc r) = m ((c.tc : Thread nD τ).loc r) :=
  (W2_of_ne m c r hs0).trans (KGlue.keep0 (W0 m c) r h0)

/-- The projection of the flattened activations, at row 4 t + b, is the fused projection at (t, b). -/
theorem proj_flat (a0 : SX.Idx → EReal) (a1 : SW.Idx → EReal) (a2 : SB.Idx → EReal) (t : Fin 2048) (b : Fin 4) (f : Fin 3072) :
    KV0.proj (fun j : S8192x1024.Idx => a0
        (ix3 (⟨(j 0).val / 4, by have h0 : (j 0).val < 8192 := (j 0).isLt; omega⟩ : Fin 2048)
             (⟨(j 0).val % 4, Nat.mod_lt _ (by decide)⟩ : Fin 4) (j 1)))
      a1 (fun j : S1x3072.Idx => a2 (ix1 (j 1))) (ix2 (rowTB t b) f) = qkv a0 a1 a2 t b f := by
  show (∑ k : Fin 1024, a0 (ix3 ⟨(rowTB t b).val / 4, _⟩ ⟨(rowTB t b).val % 4, _⟩ k) * a1 (ix2 f k)) + a2 (ix1 f) = _
  simp only [rowTB_div, rowTB_mod]
  rfl

theorem v3_eq (t : Fin 2048) (b : Fin 4) (f : Fin 3072) :
    W2 (F := Ideal) m c (Proc.devRef .tc main_v3) (ix2 (rowTB t b) f)
      = qkv (m ((c.tc : Thread nD τ).loc main_arg0)) (m ((c.tc : Thread nD τ).loc main_arg1)) (m ((c.tc : Thread nD τ).loc main_arg2)) t b f := by
  have h : W2 (F := Ideal) m c (Proc.devRef .tc main_v3)
      = KV0.proj (Hand.V1 m c main_v0) (Hand.V1 m c main_v1) (Hand.V1 m c main_v2) :=
    (W2_arr m c 3).trans (KV0.arr0_3 (Hand.V1 m) c)
  have h' := h.trans (congr (congr (congrArg KV0.proj (KGlue.v0_eq (W0 m c))) (KGlue.v1_eq (W0 m c))) (KGlue.v2_eq (W0 m c)))
  exact (congrFun h' _).trans (proj_flat _ _ _ t b f)

/-! ## The second region's five entry arrays are arrangement K's arrays -/

theorem q_eq : W3 (F := Ideal) m c (Proc.devRef .tc main_v9)
    = qK (m ((c.tc : Thread nD τ).loc main_arg0)) (m ((c.tc : Thread nD τ).loc main_arg1)) (m ((c.tc : Thread nD τ).loc main_arg2)) := by
  refine (KGlue.v9_eq (W2 m c)).trans (funext fun j => ?_)
  exact v3_eq m c (j 2) (j 0) (colQ (j 1) (j 3))

theorem kt_eq : W3 (F := Ideal) m c (Proc.devRef .tc main_v11)
    = ktK (m ((c.tc : Thread nD τ).loc main_arg0)) (m ((c.tc : Thread nD τ).loc main_arg1)) (m ((c.tc : Thread nD τ).loc main_arg2)) := by
  refine (KGlue.v11_eq (W2 m c)).trans (funext fun j => ?_)
  exact v3_eq m c (j 3) (j 0) (colK (j 1) (j 2))

theorem vt_eq : W3 (F := Ideal) m c (Proc.devRef .tc main_v13)
    = vtK (m ((c.tc : Thread nD τ).loc main_arg0)) (m ((c.tc : Thread nD τ).loc main_arg1)) (m ((c.tc : Thread nD τ).loc main_arg2)) := by
  refine (KGlue.v13_eq (W2 m c)).trans (funext fun j => ?_)
  exact v3_eq m c (j 3) (j 0) (colV (j 1) (j 2))

theorem wh_eq : W3 (F := Ideal) m c (Proc.devRef .tc main_v16) = whK (m ((c.tc : Thread nD τ).loc main_arg3)) := by
  refine (KGlue.v16_eq (W2 m c)).trans (funext fun j => ?_)
  exact congrFun (arg_W2 m c main_arg3 (by decide) (by decide)) _

theorem br_eq : W3 (F := Ideal) m c (Proc.devRef .tc main_v17) = brK (m ((c.tc : Thread nD τ).loc main_arg4)) := by
  refine (KGlue.v17_eq (W2 m c)).trans (funext fun j => ?_)
  exact congrFun (arg_W2 m c main_arg4 (by decide) (by decide)) _

/-! ## The two results -/

theorem out_eq : W5 (F := Ideal) m c (Proc.devRef .tc main_v19)
    = Cert.Spec.outK (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  have h : W4 (F := Ideal) m c (Proc.devRef .tc main_v18_0)
      = fun j => outA (W3 m c (Proc.devRef .tc main_v9)) (W3 m c (Proc.devRef .tc main_v11)) (W3 m c (Proc.devRef .tc main_v13))
          (W3 m c (Proc.devRef .tc main_v16)) (W3 m c (Proc.devRef .tc main_v17)) (j 0) (j 1) (j 2) :=
    (W4_arr m c 5).trans (KV1.arr1_5 (Hand.V3 m) c)
  rw [q_eq, kt_eq, vt_eq, wh_eq, br_eq] at h
  refine (KGlue.v19_eq (W4 m c)).trans (funext fun j => ?_)
  exact congrFun h _

theorem avg_eq : W5 (F := Ideal) m c (Proc.devRef .tc main_v18_1)
    = Cert.Spec.avgK (m ((c.tc : Thread nD τ).loc main_arg0)) (m ((c.tc : Thread nD τ).loc main_arg1)) (m ((c.tc : Thread nD τ).loc main_arg2)) := by
  have h : W4 (F := Ideal) m c (Proc.devRef .tc main_v18_1)
      = fun j => avgA (W3 m c (Proc.devRef .tc main_v9)) (W3 m c (Proc.devRef .tc main_v11)) (j 0) (j 1) (j 2) :=
    (W4_arr m c 6).trans (KV1.arr1_6 (Hand.V3 m) c)
  rw [q_eq, kt_eq] at h
  exact (KGlue.keep2 (W4 m c) main_v18_1 (by decide)).trans h

end Cert.KernelIdeal.KValue

end
-- ==== Proof.RefValue.lean ====
/-
  The reference program's two results, read index by index, are arrangement R of multi-head self-attention.
-/
import proofs.«407651_j53060025975075_3_alg».proof.Proof.RefRun
import proofs.«407651_j53060025975075_3_alg».proof.Proof.Spec

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

variable (x0 : (⟨S2048x4x1024, .f32⟩ : BufTy).Contents (Elt Ideal)) (x1 : (⟨S3072x1024, .f32⟩ : BufTy).Contents (Elt Ideal))
  (x2 : (⟨S3072, .f32⟩ : BufTy).Contents (Elt Ideal))

/-! ## The fused projection -/

/-- The projection with its bias, at row (t, b) and column f. -/
theorem qkv_at (t : Fin 2048) (b : Fin 4) (f : Fin 3072) :
    val_main_v3 (F := Ideal) x0 x1 x2 (ix3 t b f) = Cert.Spec.qkv x0 x1 x2 t b f := by
  rw [val_main_v3_apply, val_main_v0_apply, val_main_v2_apply, val_main_v1_apply]
  have e1 : ∀ k : Fin 1024, lidx_main_v0 (ix3 t b f) k = ix3 t b k := fun k => funext fun a => Fin.ext (by
    match a with | ⟨0, _⟩ => rfl | ⟨1, _⟩ => rfl | ⟨2, _⟩ => rfl)
  have e2 : ∀ k : Fin 1024, ridx_main_v0 (ix3 t b f) k = ix2 f k := fun k => funext fun a => Fin.ext (by
    match a with | ⟨0, _⟩ => rfl | ⟨1, _⟩ => rfl)
  have e3 : idx_main_v1 (idx_main_v2 (ix3 t b f)) = ix1 f := funext fun a => Fin.ext (by
    match a with | ⟨0, _⟩ => rfl)
  simp only [e1, e2, e3]
  rfl

/-! ## The three slices, head-major: lane `64 h + d` of the flat width is head `h`, lane `d` -/

/-- q(b, h, t, d), already scaled by 1/8. -/
theorem q_at (b : Fin 4) (h : Fin 16) (t : Fin 2048) (d : Fin 64) :
    val_main_v10 (F := Ideal) x0 x1 x2 (ix4 b h t d)
      = Cert.Spec.qkv x0 x1 x2 t b (Cert.Spec.colQ h d) * Cert.Spec.cEighth := by
  rw [val_main_v10_apply, val_main_v9_apply, val_main_v8_apply, val_main_v7_apply, val_main_cst_apply, val_main_v4_apply]
  have e : idx_main_v4 (idx_main_v9 (idx_main_v10 (ix4 b h t d))) = ix3 t b (Cert.Spec.colQ h d) := funext fun a => Fin.ext (by
    have := b.isLt; have := h.isLt; have := t.isLt; have := d.isLt
    match a with
    | ⟨0, _⟩ => show (((t.val * 4 + b.val) * 16 + h.val) * 64 + d.val) / 4096 = t.val; omega
    | ⟨1, _⟩ => show (((t.val * 4 + b.val) * 16 + h.val) * 64 + d.val) / 1024 % 4 = b.val; omega
    | ⟨2, _⟩ => show (((t.val * 4 + b.val) * 16 + h.val) * 64 + d.val) % 1024 = h.val * 64 + d.val; omega)
  rw [e, qkv_at]
  rfl

/-- k(b, h, s, d). -/
theorem k_at (b : Fin 4) (h : Fin 16) (s : Fin 2048) (d : Fin 64) :
    val_main_v12 (F := Ideal) x0 x1 x2 (ix4 b h s d) = Cert.Spec.qkv x0 x1 x2 s b (Cert.Spec.colK h d) := by
  rw [val_main_v12_apply, val_main_v11_apply, val_main_v5_apply]
  have e : idx_main_v5 (idx_main_v11 (idx_main_v12 (ix4 b h s d))) = ix3 s b (Cert.Spec.colK h d) := funext fun a => Fin.ext (by
    have := b.isLt; have := h.isLt; have := s.isLt; have := d.isLt
    match a with
    | ⟨0, _⟩ => show (((s.val * 4 + b.val) * 16 + h.val) * 64 + d.val) / 4096 = s.val; omega
    | ⟨1, _⟩ => show (((s.val * 4 + b.val) * 16 + h.val) * 64 + d.val) / 1024 % 4 = b.val; omega
    | ⟨2, _⟩ => show 1024 + (((s.val * 4 + b.val) * 16 + h.val) * 64 + d.val) % 1024 = 1024 + h.val * 64 + d.val; omega)
  rw [e, qkv_at]

/-- v(b, h, s, d). -/
theorem v_at (b : Fin 4) (h : Fin 16) (s : Fin 2048) (d : Fin 64) :
    val_main_v14 (F := Ideal) x0 x1 x2 (ix4 b h s d) = Cert.Spec.qkv x0 x1 x2 s b (Cert.Spec.colV h d) := by
  rw [val_main_v14_apply, val_main_v13_apply, val_main_v6_apply]
  have e : idx_main_v6 (idx_main_v13 (idx_main_v14 (ix4 b h s d))) = ix3 s b (Cert.Spec.colV h d) := funext fun a => Fin.ext (by
    have := b.isLt; have := h.isLt; have := s.isLt; have := d.isLt
    match a with
    | ⟨0, _⟩ => show (((s.val * 4 + b.val) * 16 + h.val) * 64 + d.val) / 4096 = s.val; omega
    | ⟨1, _⟩ => show (((s.val * 4 + b.val) * 16 + h.val) * 64 + d.val) / 1024 % 4 = b.val; omega
    | ⟨2, _⟩ => show 2048 + (((s.val * 4 + b.val) * 16 + h.val) * 64 + d.val) % 1024 = 2048 + h.val * 64 + d.val; omega)
  rw [e, qkv_at]

/-! ## The scores and the softmax over the keys -/

/-- The score of query t against key s. -/
theorem score_at (b : Fin 4) (h : Fin 16) (t s : Fin 2048) :
    val_main_v15 (F := Ideal) x0 x1 x2 (ix4 b h t s) = Cert.Spec.scoreR x0 x1 x2 b h t s := by
  rw [val_main_v15_apply]
  unfold Cert.Spec.scoreR
  refine Finset.sum_congr rfl fun d _ => ?_
  have e1 : lidx_main_v15 (ix4 b h t s) d = ix4 b h t d := funext fun a => Fin.ext (by
    match a with | ⟨0, _⟩ => rfl | ⟨1, _⟩ => rfl | ⟨2, _⟩ => rfl | ⟨3, _⟩ => rfl)
  have e2 : ridx_main_v15 (ix4 b h t s) d = ix4 b h s d := funext fun a => Fin.ext (by
    match a with | ⟨0, _⟩ => rfl | ⟨1, _⟩ => rfl | ⟨2, _⟩ => rfl | ⟨3, _⟩ => rfl)
  rw [e1, e2, q_at, k_at]

/-- The reduced index (b, h, t) with key s put back is (b, h, t, s). -/
theorem lift_keys (hr : S4x16x2048x2048.Reduces [3] S4x16x2048) (b : Fin 4) (h : Fin 16) (t : Fin 2048)
    (s : Fin (S4x16x2048x2048.size 3)) : hr.lift (ix3 b h t) s = ix4 b h t (⟨s.val, s.isLt⟩ : Fin 2048) := by
  funext c; apply Fin.ext
  fin_cases c <;> rfl

/-- The row's maximum: the fold of the maximum from −∞ over the keys, the later maximum against −∞ absorbed. -/
theorem max_at (b : Fin 4) (h : Fin 16) (t : Fin 2048) :
    val_main_v18 (F := Ideal) x0 x1 x2 (ix3 b h t) = Cert.Spec.rowMax (Cert.Spec.scoreR x0 x1 x2 b h t) := by
  have hr : S4x16x2048x2048.Reduces [3] S4x16x2048 := by decide
  rw [val_main_v18_apply, val_main_v17_apply, val_main_cst_1_apply]
  unfold val_main_v16
  rw [Host.reduce_eq_fold_single FloatOps.maximumf _ _ reducesTo_S4x16x2048x2048_S4x16x2048_d3 hr h_S_]
  have hf : (val_main_v15 (F := Ideal) x0 x1 x2 ∘ hr.lift (ix3 b h t)) = fun s : Fin 2048 => Cert.Spec.scoreR x0 x1 x2 b h t s :=
    funext fun s => by
      show val_main_v15 (F := Ideal) x0 x1 x2 (hr.lift (ix3 b h t) s) = _
      rw [lift_keys, score_at]
      rfl
  rw [hf, val_main_cst_0_apply]
  have hb : (FloatOps.ofBits (F := Ideal) .f32 0xFF800000#32 : EReal) = ⊥ := by simp [Ideal.ofBits, Ideal.ieee]
  rw [hb]
  show max (⊥ : EReal) (Finset.fold max (⊥ : EReal) (fun s : Fin 2048 => Cert.Spec.scoreR x0 x1 x2 b h t s) Finset.univ) = _
  rw [max_bot_left]
  rfl

/-- exp (score − row maximum). -/
theorem exp_at (b : Fin 4) (h : Fin 16) (t s : Fin 2048) :
    val_main_v22 (F := Ideal) x0 x1 x2 (ix4 b h t s) = Cert.Spec.expShift (Cert.Spec.scoreR x0 x1 x2 b h t) s := by
  rw [val_main_v22_apply, val_main_v21_apply, val_main_v20_apply, val_main_v19_apply]
  have e : idx_main_v19 (idx_main_v20 (ix4 b h t s)) = ix3 b h t := funext fun a => Fin.ext (by
    match a with | ⟨0, _⟩ => rfl | ⟨1, _⟩ => rfl | ⟨2, _⟩ => rfl)
  rw [e, max_at, score_at]
  rfl

/-- The row's sum of the exponentials; the float sum's initial value is the zero word. -/
theorem expSum_at (b : Fin 4) (h : Fin 16) (t : Fin 2048) :
    val_main_v23 (F := Ideal) x0 x1 x2 (ix3 b h t) = Cert.Spec.expSum (Cert.Spec.scoreR x0 x1 x2 b h t) := by
  rw [val_main_v23_apply, val_main_cst_2_apply]
  have e : ∀ k : Fin 2048, idx_main_v23 (ix3 b h t) k = ix4 b h t k := fun k => funext fun a => Fin.ext (by
    match a with | ⟨0, _⟩ => rfl | ⟨1, _⟩ => rfl | ⟨2, _⟩ => rfl | ⟨3, _⟩ => rfl)
  simp only [e, exp_at]
  show Ideal.ofBits .f32 0x00000000#32 + _ = _
  rw [Ideal.ofBits_zero_f32, zero_add]
  rfl

/-- The attention weight of key s for query t: the exponential over the row's sum. -/
theorem weight_at (b : Fin 4) (h : Fin 16) (t s : Fin 2048) :
    val_main_v26 (F := Ideal) x0 x1 x2 (ix4 b h t s) = Cert.Spec.weightR x0 x1 x2 b h t s := by
  rw [val_main_v26_apply, val_main_v25_apply, val_main_v24_apply]
  have e : idx_main_v24 (idx_main_v25 (ix4 b h t s)) = ix3 b h t := funext fun a => Fin.ext (by
    match a with | ⟨0, _⟩ => rfl | ⟨1, _⟩ => rfl | ⟨2, _⟩ => rfl)
  rw [e, expSum_at, exp_at]
  rfl

/-! ## The attention, its flat arrangement, and the two results -/

/-- attn(b, h, t, d) = Σ_s weight(t, s) · v(s, d). -/
theorem attn_at (b : Fin 4) (h : Fin 16) (t : Fin 2048) (d : Fin 64) :
    val_main_v27 (F := Ideal) x0 x1 x2 (ix4 b h t d) = Cert.Spec.attnR x0 x1 x2 b h t d := by
  rw [val_main_v27_apply]
  unfold Cert.Spec.attnR
  refine Finset.sum_congr rfl fun s _ => ?_
  have e1 : lidx_main_v27 (ix4 b h t d) s = ix4 b h t s := funext fun a => Fin.ext (by
    match a with | ⟨0, _⟩ => rfl | ⟨1, _⟩ => rfl | ⟨2, _⟩ => rfl | ⟨3, _⟩ => rfl)
  have e2 : ridx_main_v27 (ix4 b h t d) s = ix4 b h s d := funext fun a => Fin.ext (by
    match a with | ⟨0, _⟩ => rfl | ⟨1, _⟩ => rfl | ⟨2, _⟩ => rfl | ⟨3, _⟩ => rfl)
  rw [e1, e2, weight_at, v_at]

/-- Back to rows (t, b) with the heads side by side: lane e' is head e' / 64, lane e' % 64. -/
theorem flat_at (t : Fin 2048) (b : Fin 4) (e' : Fin 1024) :
    val_main_v29 (F := Ideal) x0 x1 x2 (ix3 t b e') = Cert.Spec.attnFlatR x0 x1 x2 t b e' := by
  rw [val_main_v29_apply, val_main_v28_apply]
  have e : idx_main_v28 (idx_main_v29 (ix3 t b e'))
      = ix4 b (⟨e'.val / 64, by have := e'.isLt; omega⟩ : Fin 16) t (⟨e'.val % 64, Nat.mod_lt _ (by decide)⟩ : Fin 64) :=
    funext fun a => Fin.ext (by
      have := t.isLt; have := b.isLt; have := e'.isLt
      match a with
      | ⟨0, _⟩ => show ((t.val * 4 + b.val) * 1024 + e'.val) / 1024 % 4 = b.val; omega
      | ⟨1, _⟩ => show ((t.val * 4 + b.val) * 1024 + e'.val) / 64 % 16 = e'.val / 64; omega
      | ⟨2, _⟩ => show ((t.val * 4 + b.val) * 1024 + e'.val) / 4096 = t.val; omega
      | ⟨3, _⟩ => show ((t.val * 4 + b.val) * 1024 + e'.val) % 64 = e'.val % 64; omega)
  rw [e, attn_at]
  rfl

/-- The output contraction over the flat width, plus the bias. -/
theorem out_at (x3 : (⟨S1024x1024, .f32⟩ : BufTy).Contents (Elt Ideal)) (x4 : (⟨S1024, .f32⟩ : BufTy).Contents (Elt Ideal))
    (i : S2048x4x1024.Idx) :
    val_main_v33 (F := Ideal) x0 x1 x2 x3 x4 i = Cert.Spec.outR x0 x1 x2 x3 x4 i := by
  obtain ⟨t, b, e, rfl⟩ : ∃ (t : Fin 2048) (b : Fin 4) (e : Fin 1024), i = ix3 t b e := ⟨i 0, i 1, i 2, eq_ix3 i⟩
  rw [val_main_v33_apply, val_main_v30_apply, val_main_v32_apply, val_main_v31_apply]
  have e1 : ∀ k : Fin 1024, lidx_main_v30 (ix3 t b e) k = ix3 t b k := fun k => funext fun a => Fin.ext (by
    match a with | ⟨0, _⟩ => rfl | ⟨1, _⟩ => rfl | ⟨2, _⟩ => rfl)
  have e2 : ∀ k : Fin 1024, ridx_main_v30 (ix3 t b e) k = ix2 e k := fun k => funext fun a => Fin.ext (by
    match a with | ⟨0, _⟩ => rfl | ⟨1, _⟩ => rfl)
  have e3 : idx_main_v31 (idx_main_v32 (ix3 t b e)) = ix1 e := funext fun a => Fin.ext (by
    match a with | ⟨0, _⟩ => rfl)
  simp only [e1, e2, e3, flat_at]
  rfl

/-- The sum of the heads' weights over sixteen; the float sum's initial value is the zero word. -/
theorem avg_at (i : S4x2048x2048.Idx) :
    val_main_v36 (F := Ideal) x0 x1 x2 i = Cert.Spec.avgR x0 x1 x2 i := by
  obtain ⟨b, t, s, rfl⟩ : ∃ (b : Fin 4) (t s : Fin 2048), i = ix3 b t s := ⟨i 0, i 1, i 2, eq_ix3 i⟩
  rw [val_main_v36_apply, val_main_v35_apply, val_main_cst_4_apply, val_main_v34_apply, val_main_cst_3_apply]
  have e : ∀ k : Fin 16, idx_main_v34 (ix3 b t s) k = ix4 b k t s := fun k => funext fun a => Fin.ext (by
    match a with | ⟨0, _⟩ => rfl | ⟨1, _⟩ => rfl | ⟨2, _⟩ => rfl | ⟨3, _⟩ => rfl)
  simp only [e, weight_at]
  show Ideal.div (Ideal.ofBits .f32 0x00000000#32 + _) _ = _
  rw [Ideal.ofBits_zero_f32, zero_add]
  rfl

/-! ## The two results of the run -/

theorem out_eq (m : (ℓ : Loc nD τ sig) → Buf (Elt Ideal) ℓ) (c : Dev nD) :
    Cert.ReferenceIdeal.Value.res_out0 (F := Ideal) m c
      = Cert.Spec.outR (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  show Cert.ReferenceIdeal.Value.res_main_v33 (F := Ideal) m c = _
  rw [val_main_v33_eq]
  funext i
  exact out_at _ _ _ _ _ i

theorem avg_eq (m : (ℓ : Loc nD τ sig) → Buf (Elt Ideal) ℓ) (c : Dev nD) :
    Cert.ReferenceIdeal.Value.res_out1 (F := Ideal) m c
      = Cert.Spec.avgR (m ((c.tc : Thread nD τ).loc main_arg0)) (m ((c.tc : Thread nD τ).loc main_arg1))
          (m ((c.tc : Thread nD τ).loc main_arg2)) := by
  show Cert.ReferenceIdeal.Value.res_main_v36 (F := Ideal) m c = _
  rw [val_main_v36_eq]
  funext i
  exact avg_at _ _ _ i

end Cert.ReferenceIdeal.RefValue

end
-- ==== Proof.Algebra.lean ====
/-
  The two arrangements of multi-head self-attention agree over finite inputs.

  Every intermediate value of either arrangement is then a real, and on the reals the four differences
  between them are identities of a commutative field: (Σ a·b)·c = Σ (a·c)·b, p·(1/l) = p/l for l ≠ 0,
  Σ w·(1/16) = (Σ w)/16, and a double sum over 16 heads × 64 lanes is the single sum over 1024 columns.
-/
import proofs.«407651_j53060025975075_3_alg».proof.Proof.Spec
import Mathlib.Data.EReal.Inv
import Mathlib.Algebra.BigOperators.Fin
import Mathlib.Analysis.SpecialFunctions.Exp

noncomputable section

namespace Cert.Spec

open Idealize.ShloMosaic Idealize.ShloMosaic.ValueIdx
open scoped BigOperators

/-- Every entry is a real: neither infinity. -/
def IsFin {S : Shape} (f : S.Idx → EReal) : Prop := ∀ i, f i ≠ ⊤ ∧ f i ≠ ⊥

theorem IsFin.real {S : Shape} {f : S.Idx → EReal} (h : IsFin f) (i : S.Idx) : ∃ r : ℝ, f i = r :=
  ⟨(f i).toReal, (EReal.coe_toReal (h i).1 (h i).2).symm⟩

/-- The inclusion of the reals in the extended reals goes through a finite sum. -/
@[norm_cast] theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-! ## The constants -/

theorem cEighth_eq : cEighth = ((1 / 8 : ℝ) : EReal) := by
  simp [cEighth, Ideal.ofBits, Ideal.ieee, -EReal.coe_mul]; norm_num
theorem cSixteenth_eq : cSixteenth = ((1 / 16 : ℝ) : EReal) := by
  simp [cSixteenth, Ideal.ofBits, Ideal.ieee, -EReal.coe_mul]; norm_num
theorem cSixteen_eq : cSixteen = ((16 : ℝ) : EReal) := by
  simp [cSixteen, Ideal.ofBits, Ideal.ieee, -EReal.coe_mul]; norm_num
theorem cOne_eq : cOne = 1 := by
  simp [cOne, Ideal.ofBits, Ideal.ieee, -EReal.coe_mul]; norm_num

/-! ## Step 1: the fused projection of finite inputs is a real -/

section Args
variable (x : SX.Idx → EReal) (w : SW.Idx → EReal) (bi : SB.Idx → EReal) (wo : SWo.Idx → EReal) (bo : SBo.Idx → EReal)

theorem qkv_real (hx : IsFin x) (hw : IsFin w) (hb : IsFin bi) (t : Fin 2048) (b : Fin 4) (f : Fin 3072) :
    ∃ r : ℝ, qkv x w bi t b f = r := by
  choose xr hxr using hx.real
  choose wr hwr using hw.real
  choose br hbr using hb.real
  refine ⟨(∑ k : Fin 1024, xr (ix3 t b k) * wr (ix2 f k)) + br (ix1 f), ?_⟩
  unfold qkv
  simp only [hxr, hwr, hbr]
  norm_cast

end Args

/-! ## Step 2: the factor on the finished contraction, or on its first operand -/

theorem sum_mul_const_eq {n : Nat} (a b : Fin n → ℝ) (c : ℝ) :
    (∑ d : Fin n, (a d : EReal) * (b d : EReal)) * (c : EReal)
      = ∑ d : Fin n, ((a d : EReal) * (c : EReal)) * (b d : EReal) := by
  have h : (∑ d : Fin n, a d * b d) * c = ∑ d : Fin n, (a d * c) * b d := by
    rw [Finset.sum_mul]; exact Finset.sum_congr rfl (fun d _ => by ring)
  exact_mod_cast congrArg (fun r : ℝ => (r : EReal)) h

/-! ## Step 3: the softmax of a row of reals, dividing by the sum or multiplying by its reciprocal -/

theorem rowMax_real (g : Fin 2048 → ℝ) : ∃ m : ℝ, rowMax (fun s => (g s : EReal)) = m := by
  obtain ⟨i, -, hi⟩ := Finset.exists_mem_eq_sup Finset.univ Finset.univ_nonempty (fun s : Fin 2048 => (g s : EReal))
  exact ⟨g i, hi⟩

/-- Both spellings of the softmax of a row of reals are one row of reals. -/
theorem softmax_real (g : Fin 2048 → ℝ) :
    ∃ p : Fin 2048 → ℝ, (∀ s, softmaxK (fun s => (g s : EReal)) s = p s) ∧ (∀ s, softmaxR (fun s => (g s : EReal)) s = p s) := by
  obtain ⟨m, hm⟩ := rowMax_real g
  have hp : ∀ s, expShift (fun s => (g s : EReal)) s = ((Real.exp (g s - m) : ℝ) : EReal) := by
    intro s
    show Ideal.exp ((g s : EReal) - rowMax (fun s => (g s : EReal))) = _
    rw [hm, ← EReal.coe_sub, Ideal.exp_coe]
  have hl : expSum (fun s => (g s : EReal)) = ((∑ s : Fin 2048, Real.exp (g s - m) : ℝ) : EReal) := by
    unfold expSum; rw [coe_sum]; exact Finset.sum_congr rfl (fun s _ => hp s)
  have hpos : (0 : ℝ) < ∑ s : Fin 2048, Real.exp (g s - m) :=
    Finset.sum_pos (fun s _ => Real.exp_pos _) Finset.univ_nonempty
  refine ⟨fun s => Real.exp (g s - m) * (1 / ∑ s : Fin 2048, Real.exp (g s - m)), fun s => ?_, fun s => ?_⟩
  · unfold softmaxK; rw [hp, hl, cOne_eq, Ideal.div_coe hpos.ne', one_mul, EReal.coe_mul]
  · unfold softmaxR; rw [hp, hl, Ideal.div_coe hpos.ne', EReal.coe_mul]

section Args
variable (x : SX.Idx → EReal) (w : SW.Idx → EReal) (bi : SB.Idx → EReal) (wo : SWo.Idx → EReal) (bo : SBo.Idx → EReal)

/-- The two scores are one row of reals. -/
theorem score_real_eq (hx : IsFin x) (hw : IsFin w) (hb : IsFin bi) (b : Fin 4) (h : Fin 16) (t : Fin 2048) :
    ∃ g : Fin 2048 → ℝ, scoreA (qK x w bi) (ktK x w bi) b h t = (fun s => (g s : EReal))
      ∧ scoreR x w bi b h t = (fun s => (g s : EReal)) := by
  choose qr hq using qkv_real x w bi hx hw hb
  refine ⟨fun s => ∑ d : Fin 64, (qr t b (colQ h d) * (1 / 8)) * qr s b (colK h d), ?_, ?_⟩
  · funext s
    show (∑ d : Fin 64, qkv x w bi t b (colQ h d) * qkv x w bi s b (colK h d)) * cEighth = _
    simp only [hq, cEighth_eq]
    rw [sum_mul_const_eq]
    norm_cast
  · funext s
    unfold scoreR
    simp only [hq, cEighth_eq]
    norm_cast

/-- The two attention weights are one row of reals. -/
theorem weight_real_eq (hx : IsFin x) (hw : IsFin w) (hb : IsFin bi) (b : Fin 4) (h : Fin 16) (t : Fin 2048) :
    ∃ p : Fin 2048 → ℝ, (∀ s, weightA (qK x w bi) (ktK x w bi) b h t s = p s) ∧ (∀ s, weightR x w bi b h t s = p s) := by
  obtain ⟨g, hA, hR⟩ := score_real_eq x w bi hx hw hb b h t
  obtain ⟨p, hpK, hpR⟩ := softmax_real g
  exact ⟨p, fun s => by unfold weightA; rw [hA]; exact hpK s, fun s => by unfold weightR; rw [hR]; exact hpR s⟩

/-! ## Step 4: the weighted sums of the value columns -/

theorem attnA_eq_attnR (hx : IsFin x) (hw : IsFin w) (hb : IsFin bi) (b : Fin 4) (h : Fin 16) (t : Fin 2048) (d : Fin 64) :
    attnA (qK x w bi) (ktK x w bi) (vtK x w bi) b h t d = attnR x w bi b h t d := by
  obtain ⟨p, hA, hR⟩ := weight_real_eq x w bi hx hw hb b h t
  unfold attnA attnR
  exact Finset.sum_congr rfl (fun s _ => by rw [hA, hR]; rfl)

end Args

/-! ## Step 5: 16 heads of 64 lanes are the 1024 columns -/

/-- Head h, lane d is column 64 h + d. -/
def headLane : Fin 16 × Fin 64 ≃ Fin 1024 where
  toFun p := colE p.1 p.2
  invFun e := (⟨e.val / 64, by have := e.isLt; omega⟩, ⟨e.val % 64, Nat.mod_lt _ (by decide)⟩)
  left_inv := by
    rintro ⟨h, d⟩
    have := h.isLt; have := d.isLt
    refine Prod.ext (Fin.ext ?_) (Fin.ext ?_)
    · show (h.val * 64 + d.val) / 64 = h.val; omega
    · show (h.val * 64 + d.val) % 64 = d.val; omega
  right_inv := by
    intro e
    refine Fin.ext ?_
    show e.val / 64 * 64 + e.val % 64 = e.val; omega

theorem sum_head_lane {M : Type} [AddCommMonoid M] (G : Fin 1024 → M) :
    ∑ h : Fin 16, ∑ d : Fin 64, G (colE h d) = ∑ e' : Fin 1024, G e' := by
  rw [← Fintype.sum_prod_type' (f := fun h d => G (colE h d))]
  exact Fintype.sum_equiv headLane _ _ (fun p => rfl)

section Args
variable (x : SX.Idx → EReal) (w : SW.Idx → EReal) (bi : SB.Idx → EReal) (wo : SWo.Idx → EReal) (bo : SBo.Idx → EReal)

theorem attnFlatR_colE (t : Fin 2048) (b : Fin 4) (h : Fin 16) (d : Fin 64) :
    attnFlatR x w bi t b (colE h d) = attnR x w bi b h t d := by
  have := h.isLt; have := d.isLt
  unfold attnFlatR
  congr 1
  · exact Fin.ext (show (h.val * 64 + d.val) / 64 = h.val by omega)
  · exact Fin.ext (show (h.val * 64 + d.val) % 64 = d.val by omega)

theorem outK_eq_outR (hx : IsFin x) (hw : IsFin w) (hb : IsFin bi) (hwo : IsFin wo) (hbo : IsFin bo) :
    outK x w bi wo bo = outR x w bi wo bo := by
  funext i
  obtain ⟨t, b, e, rfl⟩ : ∃ (t : Fin 2048) (b : Fin 4) (e : Fin 1024), i = ix3 t b e := ⟨_, _, _, eq_ix3 i⟩
  show (∑ h : Fin 16, ∑ d : Fin 64,
        attnA (qK x w bi) (ktK x w bi) (vtK x w bi) b h t d * wo (ix2 e (colE h d))) + bo (ix1 e)
      = (∑ e' : Fin 1024, attnFlatR x w bi t b e' * wo (ix2 e e')) + bo (ix1 e)
  rw [← sum_head_lane (fun e' => attnFlatR x w bi t b e' * wo (ix2 e e'))]
  congr 1
  refine Finset.sum_congr rfl (fun h _ => Finset.sum_congr rfl (fun d _ => ?_))
  rw [attnFlatR_colE, attnA_eq_attnR x w bi hx hw hb]

/-! ## Step 6: the mean over the heads -/

theorem avgK_eq_avgR (hx : IsFin x) (hw : IsFin w) (hb : IsFin bi) : avgK x w bi = avgR x w bi := by
  funext i
  obtain ⟨b, t, s, rfl⟩ : ∃ (b : Fin 4) (t s : Fin 2048), i = ix3 b t s := ⟨_, _, _, eq_ix3 i⟩
  show ∑ h : Fin 16, weightA (qK x w bi) (ktK x w bi) b h t s * cSixteenth
      = Ideal.div (∑ h : Fin 16, weightR x w bi b h t s) cSixteen
  choose p hA hR using fun h => weight_real_eq x w bi hx hw hb b h t
  simp only [hA, hR, cSixteenth_eq, cSixteen_eq]
  rw [Ideal.div_coe (by norm_num : (16 : ℝ) ≠ 0)]
  have e : ∑ h : Fin 16, p h s * (1 / 16) = (∑ h : Fin 16, p h s) * (1 / 16) := (Finset.sum_mul _ _ _).symm
  exact_mod_cast congrArg (fun r : ℝ => (r : EReal)) e

end Args

end Cert.Spec

end
-- ==== Proof.Finite.lean ====
/-
  From the precondition to finiteness of the inputs. The precondition states that, for each of the five
  argument arrays, every entry x satisfies |x| < +∞ (a reduction by "and" of the elementwise comparison
  that comes out 1). Over the extended reals |x| = max x (-x), and max x (-x) < ⊤ holds exactly when
  x is neither ⊤ nor ⊥. Hence every entry of every argument array is a real number.
-/
import proofs.«407651_j53060025975075_3_alg».proof.Defs
import Idealize.ShloMosaic.Lib.ReduceAll
import Idealize.ShloMosaic.Lib.ValueIdx
import Idealize.ShloMosaic.PureOps.Ideal.Laws

noncomputable section

namespace Cert.KernelIdeal.Finite

open Idealize.ShloMosaic Idealize.SL.Sem Idealize.ShloMosaic.ValueIdx

/-- The shape of a scalar has exactly one index. -/
instance subsingleton_scalar_idx : Subsingleton (⟨0, ![]⟩ : Shape).Idx :=
  ⟨fun a b => funext fun d => d.elim0⟩

/-- The pattern 0x7F800000 denotes +∞. -/
theorem ofBits_inf : Ideal.ofBits .f32 0x7F800000#32 = (⊤ : EReal) := by
  simp [Ideal.ofBits, Ideal.ieee]

/-- On the extended reals, max x (-x) < ⊤ says x is neither infinity. -/
theorem ne_top_bot_of_abs_lt_top (x : EReal) (h : max x (-x) < ⊤) : x ≠ ⊤ ∧ x ≠ ⊥ := by
  rw [max_lt_iff] at h
  refine ⟨ne_of_lt h.1, ?_⟩
  rintro rfl
  simp at h

/-- One array: if the "and" over all entries of |x| < +∞ is 1, every entry is a real. -/
theorem finite_of_all_lt_inf {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
          (cmpf .olt (Host.absf x) (broadcastInDim s ![] hb (constant (⟨0, ![]⟩ : Shape) .f32 0x7F800000#32)))
          (constantI (⟨0, ![]⟩ : Shape) 1 1#1) hr hu ix0 = 1#1) :
    ∀ i, x i ≠ (⊤ : EReal) ∧ x i ≠ (⊥ : EReal) := by
  intro i
  have h1 := Host.reduce_andi_all _ _ hr hu ix0 e i
  have h2 : Ideal.cmp .olt (max (x i : EReal) (-(x i : EReal))) (Ideal.ofBits .f32 0x7F800000#32) = 1#1 := h1
  rw [ofBits_inf] at h2
  apply ne_top_bot_of_abs_lt_top
  by_contra hn
  simp [Ideal.cmp, hn] at h2

variable [hP : Cert.Pre_finite_inputs.Facts]

theorem finite_of_pre (m : (ℓ : Loc Cert.KernelIdeal.nD Cert.KernelIdeal.τ Cert.KernelIdeal.sig) → Buf (Elt Ideal) ℓ)
    (h : Cert.Pre_KernelIdeal m) (c : Dev Cert.KernelIdeal.nD) :
      (∀ i, m ((c.tc : Thread Cert.KernelIdeal.nD Cert.KernelIdeal.τ).loc Cert.KernelIdeal.main_arg0) i ≠ (⊤ : EReal)
          ∧ m ((c.tc : Thread Cert.KernelIdeal.nD Cert.KernelIdeal.τ).loc Cert.KernelIdeal.main_arg0) i ≠ (⊥ : EReal))
    ∧ (∀ i, m ((c.tc : Thread Cert.KernelIdeal.nD Cert.KernelIdeal.τ).loc Cert.KernelIdeal.main_arg1) i ≠ (⊤ : EReal)
          ∧ m ((c.tc : Thread Cert.KernelIdeal.nD Cert.KernelIdeal.τ).loc Cert.KernelIdeal.main_arg1) i ≠ (⊥ : EReal))
    ∧ (∀ i, m ((c.tc : Thread Cert.KernelIdeal.nD Cert.KernelIdeal.τ).loc Cert.KernelIdeal.main_arg2) i ≠ (⊤ : EReal)
          ∧ m ((c.tc : Thread Cert.KernelIdeal.nD Cert.KernelIdeal.τ).loc Cert.KernelIdeal.main_arg2) i ≠ (⊥ : EReal))
    ∧ (∀ i, m ((c.tc : Thread Cert.KernelIdeal.nD Cert.KernelIdeal.τ).loc Cert.KernelIdeal.main_arg3) i ≠ (⊤ : EReal)
          ∧ m ((c.tc : Thread Cert.KernelIdeal.nD Cert.KernelIdeal.τ).loc Cert.KernelIdeal.main_arg3) i ≠ (⊥ : EReal))
    ∧ (∀ i, m ((c.tc : Thread Cert.KernelIdeal.nD Cert.KernelIdeal.τ).loc Cert.KernelIdeal.main_arg4) i ≠ (⊤ : EReal)
          ∧ m ((c.tc : Thread Cert.KernelIdeal.nD Cert.KernelIdeal.τ).loc Cert.KernelIdeal.main_arg4) i ≠ (⊥ : EReal)) := by
  have h0 := congrFun (h c) ix0
  dsimp only [Cert.Pre_finite_inputs.fn, Cert.Pre_finite_inputs.fn_part1] at h0
  simp only [andi, IntOp.andi_eq_one] at h0
  obtain ⟨⟨⟨⟨e0, e1⟩, e2⟩, e3⟩, e4⟩ := h0
  exact ⟨finite_of_all_lt_inf _ _ _ _ e0, finite_of_all_lt_inf _ _ _ _ e1, finite_of_all_lt_inf _ _ _ _ e2,
    finite_of_all_lt_inf _ _ _ _ e3, finite_of_all_lt_inf _ _ _ _ e4⟩

end Cert.KernelIdeal.Finite

end
-- ==== Proof.lean ====
/-
  Fused multi-head self-attention in two kernel regions against its plain reference, over the extended reals.

  The kernel program projects x to q, k, v in a first region (row blocks of 512, a bf16 matrix product plus
  bias), lays q, k, v out per head on the host, and in a second region, per batch and block of 512 query rows,
  sweeps the 16 heads: scores (Σ_d q·k)·(1/8), an exact softmax p·(1/l), the head mean accumulated as Σ_h w_h·(1/16)
  and the output projection accumulated head by head in two buffers kept between grid points, written out with the
  bias at the last head. The reference scales q by 1/8 before the contraction, divides p/l, sums the heads and
  divides by 16, and contracts the flattened attention with the whole output weight. A change of float format is
  the identity on the extended reals, so the two are one computation in two arrangements (Proof/Spec.lean), equal
  wherever the inputs are finite (Proof/Algebra.lean), which is the precondition (Proof/Finite.lean).

  The frames: the word-level and the idealized kernel programs run to the end through the same five segments
  (Proof/KBRun.lean, Proof/KIRun.lean), the reference by its run.
-/
import proofs.«407651_j53060025975075_3_alg».proof.Defs
import proofs.«407651_j53060025975075_3_alg».proof.Proof.Gen.Kernel
import proofs.«407651_j53060025975075_3_alg».proof.Proof.Gen.KernelIdeal
import proofs.«407651_j53060025975075_3_alg».proof.Proof.Gen.ReferenceIdeal
import proofs.«407651_j53060025975075_3_alg».proof.Proof.Gen.Pre_finite_inputs
import proofs.«407651_j53060025975075_3_alg».proof.Proof.RefRun
import proofs.«407651_j53060025975075_3_alg».proof.Proof.KBRun
import proofs.«407651_j53060025975075_3_alg».proof.Proof.KIRun
import proofs.«407651_j53060025975075_3_alg».proof.Proof.KValue
import proofs.«407651_j53060025975075_3_alg».proof.Proof.RefValue
import proofs.«407651_j53060025975075_3_alg».proof.Proof.Algebra
import proofs.«407651_j53060025975075_3_alg».proof.Proof.Finite
import Idealize.ShloMosaic.Adequacy
import Idealize.ShloMosaic.Init

noncomputable section

namespace Cert.Proof

open Idealize.ShloMosaic Idealize.ShloMosaic.TcCoe Idealize.SL.Sem

section
variable [hK : Cert.Kernel.Facts] [hKI : Cert.KernelIdeal.Facts] [hR : Cert.ReferenceIdeal.Facts] [hP : Cert.Pre_finite_inputs.Facts]

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2.2) (Cert.ReferenceIdeal.Value.run (F := Ideal) m ρ)

/-- Both idealized programs end with arrangement K of the kernel program's arguments: the kernel program by its
    run and its two results read off the last boundary, the reference by its run, its composed term being
    arrangement R of arguments that agree with the kernel's and are finite. -/
theorem algebraic : Cert.algebraic_KernelIdeal_ReferenceIdeal := by
  intro m ρ m' ρ' hpre hagree
  refine ⟨fun c => Cert.Spec.outK (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3)) (m ((c.tc : Thread _ _).loc Cert.KernelIdeal.main_arg4)),
    fun c => Cert.Spec.avgK (m ((c.tc : Thread _ _).loc Cert.KernelIdeal.main_arg0)) (m ((c.tc : Thread _ _).loc Cert.KernelIdeal.main_arg1))
      (m ((c.tc : Thread _ _).loc Cert.KernelIdeal.main_arg2)), ?_, ?_⟩
  · refine (θ_run Cert.KernelIdeal.defs _ _).mono (fun r h c => ?_) (Cert.KernelIdeal.Hand.run_all (F := Ideal) m ρ)
    refine ⟨(h c _ (Cert.KernelIdeal.Hand.mem_uc Cert.KernelIdeal.main_v19 (by decide))).trans (Cert.KernelIdeal.KValue.out_eq m c),
      (h c _ (Cert.KernelIdeal.Hand.mem_uc Cert.KernelIdeal.main_v18_1 (by decide))).trans (Cert.KernelIdeal.KValue.avg_eq m c),
      (h c _ (Cert.KernelIdeal.Hand.mem_uc Cert.KernelIdeal.main_arg0 (by decide))).trans (Cert.KernelIdeal.Hand.W5_arg m c Cert.KernelIdeal.main_arg0 (by decide) (by decide) (by decide) (by decide) (by decide)),
      (h c _ (Cert.KernelIdeal.Hand.mem_uc Cert.KernelIdeal.main_arg1 (by decide))).trans (Cert.KernelIdeal.Hand.W5_arg m c Cert.KernelIdeal.main_arg1 (by decide) (by decide) (by decide) (by decide) (by decide)),
      (h c _ (Cert.KernelIdeal.Hand.mem_uc Cert.KernelIdeal.main_arg2 (by decide))).trans (Cert.KernelIdeal.Hand.W5_arg m c Cert.KernelIdeal.main_arg2 (by decide) (by decide) (by decide) (by decide) (by decide)),
      (h c _ (Cert.KernelIdeal.Hand.mem_uc Cert.KernelIdeal.main_arg3 (by decide))).trans (Cert.KernelIdeal.Hand.W5_arg m c Cert.KernelIdeal.main_arg3 (by decide) (by decide) (by decide) (by decide) (by decide)),
      (h c _ (Cert.KernelIdeal.Hand.mem_uc Cert.KernelIdeal.main_arg4 (by decide))).trans (Cert.KernelIdeal.Hand.W5_arg m c Cert.KernelIdeal.main_arg4 (by decide) (by decide) (by decide) (by decide) (by decide))⟩
  · refine (θ_run Cert.ReferenceIdeal.defs _ _).mono (fun r h c => ?_) (Cert.ReferenceIdeal.Value.run (F := Ideal) m' ρ')
    obtain ⟨f0, f1, f2, f3, f4⟩ := Cert.KernelIdeal.Finite.finite_of_pre m hpre c
    obtain ⟨e0, e1, e2, e3, e4⟩ := hagree c
    refine ⟨(h c).1.trans ?_, (h c).2.1.trans ?_, (h c).2.2⟩
    · rw [show Cert.ReferenceIdeal.Value.res_main_v33 m' c = Cert.ReferenceIdeal.Value.res_out0 m' c from rfl,
        Cert.ReferenceIdeal.RefValue.out_eq m' c, e0, e1, e2, e3, e4]
      exact (Cert.Spec.outK_eq_outR _ _ _ _ _ f0 f1 f2 f3 f4).symm
    · rw [show Cert.ReferenceIdeal.Value.res_main_v36 m' c = Cert.ReferenceIdeal.Value.res_out1 m' c from rfl,
        Cert.ReferenceIdeal.RefValue.avg_eq m' c, e0, e1, e2]
      exact (Cert.Spec.avgK_eq_avgR _ _ _ f0 f1 f2).symm

end

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
